-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S1600000 : Shape := ⟨1, ![1600000]⟩
abbrev S100000 : Shape := ⟨1, ![100000]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x128 .f32) (main_arg7 : FVec F S128 .f32) (main_arg8 : FVec F S128x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x16 .f32) (main_arg1 : IVec S2x1600000 32) (main_arg2 : FVec F S1600000 .f32) (main_arg3 : IVec S100000 32) (main_arg4 : FVec F S16x64 .f32) (main_arg5 : FVec F S64 .f32) (main_arg6 : FVec F S64x128 .f32) (main_arg7 : FVec F S128 .f32) (main_arg8 : FVec F S128x64 .f32) (main_arg9 : FVec F S64 .f32) (main_arg10 : FVec F S64x1 .f32) (main_arg11 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x16 : Shape := ⟨2, ![100000, 16]⟩
abbrev S2x1600000 : Shape := ⟨2, ![2, 1600000]⟩
abbrev S1600000 : Shape := ⟨1, ![1600000]⟩
abbrev S100000 : Shape := ⟨1, ![100000]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x64 : Shape := ⟨2, ![1, 64]⟩
abbrev S100000x64 : Shape := ⟨2, ![100000, 64]⟩
abbrev S10000x16 : Shape := ⟨2, ![10000, 16]⟩
abbrev S10000x64 : Shape := ⟨2, ![10000, 64]⟩
abbrev S1700000x64 : Shape := ⟨2, ![1700000, 64]⟩
abbrev S1x128 : Shape := ⟨2, ![1, 128]⟩
abbrev S100000x128 : Shape := ⟨2, ![100000, 128]⟩
abbrev S10000x128 : Shape := ⟨2, ![10000, 128]⟩
abbrev S102400 : Shape := ⟨1, ![102400]⟩
abbrev S102400x64 : Shape := ⟨2, ![102400, 64]⟩
abbrev S1x102400 : Shape := ⟨2, ![1, 102400]⟩
abbrev S64x64 : Shape := ⟨2, ![64, 64]⟩
abbrev S1x12800 : Shape := ⟨2, ![1, 12800]⟩
abbrev S12800x64 : Shape := ⟨2, ![12800, 64]⟩
abbrev S64x12800 : Shape := ⟨2, ![64, 12800]⟩
abbrev S100000x1 : Shape := ⟨2, ![100000, 1]⟩
abbrev S1x1 : Shape := ⟨2, ![1, 1]⟩

abbrev nBuf : Space → Nat
  | .hbm => 139
  | .vmem => 28
  | .smem => 0
  | _ => 0

abbrev hbmTy0_0 (i : Nat) : BufTy := match i % 128 with
  | 0 => ⟨S100000x16, .f32⟩
  | 1 => ⟨S2x1600000, .i32⟩
  | 2 => ⟨S1600000, .f32⟩
  | 3 => ⟨S100000, .i32⟩
  | 4 => ⟨S16x64, .f32⟩
  | 5 => ⟨S64, .f32⟩
  | 6 => ⟨S64x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S16x64, .bf16⟩
  | 58 => ⟨S64x128, .bf16⟩
  | 59 => ⟨S128x64, .bf16⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x16, .f32⟩
  | 69 => ⟨S1700000x1, .f32⟩
  | 70 => ⟨S1700000x16, .f32⟩
  | 71 => ⟨S1700000x16, .f32⟩
  | 72 => ⟨S_, .f32⟩
  | 73 => ⟨S100000x16, .f32⟩
  | 74 => ⟨S1700000x1, .i32⟩
  | 75 => ⟨S100000x16, .f32⟩
  | 76 => ⟨S1x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x1, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S1x128, .f32⟩
  | 95 => ⟨S100000x128, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S_, .i32⟩
  | 116 => ⟨S_, .i32⟩
  | 117 => ⟨S102400, .i32⟩
  | 118 => ⟨S_, .i32⟩
  | 119 => ⟨S_, .f32⟩
  | 120 => ⟨S102400x64, .f32⟩
  | 121 => ⟨S1x102400, .i32⟩
  | 122 => ⟨S64x64, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x16, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x64, .f32⟩
  | 6 => ⟨S64x64, .f32⟩
  | 7 => ⟨S64x1, .f32⟩
  | 8 => ⟨S1x1, .f32⟩
  | 9 => ⟨S64x1, .f32⟩
  | 10 => ⟨S64x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x64, .bf16⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x128, .bf16⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x64, .bf16⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S1x12800, .i32⟩
  | .local _ .vmem, ⟨23, _⟩ => ⟨S1x12800, .i32⟩
  | .local _ .vmem, ⟨24, _⟩ => ⟨S12800x64, .f32⟩
  | .local _ .vmem, ⟨25, _⟩ => ⟨S12800x64, .f32⟩
  | .local _ .vmem, ⟨26, _⟩ => ⟨S64x64, .f32⟩
  | .local _ .vmem, ⟨27, _⟩ => ⟨S64x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_16 : Ref sig .tc := ⟨.hbm, 115, rfl⟩
abbrev main_call1_v0 : Ref sig .tc := ⟨.hbm, 116, rfl⟩
abbrev main_v83 : Ref sig .tc := ⟨.hbm, 117, rfl⟩
abbrev main_c_17 : Ref sig .tc := ⟨.hbm, 118, rfl⟩
abbrev main_call2_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_cst_19 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_20 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x12800 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12800x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bitsLt_bf16_f32 : FTy.bits .bf16 < FTy.bits .f32
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S128_S1x128 : S128.ShapeCasts S1x128
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  pads_S100000_S102400_024000 : S100000.Pads (![0] : Fin 1 → Nat) ![2400] ![0] S102400
  h_S_ : 0 < S_.numel
  pads_S100000x64_S102400x64_024000_000 : S100000x64.Pads (![0, 0] : Fin 2 → Nat) ![2400, 0] ![0, 0] S102400x64
  shapeCasts_S102400_S1x102400 : S102400.ShapeCasts S1x102400
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S64x12800_d0_w32 : S64x12800.Iotas .tc 32 [0]
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  broadcasts_S1x12800_S64x12800 : S1x12800.Broadcasts S64x12800
  natLt_1_32 : 1 < 32
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x64_S10000x64_1_0_0_1_n_n_wf : DotDims.WF S10000x16 S16x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S64x12800_S12800x64_S64x64_1_0_0_1_n_n_wf : DotDims.WF S64x12800 S12800x64 S64x64 [1] [0] [0] [1] [] []
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .bf16 = 32 ∨ (Rect.block (s := S16x64) S16x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .bf16 = 32 ∨ (Rect.block (s := S64x128) S64x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x12800.size a ≤ S1x102400.size a
  hwx4_0 : ∀ i : grid4.Coords, EltTy.bits .i32 = 32 ∨ (Rect.block (s := S1x102400) S1x12800.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12800x64.size a ≤ S102400x64.size a
  hwx4_1 : ∀ i : grid4.Coords, EltTy.bits .f32 = 32 ∨ (Rect.block (s := S102400x64) S12800x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S64x12800_S12800x64_S64x64_1_0_0_1_n_n : DotDims S64x12800 S12800x64 S64x64 where
  lhsContracting := [1]
  rhsContracting := [0]
  lhsNonContracting := [0]
  rhsNonContracting := [1]
  lhsBatch := []
  rhsBatch := []
  wf := dot_S64x12800_S12800x64_S64x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v49) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v64) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S1x12800.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S12800x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x16 : Shape := ⟨2, ![100000, 16]⟩
abbrev S2x1600000 : Shape := ⟨2, ![2, 1600000]⟩
abbrev S1600000 : Shape := ⟨1, ![1600000]⟩
abbrev S100000 : Shape := ⟨1, ![100000]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S64x64 : Shape := ⟨2, ![64, 64]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x16, .f32⟩
  | 1 => ⟨S2x1600000, .i32⟩
  | 2 => ⟨S1600000, .f32⟩
  | 3 => ⟨S100000, .i32⟩
  | 4 => ⟨S16x64, .f32⟩
  | 5 => ⟨S64, .f32⟩
  | 6 => ⟨S64x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x128, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x1, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x64, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x1, .f32⟩
  | 114 => ⟨S1700000x64, .f32⟩
  | 115 => ⟨S1700000x64, .f32⟩
  | 116 => ⟨S_, .f32⟩
  | 117 => ⟨S100000x64, .f32⟩
  | 118 => ⟨S1700000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S100000, .f32⟩
  | _ => ⟨S100000x16, .f32⟩

abbrev hbmTy0_1 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S64x64, .f32⟩
  | 6 => ⟨S100000x1, .i32⟩
  | 7 => ⟨S64x64, .f32⟩
  | 8 => ⟨S_, .f32⟩
  | 9 => ⟨S64, .f32⟩
  | 10 => ⟨S64, .f32⟩
  | 11 => ⟨S64x1, .f32⟩
  | 12 => ⟨S64x64, .f32⟩
  | 13 => ⟨S64x64, .f32⟩
  | 14 => ⟨S64x1, .f32⟩
  | 15 => ⟨S1x1, .f32⟩
  | 16 => ⟨S64x1, .f32⟩
  | 17 => ⟨S64x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call3_cst : Ref sig .tc := ⟨.hbm, 123, rfl⟩
abbrev main_call3_v0 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x64_S100000x64_1_0_0_1_n_n_wf : DotDims.WF S100000x16 S16x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x1_S64x1_1_0_0_1_n_n_wf : DotDims.WF S64x64 S64x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.K.Reg0.lean ====
/-
  Region 0 of the kernel program: the first layer's product, bias and clipping on blocks of 10000 rows.

  The pipeline stages, at grid point `t`, block `t` of the aggregated features (10000 × 16), the whole weight matrix
  (16 × 64, fetched at the first point only) and the whole bias row (1 × 64, likewise), runs the body, and writes
  block `t` of the result (10000 × 64) back. The body loads the three staged blocks whole, forms
  `max (x · W + b, 0)` (the payload) and stores it over the whole output block. Everything here is stated at a
  PARAMETER `V`, the contents of the TensorCore's buffers when the region is entered, and at any value instance `F`:
  the blocks the windows find, what the body leaves in the output's staging buffer as a function of the three input
  blocks, the body's triple, the proof data of the pipeline, and the body obligation at every grid point.
-/
import proofs.«407297_j7748121002089_3_alg».proof.Proof.Gen.Kernel.Launch
import proofs.«407297_j7748121002089_3_alg».proof.Proof.Gen.Kernel.Skeleton
import proofs.«407297_j7748121002089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not (when it did not, the block index has not moved since the point that did). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_x : Rect S10000x16 := Rect.unit (s := S10000x16) ![0, 0] S10000x16.size inb_S10000x16_S10000x16_0_0
abbrev r0_w : Rect S16x64 := Rect.unit (s := S16x64) ![0, 0] S16x64.size inb_S16x64_S16x64_0_0
abbrev r0_b : Rect S1x64 := Rect.unit (s := S1x64) ![0, 0] S1x64.size inb_S1x64_S1x64_0_0
abbrev r0_o : Rect S10000x64 := Rect.unit (s := S10000x64) ![0, 0] S10000x64.size inb_S10000x64_S10000x64_0_0

/-! ## What the body leaves in the output's staging buffer -/

/-- The output block after the body, from the three input blocks: its one store, of the payload
    `max (x · W + b, 0)` of the blocks as loaded, over the whole buffer. -/
def out0_3 (x0 : Vec F S10000x16 .f32) (x1 : Vec F S16x64 .bf16) (x2 : Vec F S1x64 .f32) : Vec F S10000x64 .f32 :=
  View.canon [⟨r0_o, k0_pay1 (View.ld x0 r0_x) (View.ld x1 r0_w) (View.ld x2 r0_b)⟩]

/-- The one store covers the buffer. -/
theorem cover0_3 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

/-! ## The body's triple -/

set_option maxHeartbeats 1000000 in
/-- The body on whole staging memrefs, the inputs' at contents `x0 x1 x2` and the output's at anything, runs to a
    state holding the inputs' as they were and the output's at `out0_3 x0 x1 x2`. -/
theorem sound_kernel0 (c : Dev nD) (E : Set ℕ) (i : grid0.Coords) (arg1 : Memref sig .tc .vmem S10000x16 .f32) (harg1 : arg1.IsWhole) (arg2 : Memref sig .tc .vmem S16x64 .bf16) (harg2 : arg2.IsWhole) (arg3 : Memref sig .tc .vmem S1x64 .f32) (harg3 : arg3.IsWhole) (arg4 : Memref sig .tc .vmem S10000x64 .f32) (harg4 : arg4.IsWhole)
    (x0 : Vec F S10000x16 .f32) (x1 : Vec F S16x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_relu_kernel i arg1 harg1 arg2 harg2 arg3 harg3 arg4 harg4) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel program: the second layer's product, bias and clipping on blocks of 10000 rows.

  The pipeline stages, at grid point `t`, block `t` of the aggregated features (10000 × 64), the whole weight matrix
  (64 × 128, fetched at the first point only) and the whole bias row (1 × 128, likewise), runs the body, and writes
  block `t` of the result (10000 × 128) back. The body loads the three staged blocks whole, forms
  `max (x · W + b, 0)` (the payload) and stores it over the whole output block. Everything here is stated at a
  PARAMETER `V`, the contents of the TensorCore's buffers when the region is entered, and at any value instance `F`:
  the blocks the windows find, what the body leaves in the output's staging buffer as a function of the three input
  blocks, the body's triple, the proof data of the pipeline, and the body obligation at every grid point.
-/
import proofs.«407297_j7748121002089_3_alg».proof.Proof.Gen.Kernel.Launch
import proofs.«407297_j7748121002089_3_alg».proof.Proof.Gen.Kernel.Skeleton
import proofs.«407297_j7748121002089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    not (when it did not, the block index has not moved since the point that did). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_x : Rect S10000x64 := Rect.unit (s := S10000x64) ![0, 0] S10000x64.size inb_S10000x64_S10000x64_0_0
abbrev r1_w : Rect S64x128 := Rect.unit (s := S64x128) ![0, 0] S64x128.size inb_S64x128_S64x128_0_0
abbrev r1_b : Rect S1x128 := Rect.unit (s := S1x128) ![0, 0] S1x128.size inb_S1x128_S1x128_0_0
abbrev r1_o : Rect S10000x128 := Rect.unit (s := S10000x128) ![0, 0] S10000x128.size inb_S10000x128_S10000x128_0_0

/-! ## What the body leaves in the output's staging buffer -/

/-- The output block after the body, from the three input blocks: its one store, of the payload
    `max (x · W + b, 0)` of the blocks as loaded, over the whole buffer. -/
def out1_3 (x0 : Vec F S10000x64 .f32) (x1 : Vec F S64x128 .bf16) (x2 : Vec F S1x128 .f32) : Vec F S10000x128 .f32 :=
  View.canon [⟨r1_o, k1_pay1 (View.ld x0 r1_x) (View.ld x1 r1_w) (View.ld x2 r1_b)⟩]

/-- The one store covers the buffer. -/
theorem cover1_3 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

/-! ## The body's triple -/

set_option maxHeartbeats 1000000 in
/-- The body on whole staging memrefs, the inputs' at contents `x0 x1 x2` and the output's at anything, runs to a
    state holding the inputs' as they were and the output's at `out1_3 x0 x1 x2`. -/
theorem sound_kernel1 (c : Dev nD) (E : Set ℕ) (i : grid1.Coords) (arg1 : Memref sig .tc .vmem S10000x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S10000x128 .f32) (harg4 : arg4.IsWhole)
    (x0 : Vec F S10000x64 .f32) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_bias_relu_kernel i arg1 harg1 arg2 harg2 arg3 harg3 arg4 harg4) K := by
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program: the second layer's product on blocks of 10000 rows, with no bias and no clipping.

  The pipeline stages, at grid point `t`, block `t` of the hidden features (10000 × 128) and the whole weight matrix
  (128 × 64, fetched at the first point only), runs the body, and writes block `t` of the result (10000 × 64) back.
  The body loads the two staged blocks whole, rounds the features to bf16 and forms the product `x · W` accumulated
  in f32 from zero (the payload), reads the output's staging buffer without using what it read, and stores the
  payload over the whole output block. Everything here is stated at a PARAMETER `V`, the contents of the
  TensorCore's buffers when the region is entered, and at any value instance `F`: the blocks the windows find, what
  the body leaves in the output's staging buffer as a function of the two input blocks, the body's triple, the proof
  data of the pipeline, and the body obligation at every grid point.
-/
import proofs.«407297_j7748121002089_3_alg».proof.Proof.Gen.Kernel.Launch
import proofs.«407297_j7748121002089_3_alg».proof.Proof.Gen.Kernel.Skeleton
import proofs.«407297_j7748121002089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: the feature block is fetched at each
    point, and the weight matrix, fetched once, has the same block index at every later point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev r2_x : Rect S10000x128 := Rect.unit (s := S10000x128) ![0, 0] S10000x128.size inb_S10000x128_S10000x128_0_0
abbrev r2_w : Rect S128x64 := Rect.unit (s := S128x64) ![0, 0] S128x64.size inb_S128x64_S128x64_0_0
abbrev r2_o : Rect S10000x64 := Rect.unit (s := S10000x64) ![0, 0] S10000x64.size inb_S10000x64_S10000x64_0_0

/-! ## What the body leaves in the output's staging buffer -/

/-- The output block after the body, from the two input blocks: its one store, of the product `x · W` of the blocks
    as loaded, over the whole buffer. What the buffer held before does not enter. -/
def out2_2 (x0 : Vec F S10000x128 .f32) (x1 : Vec F S128x64 .bf16) : Vec F S10000x64 .f32 :=
  View.canon [⟨r2_o, k2_pay1 (View.ld x0 r2_x) (View.ld x1 r2_w)⟩]

/-- The one store covers the buffer. -/
theorem cover2_2 (p0 : Vec F S10000x64 .f32) (y : S10000x64.Idx) :
    ∃ pc ∈ ([⟨r2_o, p0⟩] : List (View.Piece (Elt F) S10000x64 .f32)), y ∈ pc.1.set :=
  View.cover_of_tiled [⟨r2_o, p0⟩] S10000x64.size (by rfl) y

/-! ## The body's triple -/

set_option maxHeartbeats 1000000 in
/-- The body on whole staging memrefs, the inputs' at contents `x0 x1` and the output's at anything, runs to a
    state holding the inputs' as they were and the output's at `out2_2 x0 x1`. -/
theorem sound_kernel2 (c : Dev nD) (E : Set ℕ) (i : grid2.Coords) (arg1 : Memref sig .tc .vmem S10000x128 .f32) (harg1 : arg1.IsWhole) (arg2 : Memref sig .tc .vmem S128x64 .bf16) (harg2 : arg2.IsWhole) (arg3 : Memref sig .tc .vmem S10000x64 .f32) (harg3 : arg3.IsWhole)
    (x0 : Vec F S10000x128 .f32) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the two input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the kernel program: the second layer's bias and clipping on blocks of 10000 rows.

  The pipeline stages, at grid point `t`, block `t` of the aggregated second-layer features (10000 × 64) and the
  whole bias row (1 × 64, fetched at the first point only), runs the body, and writes block `t` of the result
  (10000 × 64) back. The body loads the two staged blocks whole, spreads the bias row over the 10000 rows, forms
  `max (x + b, 0)` (the payload), reads the output's staging buffer without using what it read, and stores the
  payload over the whole output block. Everything here is stated at a PARAMETER `V`, the contents of the
  TensorCore's buffers when the region is entered, and at any value instance `F`: the blocks the windows find, what
  the body leaves in the output's staging buffer as a function of the two input blocks, the body's triple, the proof
  data of the pipeline, and the body obligation at every grid point.
-/
import proofs.«407297_j7748121002089_3_alg».proof.Proof.Gen.Kernel.Launch
import proofs.«407297_j7748121002089_3_alg».proof.Proof.Gen.Kernel.Skeleton
import proofs.«407297_j7748121002089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point: the feature block is fetched at each
    point, and the bias row, fetched once, has the same block index at every later point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole staging buffer -/

abbrev r3_x : Rect S10000x64 := Rect.unit (s := S10000x64) ![0, 0] S10000x64.size inb_S10000x64_S10000x64_0_0
abbrev r3_b : Rect S1x64 := Rect.unit (s := S1x64) ![0, 0] S1x64.size inb_S1x64_S1x64_0_0
abbrev r3_o : Rect S10000x64 := Rect.unit (s := S10000x64) ![0, 0] S10000x64.size inb_S10000x64_S10000x64_0_0

/-! ## What the body leaves in the output's staging buffer -/

/-- The output block after the body, from the two input blocks: its one store, of the payload `max (x + b, 0)` of
    the blocks as loaded, over the whole buffer. What the buffer held before does not enter. -/
def out3_2 (x0 : Vec F S10000x64 .f32) (x1 : Vec F S1x64 .f32) : Vec F S10000x64 .f32 :=
  View.canon [⟨r3_o, k3_pay1 (View.ld x0 r3_x) (View.ld x1 r3_b)⟩]

/-- The one store covers the buffer. -/
theorem cover3_2 (p0 : Vec F S10000x64 .f32) (y : S10000x64.Idx) :
    ∃ pc ∈ ([⟨r3_o, p0⟩] : List (View.Piece (Elt F) S10000x64 .f32)), y ∈ pc.1.set :=
  View.cover_of_tiled [⟨r3_o, p0⟩] S10000x64.size (by rfl) y

/-! ## The body's triple -/

set_option maxHeartbeats 1000000 in
/-- The body on whole staging memrefs, the inputs' at contents `x0 x1` and the output's at anything, runs to a
    state holding the inputs' as they were and the output's at `out3_2 x0 x1`. -/
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t` each
    input's buffer at its block and the output's at `out3_2` of the two input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two inputs' memrefs hold their blocks, so the body's triple applies; the invariant
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the kernel program: the pooling kernel, which sums one-hot-selected rows of the features into a 64 × 64
  accumulator over a grid of 8 points.

  At grid point `t` the pipeline stages block `t` of the batch ids (1 × 12800) and block `t` of the features
  (12800 × 64); the output window (64 × 64, the same block at every point) is written back after the last point only.
  The accumulator is a scratch buffer of the kernel's own that is CARRIED from point to point: at the first point the
  body stores zeros over it; at every point it loads the ids `v`, the accumulator `a` and the features `x` and stores
  `a + onehot(v) · x` (the payload) over the whole accumulator; at the last point it copies the accumulator over the
  output's staging buffer. So after point `n` the accumulator holds the payload folded over the blocks of points
  `0 … n`, starting from zeros (`acc4`), and the output is that at `n = 7`.

  Everything is stated at a PARAMETER `V`, the contents of the TensorCore's buffers when the region is entered, and at
  any value instance `F`: the blocks the windows find, the accumulator point by point, the body's triple in each of
  its three cases (first point, middle points, last point), the region's invariant by recursion on the position, the
  proof data of the pipeline, and the body obligation at every grid point.
-/
import proofs.«407297_j7748121002089_3_alg».proof.Proof.Gen.Kernel.Launch
import proofs.«407297_j7748121002089_3_alg».proof.Proof.Gen.Kernel.Skeleton
import proofs.«407297_j7748121002089_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch and the windows' blocks -/

/-- The accumulator: the kernel's scratch operand, a whole scoped buffer passed beside the windows. -/
abbrev sc4 : Memref sig .tc .vmem S64x64 .f32 := Memref.whole cc4_scratch0

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point (both inputs are fetched at every point). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator, point by point -/

/-- What the accumulator holds after the body at point `n`: the payload `a + onehot(ids) · features` of the point's
    two blocks over what the point before left, and over zeros at the first point. -/
def acc4 (c : Dev nD) : (n : ℕ) → n < cfg4.N → Vec F S64x64 .f32
  | 0, h => k4_pay2 (iblk4 V c 0 ⟨0, h⟩) (k4_pay1 (F := F)) (iblk4 V c 1 ⟨0, h⟩)
  | n + 1, h => k4_pay2 (iblk4 V c 0 ⟨n + 1, h⟩) (acc4 c n (Nat.lt_of_succ_lt h)) (iblk4 V c 1 ⟨n + 1, h⟩)

theorem acc4_zero (c : Dev nD) (h : 0 < cfg4.N) : acc4 V c 0 h = k4_pay2 (iblk4 V c 0 ⟨0, h⟩) (k4_pay1 (F := F)) (iblk4 V c 1 ⟨0, h⟩) := rfl
theorem acc4_succ (c : Dev nD) (n : ℕ) (h : n + 1 < cfg4.N) : acc4 V c (n + 1) h = k4_pay2 (iblk4 V c 0 ⟨n + 1, h⟩) (acc4 V c n (Nat.lt_of_succ_lt h)) (iblk4 V c 1 ⟨n + 1, h⟩) := rfl

/-- The same two equations at a point of the grid: the first point, -/
theorem acc4_first (c : Dev nD) (t : Fin cfg4.N) (hz : t.val = 0) :
    acc4 V c t.val t.isLt = k4_pay2 (iblk4 V c 0 t) (k4_pay1 (F := F)) (iblk4 V c 1 t) := by
  obtain ⟨n, hn⟩ := t
  cases n with
  | zero => rfl
  | succ n => exact absurd hz (Nat.succ_ne_zero n)

/-- and a later point, over the point before. -/
theorem acc4_later (c : Dev nD) (t : Fin cfg4.N) (hz : t.val ≠ 0) :
    acc4 V c t.val t.isLt = k4_pay2 (iblk4 V c 0 t) (acc4 V c (t.val - 1) (Nat.lt_of_le_of_lt (Nat.sub_le _ _) t.isLt)) (iblk4 V c 1 t) := by
  obtain ⟨n, hn⟩ := t
  cases n with
  | zero => exact absurd rfl hz
  | succ n => rfl

/-! ## The body's two conditions, in closed form -/

/-- The condition of the body's first conditional (it zeroes the accumulator), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)
/-- The condition of the body's second conditional (it copies the accumulator to the output). -/
abbrev cond4_1 (i : grid4.Coords) : Prop := k4_cond2 i = 1#1
/-- It holds at the last point only — decided over the grid. -/
theorem hcond4_1 : ∀ t : Fin cfg4.N, cond4_1 (grid4.coords t) ↔ t.val = 7 :=
  (by decide +kernel : ∀ t : Fin grid4.N, cond4_1 (grid4.coords t) ↔ t.val = 7)

/-! ## Where the windows are idle -/

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the second conditional is not taken the output window is idle (the body stores nothing into it) -/
theorem idleAt4_2 : ∀ t : Fin cfg4.N, ¬cond4_1 (grid4.coords t) → cfg4.idle 2 (grid4.coords t) = true := by decide +kernel
/-- and the pipeline does not write its block back; -/
theorem noFlush4_2 : ∀ t : Fin cfg4.N, ¬cond4_1 (grid4.coords t) → (cfg4.win 2).flush t = false := by decide +kernel
/-- where it is taken the window is live. -/
theorem liveAt4_2 : ∀ t : Fin cfg4.N, cond4_1 (grid4.coords t) → cfg4.idle 2 (grid4.coords t) = false := by decide +kernel

/-! ## The body's accesses: each a whole buffer -/

/-- The rectangle of every store into a 64 × 64 buffer: the whole buffer. -/
abbrev r4_s : Rect S64x64 := Rect.unit (s := S64x64) ![0, 0] S64x64.size inb_S64x64_S64x64_0_0

/-- Its offsets are zero. -/
theorem hz4 : (![0, 0] : Fin 2 → Nat) = fun _ => 0 := funext fun a => by fin_cases a <;> rfl

/-- A list of stores into the 64 × 64 buffer whose latest is of the whole buffer covers it. -/
theorem cover4_head (p : Vec F S64x64 .f32) (L : List (View.Piece (Elt F) S64x64 .f32)) (y : S64x64.Idx) :
    ∃ pc ∈ ((⟨r4_s, p⟩ : View.Piece (Elt F) S64x64 .f32) :: L), y ∈ pc.1.set :=
  ⟨_, List.mem_cons_self .., View.mem_set_unit_zero hz4 inb_S64x64_S64x64_0_0 y⟩

/-! ## The body's triple, case by case -/

set_option maxHeartbeats 1000000 in
/-- CASE A (the first point: the first conditional taken, the second not). On whole memrefs, the inputs' at contents
    `x0 x1`, the output's at `xi`, the accumulator's at anything, the body runs to a state holding the inputs' and the
    output's as they were and the accumulator's at the payload of `x0`, zeros and `x1`: the accumulator is zeroed, read
    back (the zeros), and stored over whole. -/
theorem sound_kernel4_A (c : Dev nD) (E : Set ℕ) (i : grid4.Coords) (arg1 : Memref sig .tc .vmem S1x12800 .i32) (harg1 : arg1.IsWhole) (arg2 : Memref sig .tc .vmem S12800x64 .f32) (harg2 : arg2.IsWhole) (arg3 : Memref sig .tc .vmem S64x64 .f32) (harg3 : arg3.IsWhole) (arg4 : Memref sig .tc .vmem S64x64 .f32) (harg4 : arg4.IsWhole)
    (hc0 : cond4_0 i) (hc1 : ¬cond4_1 i)
    (x0 : Vec F S1x12800 .i32) (x1 : Vec F S12800x64 .f32) (xi : Vec F S64x64 .f32) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k4_pay2 x0 (k4_pay1 (F := F)) x1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold sound_kernel4_A.sl.v11 sound_kernel4_A.sl.H3_1
  rw [View.read_writes_eq_canon _ _ _ (cover4_head _ _)]
  rw [View.canon_cons_unit_zero (S := S64x64) hz4, View.readCov_unit_zero (S := S64x64) _ hz4]
  simp only [View.readAt_eq_ld, View.ld_unit_zero (S := S1x12800) hz4, View.ld_unit_zero (S := S12800x64) hz4]

set_option maxHeartbeats 1000000 in
/-- CASE B (a middle point: neither conditional taken). The accumulator's memref at `xs`, what the point before left:
    the body leaves the payload of `x0`, `xs` and `x1` in it and touches nothing else. -/
theorem sound_kernel4_B (c : Dev nD) (E : Set ℕ) (i : grid4.Coords) (arg1 : Memref sig .tc .vmem S1x12800 .i32) (harg1 : arg1.IsWhole) (arg2 : Memref sig .tc .vmem S12800x64 .f32) (harg2 : arg2.IsWhole) (arg3 : Memref sig .tc .vmem S64x64 .f32) (harg3 : arg3.IsWhole) (arg4 : Memref sig .tc .vmem S64x64 .f32) (harg4 : arg4.IsWhole)
    (hc0 : ¬cond4_0 i) (hc1 : ¬cond4_1 i)
    (x0 : Vec F S1x12800 .i32) (x1 : Vec F S12800x64 .f32) (xi : Vec F S64x64 .f32) (xs : Vec F S64x64 .f32) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k4_pay2 x0 xs x1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover4_head _ _)]
  rw [View.canon_unit_zero (S := S64x64) hz4]
  simp only [View.readAt_eq_ld, View.ld_unit_zero (S := S1x12800) hz4, View.ld_unit_zero (S := S12800x64) hz4, View.ld_unit_zero (S := S64x64) hz4]

set_option maxHeartbeats 1000000 in
/-- CASE C (the last point: the second conditional taken, the first not). The output's memref at anything: the body
    leaves the payload of `x0`, `xs` and `x1` in the accumulator, reads it back and stores it over the whole output
    buffer, so both end at that payload. -/
theorem sound_kernel4_C (c : Dev nD) (E : Set ℕ) (i : grid4.Coords) (arg1 : Memref sig .tc .vmem S1x12800 .i32) (harg1 : arg1.IsWhole) (arg2 : Memref sig .tc .vmem S12800x64 .f32) (harg2 : arg2.IsWhole) (arg3 : Memref sig .tc .vmem S64x64 .f32) (harg3 : arg3.IsWhole) (arg4 : Memref sig .tc .vmem S64x64 .f32) (harg4 : arg4.IsWhole)
    (hc0 : ¬cond4_0 i) (hc1 : cond4_1 i)
    (x0 : Vec F S1x12800 .i32) (x1 : Vec F S12800x64 .f32) (xs : Vec F S64x64 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k4_pay2 x0 xs x1) ∗ owns (c : Thread nD τ) arg4 fullShare (k4_pay2 x0 xs x1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    unfold sound_kernel4_C.sl.v23 sound_kernel4_C.sl.H3_1
    rw [View.read_writes_eq_canon _ _ _ (cover4_head _ _)]
    rw [View.canon_unit_zero (S := S64x64) hz4, View.readCov_unit_zero (S := S64x64) _ hz4]
    simp only [View.readAt_eq_ld, View.ld_unit_zero (S := S1x12800) hz4, View.ld_unit_zero (S := S12800x64) hz4, View.ld_unit_zero (S := S64x64) hz4]
  iexists _; isplitr
  swap; · iexact H3
  ipureintro
  unfold sound_kernel4_C.sl.H3_1
  rw [View.read_writes_eq_canon _ _ _ (cover4_head _ _)]
  rw [View.canon_unit_zero (S := S64x64) hz4]
  simp only [View.readAt_eq_ld, View.ld_unit_zero (S := S1x12800) hz4, View.ld_unit_zero (S := S12800x64) hz4, View.ld_unit_zero (S := S64x64) hz4]

/-! ## The region's invariant -/

/-- The core's scoped buffers other than this region's staging buffers and its scratch, each at some contents:
    carried unopened. -/
abbrev others4 (c : Dev nD) : sProp 𝕄 :=
  Pipeline.scopedRestBut (Ix := Unit) (Name := ℕ) (U := UR sig nD τ) (Lvl := ℕ) (Val := Elt F) spec4 c [cc4_scratch0]

/-- What the launch hands the region, with the scratch split out as a memref owned at some contents. -/
theorem PhiA4_eq (c : Dev nD) :
    (Pipeline.ΦA spec4 c : sProp 𝕄)
      = iprop(((∃ d, owns (c : Thread nD τ) sc4 fullShare d) ∗ others4 (F := F) c) ∗ (∃ r, prngReg c r)) := by
  unfold Pipeline.ΦA
  rw [Pipeline.scopedRest_split_of_list spec4 c [cc4_scratch0] (by decide) (by decide)]
  simp only [Idealize.SL.BI.bigSepL_singleton, sc4, owns_whole]
  try rfl

/-- The invariant before position `n`: before the first point what the launch hands over (the scratch at anything);
    afterwards the scratch at what the point before left in it, the other scoped buffers at some contents, the generator
    register at some state. -/
def PhiS4 (c : Dev nD) : (n : ℕ) → n ≤ cfg4.N → sProp 𝕄
  | 0, _ => Pipeline.ΦA spec4 c
  | n + 1, hn => iprop((owns (c : Thread nD τ) sc4 fullShare (acc4 V c n hn) ∗ others4 (F := F) c) ∗ (∃ r, prngReg c r))

/-- The invariant before the first point, -/
theorem PhiS4_zero (c : Dev nD) (n : ℕ) (h : n ≤ cfg4.N) (hz : n = 0) : PhiS4 V c n h = Pipeline.ΦA spec4 c := by
  subst hz; rfl

/-- after point `n`, -/
theorem PhiS4_succ (c : Dev nD) (n : ℕ) (hn : n < cfg4.N) :
    PhiS4 V c (n + 1) hn = iprop((owns (c : Thread nD τ) sc4 fullShare (acc4 V c n hn) ∗ others4 (F := F) c) ∗ (∃ r, prngReg c r)) := rfl

/-- and before a point that is not the first. -/
theorem PhiS4_pos (c : Dev nD) (n : ℕ) (h : n ≤ cfg4.N) (hz : n ≠ 0) :
    PhiS4 V c n h = iprop((owns (c : Thread nD τ) sc4 fullShare (acc4 V c (n - 1) (by omega)) ∗ others4 (F := F) c) ∗ (∃ r, prngReg c r)) := by
  cases n with
  | zero => exact absurd rfl hz
  | succ n => rfl

/-! ## The pipeline's proof data -/

/-- The proof data of pipeline 4 on core `c`: the arrays as the region finds them; after the body at point `t` each
    input's buffer at its block and the output's at the accumulator's contents there (consulted at the last point only:
    elsewhere the window is idle and not written back); the invariant `PhiS4`; nothing owed; full shares. -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' memrefs hold their blocks; the closed forms of the two conditions say which case
    the point is in. At the first point the invariant hands the accumulator over at anything and case A leaves the
    payload over zeros; at a later point it hands it over at what the point before left and cases B, C leave the payload
    over that: in each case the accumulator's contents at this point, which the invariant takes back. The output's buffer
    is handed back as found where the window is idle, and at the last point holds the accumulator's contents. The other
    scoped buffers, the generator register and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
      unfold Dat.leavesExact; rw [liveAt4_0 t], after4_0]
  rw [show (dat4 V c).leavesExact 1 t = owns (c : Thread nD τ) (st4_1 t) fullShare ((dat4 V c).after 1 t) from by
      unfold Dat.leavesExact; rw [liveAt4_1 t], after4_1]
  have hN : t.val < 8 := lt_of_lt_of_eq t.isLt (show cfg4.N = 8 from N_4)
  by_cases h7 : t.val = 7
  · have hc1 : cond4_1 (grid4.coords t) := (hcond4_1 t).mpr h7
    have hc0 : ¬cond4_0 (grid4.coords t) := fun h => by have := (hcond4_0 t).mp h; omega
    have hz : t.val ≠ 0 := by omega
    rw [show (dat4 V c).leavesExact 2 t = owns (c : Thread nD τ) (st4_2 t) fullShare ((dat4 V c).after 2 t) from by
      unfold Dat.leavesExact; rw [liveAt4_2 t hc1], after4_2]
    rw [acc4_later V c t hz]
    rw [PhiS4_castSucc V c t, PhiS4_pos V c _ _ hz]
    iintro ⟨⟨⟨HS, HR⟩, Hg⟩, Ho, ⟨%d0, H0⟩, ⟨%d1, H1⟩, ⟨%d2, H2⟩⟩
    iapply (sound_kernel4_C c Set.univ (grid4.coords t) _ _ _ _ _ _ _ _ hc0 hc1 (iblk4 V c 0 t) (iblk4 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc1 : ¬cond4_1 (grid4.coords t) := fun h => h7 ((hcond4_1 t).mp h)
    rw [Dat.leavesExact_idle (dat4 V c) 2 t (idleAt4_2 t hc1) (noFlush4_2 t hc1)]
    by_cases hz : t.val = 0
    · have hc0 : cond4_0 (grid4.coords t) := (hcond4_0 t).mpr hz
      rw [acc4_first V c t hz]
      rw [PhiS4_castSucc V c t, PhiS4_zero V c _ _ hz, PhiA4_eq]
      iintro ⟨⟨⟨HS, HR⟩, Hg⟩, Ho, ⟨%d0, H0⟩, ⟨%d1, H1⟩, ⟨%d2, H2⟩⟩
      iapply (sound_kernel4_A c Set.univ (grid4.coords t) _ _ _ _ _ _ _ _ hc0 hc1 (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists d2; iexact H2
    · have hc0 : ¬cond4_0 (grid4.coords t) := fun h => hz ((hcond4_0 t).mp h)
      rw [acc4_later V c t hz]
      rw [PhiS4_castSucc V c t, PhiS4_pos V c _ _ hz]
      iintro ⟨⟨⟨HS, HR⟩, Hg⟩, Ho, ⟨%d0, H0⟩, ⟨%d1, H1⟩, ⟨%d2, H2⟩⟩
      iapply (sound_kernel4_B c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists d2; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives it back: what the scratch holds is forgotten. -/
theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 8 := N_4; omega), PhiA4_eq]
  iintro ⟨⟨HS, HR⟩, Hg⟩
  isplitl [HS HR]
  · isplitl [HS]; · iexists _; iexact HS
    iexact HR
  iexact Hg

end Cert.Kernel.Hand

end
-- ==== Proof.K.Fold.lean ====
/-
  The contents of the TensorCore's unscoped buffers at every boundary between two items of @main, as a fold from
  the launch memory: after a stretch of host operations, what those operations compute from the contents before;
  after a kernel region, the region's arrays at what its write-backs leave and every other buffer as entered.
  `W k` is the contents after item `k - 1` (`W 0` the launch memory); `V k` is `W k` read at the TensorCore's references,
  the form a region's proof data take.
-/
import proofs.«407297_j7748121002089_3_alg».proof.Proof.K.Reg0
import proofs.«407297_j7748121002089_3_alg».proof.Proof.K.Reg1
import proofs.«407297_j7748121002089_3_alg».proof.Proof.K.Reg2
import proofs.«407297_j7748121002089_3_alg».proof.Proof.K.Reg3
import proofs.«407297_j7748121002089_3_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After item 1, the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After item 2, the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After item 3, region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After item 4, the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After item 5, region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After item 6, region 2: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After item 7, the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- After item 8, region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After item 9, the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
/-- After item 10, the host stretch `hostOps4_1`. -/
abbrev W11 : Dev nD → Valuation τ sig (Elt F) := fun c => StableHlo.after hostOps4_1 (W10 m ρ c)
abbrev V11 : (c : Dev nD) → (b : Ref sig .tc) → Buf (Elt F) ((c : Thread nD τ).loc b) := fun c b => W11 m ρ c b
/-- After item 11, the host stretch `hostOps4_2`. -/
abbrev W12 : Dev nD → Valuation τ sig (Elt F) := fun c => StableHlo.after hostOps4_2 (W11 m ρ c)
abbrev V12 : (c : Dev nD) → (b : Ref sig .tc) → Buf (Elt F) ((c : Thread nD τ).loc b) := fun c b => W12 m ρ c b
/-- After item 12, the host stretch `hostOps4_3`. -/
abbrev W13 : Dev nD → Valuation τ sig (Elt F) := fun c => StableHlo.after hostOps4_3 (W12 m ρ c)
abbrev V13 : (c : Dev nD) → (b : Ref sig .tc) → Buf (Elt F) ((c : Thread nD τ).loc b) := fun c b => W13 m ρ c b
/-- After item 13, the host stretch `hostOps4_4`. -/
abbrev W14 : Dev nD → Valuation τ sig (Elt F) := fun c => StableHlo.after hostOps4_4 (W13 m ρ c)
abbrev V14 : (c : Dev nD) → (b : Ref sig .tc) → Buf (Elt F) ((c : Thread nD τ).loc b) := fun c b => W14 m ρ c b
/-- After item 14, region 4: its arrays at what the pipeline leaves, every other buffer as entered. -/
def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb
abbrev V15 : (c : Dev nD) → (b : Ref sig .tc) → Buf (Elt F) ((c : Thread nD τ).loc b) := fun c b => W15 m ρ c b
theorem hF4 (c : Dev nD) (w : Fin cfg4.W) : (dat4 (V14 m ρ) c).arrAt w cfg4.N = V15 m ρ c (Pipeline.arrRef spec4 w) :=
  (W15_arr m ρ c w).symm
theorem hrest4 (c : Dev nD) : ∀ b, b ∉ Finset.univ.image (Pipeline.arrRef spec4) → V15 m ρ c b = V14 m ρ c b :=
  fun b hb => W15_of_ne m ρ c b fun w e => hb (Finset.mem_image.mpr ⟨w, Finset.mem_univ _, e⟩)
/-- After item 15, the host stretch `hostOps5`. -/
abbrev W16 : Dev nD → Valuation τ sig (Elt F) := fun c => StableHlo.after hostOps5 (W15 m ρ c)
abbrev V16 : (c : Dev nD) → (b : Ref sig .tc) → Buf (Elt F) ((c : Thread nD τ).loc b) := fun c b => W16 m ρ c b

end Cert.Kernel.Hand

end
-- ==== Proof.K.Run.lean ====
/-
  The run of the kernel program's @main: eleven stretches of host operations and five kernel regions, sixteen items in
  all, carried through the several-regions launch theorem at any value instance F.

  Between two items a core holds every unscoped buffer whole, at the contents the fold of KI/Fold.lean names for that
  boundary (W 0 the launch memory, W (k+1) what item k leaves), beside its generator register at some state and a
  record of owing nothing. A host stretch takes the buffers from W k to StableHlo.after of its operations, which is
  W (k+1) by definition. A kernel region splits its windows' arrays out of the unscoped buffers, runs its pipeline on
  them, and puts them back at the contents the write-backs leave, which is W (k+1) by the two defining equations of
  Pipeline.withArrays. The thread states therefore chain by reflexivity, and the last one names the final contents
  of EVERY unscoped buffer: W 16. Both the frame claim (each argument ends as launched) and the value of the
  program's result are read off that one post.
-/
import proofs.«407297_j7748121002089_3_alg».proof.Proof.Gen.Kernel.Regions
import proofs.«407297_j7748121002089_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the arguments -/

/-- The fold starts at the launch memory: at any buffer of the core's device, -/
theorem W0_mem (c : Dev nD) (b : DevRef τ sig) : W0 m ρ c b = m (((c : Thread nD τ)).1, b) := rfl
/-- and so at a TensorCore reference. -/
theorem W0_eq (c : Dev nD) (b : Ref sig .tc) : W0 m ρ c (Proc.devRef .tc b) = m ((c : Thread nD τ).loc b) := rfl

/-- A reference that no host stretch writes and that is no region's window array holds, at the end, what the launch
    memory held: each host stretch leaves it (its operations' writes lie in the stretch's list of written references),
    and each region changes its own windows' arrays only. -/
theorem W16_of_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : ∀ w, Pipeline.arrRef spec1 w ≠ r) (h6 : ∀ w, Pipeline.arrRef spec2 w ≠ r)
    (h7 : r ∉ hostOps3_W) (h8 : ∀ w, Pipeline.arrRef spec3 w ≠ r)
    (h9 : r ∉ hostOps4_W) (h10 : r ∉ hostOps4_1_W) (h11 : r ∉ hostOps4_2_W) (h12 : r ∉ hostOps4_3_W)
    (h13 : r ∉ hostOps4_4_W) (h14 : ∀ w, Pipeline.arrRef spec4 w ≠ r) (h15 : r ∉ hostOps5_W) :
    W16 m ρ c (Proc.devRef .tc r) = m ((c : Thread nD τ).loc r) :=
  calc W16 m ρ c (Proc.devRef .tc r)
    _ = W15 m ρ c (Proc.devRef .tc r) := StableHlo.after_of_writes_sub hostOps5 _ hostOps5_writes h15
    _ = W14 m ρ c (Proc.devRef .tc r) := W15_of_ne m ρ c r h14
    _ = W13 m ρ c (Proc.devRef .tc r) := StableHlo.after_of_writes_sub hostOps4_4 _ hostOps4_4_writes h13
    _ = W12 m ρ c (Proc.devRef .tc r) := StableHlo.after_of_writes_sub hostOps4_3 _ hostOps4_3_writes h12
    _ = W11 m ρ c (Proc.devRef .tc r) := StableHlo.after_of_writes_sub hostOps4_2 _ hostOps4_2_writes h11
    _ = W10 m ρ c (Proc.devRef .tc r) := StableHlo.after_of_writes_sub hostOps4_1 _ hostOps4_1_writes h10
    _ = W9 m ρ c (Proc.devRef .tc r) := StableHlo.after_of_writes_sub hostOps4 _ hostOps4_writes h9
    _ = W8 m ρ c (Proc.devRef .tc r) := W9_of_ne m ρ c r h8
    _ = W7 m ρ c (Proc.devRef .tc r) := StableHlo.after_of_writes_sub hostOps3 _ hostOps3_writes h7
    _ = W6 m ρ c (Proc.devRef .tc r) := W7_of_ne m ρ c r h6
    _ = W5 m ρ c (Proc.devRef .tc r) := W6_of_ne m ρ c r h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-! ### The arguments end as launched: an argument is written by no host operation and is no window's array -/
theorem W16_main_arg0 (c : Dev nD) : W16 m ρ c (Proc.devRef .tc main_arg0) = m ((c : Thread nD τ).loc main_arg0) :=
  W16_of_untouched m ρ c main_arg0 (by decide) (by decide) (by decide) (by decide) (by decide) (by decide) (by decide) (by decide)
    (by decide) (by decide) (by decide) (by decide) (by decide) (by decide) (by decide) (by decide)
theorem W16_main_arg1 (c : Dev nD) : W16 m ρ c (Proc.devRef .tc main_arg1) = m ((c : Thread nD τ).loc main_arg1) :=
  W16_of_untouched m ρ c main_arg1 (by decide) (by decide) (by decide) (by decide) (by decide) (by decide) (by decide) (by decide)
    (by decide) (by decide) (by decide) (by decide) (by decide) (by decide) (by decide) (by decide)
theorem W16_main_arg2 (c : Dev nD) : W16 m ρ c (Proc.devRef .tc main_arg2) = m ((c : Thread nD τ).loc main_arg2) :=
  W16_of_untouched m ρ c main_arg2 (by decide) (by decide) (by decide) (by decide) (by decide) (by decide) (by decide) (by decide)
    (by decide) (by decide) (by decide) (by decide) (by decide) (by decide) (by decide) (by decide)
theorem W16_main_arg3 (c : Dev nD) : W16 m ρ c (Proc.devRef .tc main_arg3) = m ((c : Thread nD τ).loc main_arg3) :=
  W16_of_untouched m ρ c main_arg3 (by decide) (by decide) (by decide) (by decide) (by decide) (by decide) (by decide) (by decide)
    (by decide) (by decide) (by decide) (by decide) (by decide) (by decide) (by decide) (by decide)
theorem W16_main_arg4 (c : Dev nD) : W16 m ρ c (Proc.devRef .tc main_arg4) = m ((c : Thread nD τ).loc main_arg4) :=
  W16_of_untouched m ρ c main_arg4 (by decide) (by decide) (by decide) (by decide) (by decide) (by decide) (by decide) (by decide)
    (by decide) (by decide) (by decide) (by decide) (by decide) (by decide) (by decide) (by decide)
theorem W16_main_arg5 (c : Dev nD) : W16 m ρ c (Proc.devRef .tc main_arg5) = m ((c : Thread nD τ).loc main_arg5) :=
  W16_of_untouched m ρ c main_arg5 (by decide) (by decide) (by decide) (by decide) (by decide) (by decide) (by decide) (by decide)
    (by decide) (by decide) (by decide) (by decide) (by decide) (by decide) (by decide) (by decide)
theorem W16_main_arg6 (c : Dev nD) : W16 m ρ c (Proc.devRef .tc main_arg6) = m ((c : Thread nD τ).loc main_arg6) :=
  W16_of_untouched m ρ c main_arg6 (by decide) (by decide) (by decide) (by decide) (by decide) (by decide) (by decide) (by decide)
    (by decide) (by decide) (by decide) (by decide) (by decide) (by decide) (by decide) (by decide)
theorem W16_main_arg7 (c : Dev nD) : W16 m ρ c (Proc.devRef .tc main_arg7) = m ((c : Thread nD τ).loc main_arg7) :=
  W16_of_untouched m ρ c main_arg7 (by decide) (by decide) (by decide) (by decide) (by decide) (by decide) (by decide) (by decide)
    (by decide) (by decide) (by decide) (by decide) (by decide) (by decide) (by decide) (by decide)
theorem W16_main_arg8 (c : Dev nD) : W16 m ρ c (Proc.devRef .tc main_arg8) = m ((c : Thread nD τ).loc main_arg8) :=
  W16_of_untouched m ρ c main_arg8 (by decide) (by decide) (by decide) (by decide) (by decide) (by decide) (by decide) (by decide)
    (by decide) (by decide) (by decide) (by decide) (by decide) (by decide) (by decide) (by decide)
theorem W16_main_arg9 (c : Dev nD) : W16 m ρ c (Proc.devRef .tc main_arg9) = m ((c : Thread nD τ).loc main_arg9) :=
  W16_of_untouched m ρ c main_arg9 (by decide) (by decide) (by decide) (by decide) (by decide) (by decide) (by decide) (by decide)
    (by decide) (by decide) (by decide) (by decide) (by decide) (by decide) (by decide) (by decide)
theorem W16_main_arg10 (c : Dev nD) : W16 m ρ c (Proc.devRef .tc main_arg10) = m ((c : Thread nD τ).loc main_arg10) :=
  W16_of_untouched m ρ c main_arg10 (by decide) (by decide) (by decide) (by decide) (by decide) (by decide) (by decide) (by decide)
    (by decide) (by decide) (by decide) (by decide) (by decide) (by decide) (by decide) (by decide)
theorem W16_main_arg11 (c : Dev nD) : W16 m ρ c (Proc.devRef .tc main_arg11) = m ((c : Thread nD τ).loc main_arg11) :=
  W16_of_untouched m ρ c main_arg11 (by decide) (by decide) (by decide) (by decide) (by decide) (by decide) (by decide) (by decide)
    (by decide) (by decide) (by decide) (by decide) (by decide) (by decide) (by decide) (by decide)

/-! ## The proof data family and the thread state -/

/-- Every pipeline's proof data, each at the contents its region is entered from: a literal match on the pipeline's
    index, so that the launch theorem's pinned configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record that the core owes nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends at
    those references at StableHlo.after of the stretch from W c, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing (the launch theorem's chain ends at it BESIDE that
    record): every unscoped buffer at the last boundary's contents W 16, the generator register at some state. -/
abbrev Tₙ (c : Dev nD) : sProp 𝕄 := iprop(StableHlo.held (c : Thread nD τ) (Pipeline.ucRefs τ sig) (W16 m ρ c) ∗ ∃ r, prngReg c r)

/-- What the last host stretch leaves is the last thread state beside the record of owing nothing: the same three
    resources, bracketed the other way. -/
theorem last_state (c : Dev nD) :
    iprop(StableHlo.held (c : Thread nD τ) (Pipeline.ucRefs τ sig) (W16 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The regions as segments

Each region is entered from every unscoped buffer at its entry contents and left at its exit contents. At the entry its
windows' arrays are split out of the unscoped buffers; at the exit they are put back at what the pipeline leaves, which the
fold's exit contents hold at the arrays and nowhere else differ from the entry contents. The generator register goes into
the region's invariant and comes back; nothing is owed; no region has a semaphore of its own. -/

-- applying a library lemma stated over the pinned configuration unifies with the printed one only when unification may
-- unfold plain definitions in a metavariable's type
set_option backward.isDefEq.respectTransparency.types false in
/-- REGION 0 (item 3): the 16-to-64 product with bias and clipping, entered at W 3, left at W 4. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (item 5): the 64-to-128 product with bias and clipping, entered at W 5, left at W 6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (item 6): the 128-to-64 product, entered at W 6 (no host operation stands between regions 1 and 2), left
    at W 7. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (item 8): the bias row added and the sum clipped, entered at W 8, left at W 9. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (item 14): the accumulation into a 64 × 64 block, entered at W 14, left at W 15. This kernel carries a scratch buffer
    from one grid point to the next, so its invariant is its own: at the first point it follows from the common
    invariant (the scoped rest and the generator register), and at the last point it gives the common one back. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V14 m ρ) c).loose
  hwaits := Pipeline.hwaits_of_owed_zero _ _ _ _ L lv 4 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec4 c (V14 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec4 c : sProp 𝕄)).trans (hin4 (V14 m ρ) c)
    unfold Pipeline.ΦA
    iintro ⟨Hp, -, Hr⟩
    isplitl [Hr]; · iexact Hr
    iexact Hp
  hout c := by
    rw [Pipeline.ownSems0_none]
    refine (hout4 (V14 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V14 m ρ c) (V15 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's sixteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .host (hseg hostOps4_1 hostOps4_1_sub hostOps4_1_fresh (W10 m ρ)),
    .host (hseg hostOps4_2 hostOps4_2_sub hostOps4_2_fresh (W11 m ρ)),
    .host (hseg hostOps4_3 hostOps4_3_sub hostOps4_3_fresh (W12 m ρ)),
    .host (hseg hostOps4_4 hostOps4_4_sub hostOps4_4_fresh (W13 m ρ)),
    .region (reg4 m ρ),
    .host (hseg hostOps5 hostOps5_sub hostOps5_fresh (W15 m ρ)) ]

/-- @main IS the run of the segments: it is the chain of its sixteen items, and the segments' run is the chain of their
    fragments, item for item. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and in every final state each unscoped buffer of each core holds what the
    fold's last valuation W 16 names for it. The thread states chain by reflexivity (each boundary's contents are the next
    item's entry contents by name); the first is made from what the launch deals; the last is read against the final
    state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- What the run's post says of one unscoped TensorCore reference. -/
theorem read_final {r : PUnit × MemSt nD τ sig (Elt F)}
    (h : ∀ c : Dev nD, ∀ b ∈ Pipeline.ucRefs τ sig, r.2.mem (((c : Thread nD τ)).1, b) = W16 m ρ c b)
    (c : Dev nD) (b : Ref sig .tc) (hb : ¬ (Proc.devRef .tc b : DevRef τ sig).isScoped) :
    r.2.mem ((c.tc : Thread nD τ).loc b) = W16 m ρ c (Proc.devRef .tc b) :=
  h c _ (mem_uc b hb)

/-- THE FRAME, at any value instance: every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(read_final m ρ h c main_arg0 (by decide)).trans (W16_main_arg0 m ρ c),
     (read_final m ρ h c main_arg1 (by decide)).trans (W16_main_arg1 m ρ c),
     (read_final m ρ h c main_arg2 (by decide)).trans (W16_main_arg2 m ρ c),
     (read_final m ρ h c main_arg3 (by decide)).trans (W16_main_arg3 m ρ c),
     (read_final m ρ h c main_arg4 (by decide)).trans (W16_main_arg4 m ρ c),
     (read_final m ρ h c main_arg5 (by decide)).trans (W16_main_arg5 m ρ c),
     (read_final m ρ h c main_arg6 (by decide)).trans (W16_main_arg6 m ρ c),
     (read_final m ρ h c main_arg7 (by decide)).trans (W16_main_arg7 m ρ c),
     (read_final m ρ h c main_arg8 (by decide)).trans (W16_main_arg8 m ρ c),
     (read_final m ρ h c main_arg9 (by decide)).trans (W16_main_arg9 m ρ c),
     (read_final m ρ h c main_arg10 (by decide)).trans (W16_main_arg10 m ρ c),
     (read_final m ρ h c main_arg11 (by decide)).trans (W16_main_arg11 m ρ c)⟩) (run_all m ρ)

/-- THE VALUE'S RUN, at any value instance: the program's result buffer ends at what the fold's last valuation names for
    it, and every argument array ends holding its launch contents. -/
theorem value_run : θ_run defs (onTc (τ := τ) (main (F := F))) ⟨m, fun _ => 0, ρ⟩ (fun r => ∀ c : Dev nD,
      r.2.mem ((c.tc : Thread nD τ).loc main_v99) = W16 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨read_final m ρ h c main_v99 (by decide),
     (read_final m ρ h c main_arg0 (by decide)).trans (W16_main_arg0 m ρ c),
     (read_final m ρ h c main_arg1 (by decide)).trans (W16_main_arg1 m ρ c),
     (read_final m ρ h c main_arg2 (by decide)).trans (W16_main_arg2 m ρ c),
     (read_final m ρ h c main_arg3 (by decide)).trans (W16_main_arg3 m ρ c),
     (read_final m ρ h c main_arg4 (by decide)).trans (W16_main_arg4 m ρ c),
     (read_final m ρ h c main_arg5 (by decide)).trans (W16_main_arg5 m ρ c),
     (read_final m ρ h c main_arg6 (by decide)).trans (W16_main_arg6 m ρ c),
     (read_final m ρ h c main_arg7 (by decide)).trans (W16_main_arg7 m ρ c),
     (read_final m ρ h c main_arg8 (by decide)).trans (W16_main_arg8 m ρ c),
     (read_final m ρ h c main_arg9 (by decide)).trans (W16_main_arg9 m ρ c),
     (read_final m ρ h c main_arg10 (by decide)).trans (W16_main_arg10 m ρ c),
     (read_final m ρ h c main_arg11 (by decide)).trans (W16_main_arg11 m ρ c)⟩) (run_all m ρ)

end Cert.Kernel.Hand

end
-- ==== Proof.KI.Reg0.lean ====
/-
  Region 0 of the kernel program: the first layer's product, bias and clipping on blocks of 10000 rows.

  The pipeline stages, at grid point `t`, block `t` of the aggregated features (10000 × 16), the whole weight matrix
  (16 × 64, fetched at the first point only) and the whole bias row (1 × 64, likewise), runs the body, and writes
  block `t` of the result (10000 × 64) back. The body loads the three staged blocks whole, forms
  `max (x · W + b, 0)` (the payload) and stores it over the whole output block. Everything here is stated at a
  PARAMETER `V`, the contents of the TensorCore's buffers when the region is entered, and at any value instance `F`:
  the blocks the windows find, what the body leaves in the output's staging buffer as a function of the three input
  blocks, the body's triple, the proof data of the pipeline, and the body obligation at every grid point.
-/
import proofs.«407297_j7748121002089_3_alg».proof.Proof.Gen.KernelIdeal.Launch
import proofs.«407297_j7748121002089_3_alg».proof.Proof.Gen.KernelIdeal.Skeleton
import proofs.«407297_j7748121002089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    not (when it did not, the block index has not moved since the point that did). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_x : Rect S10000x16 := Rect.unit (s := S10000x16) ![0, 0] S10000x16.size inb_S10000x16_S10000x16_0_0
abbrev r0_w : Rect S16x64 := Rect.unit (s := S16x64) ![0, 0] S16x64.size inb_S16x64_S16x64_0_0
abbrev r0_b : Rect S1x64 := Rect.unit (s := S1x64) ![0, 0] S1x64.size inb_S1x64_S1x64_0_0
abbrev r0_o : Rect S10000x64 := Rect.unit (s := S10000x64) ![0, 0] S10000x64.size inb_S10000x64_S10000x64_0_0

/-! ## What the body leaves in the output's staging buffer -/

/-- The output block after the body, from the three input blocks: its one store, of the payload
    `max (x · W + b, 0)` of the blocks as loaded, over the whole buffer. -/
def out0_3 (x0 : Vec F S10000x16 .f32) (x1 : Vec F S16x64 .bf16) (x2 : Vec F S1x64 .f32) : Vec F S10000x64 .f32 :=
  View.canon [⟨r0_o, k0_pay1 (View.ld x0 r0_x) (View.ld x1 r0_w) (View.ld x2 r0_b)⟩]

/-- The one store covers the buffer. -/
theorem cover0_3 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

/-! ## The body's triple -/

set_option maxHeartbeats 1000000 in
/-- The body on whole staging memrefs, the inputs' at contents `x0 x1 x2` and the output's at anything, runs to a
    state holding the inputs' as they were and the output's at `out0_3 x0 x1 x2`. -/
theorem sound_kernel0 (c : Dev nD) (E : Set ℕ) (i : grid0.Coords) (arg1 : Memref sig .tc .vmem S10000x16 .f32) (harg1 : arg1.IsWhole) (arg2 : Memref sig .tc .vmem S16x64 .bf16) (harg2 : arg2.IsWhole) (arg3 : Memref sig .tc .vmem S1x64 .f32) (harg3 : arg3.IsWhole) (arg4 : Memref sig .tc .vmem S10000x64 .f32) (harg4 : arg4.IsWhole)
    (x0 : Vec F S10000x16 .f32) (x1 : Vec F S16x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_relu_kernel i arg1 harg1 arg2 harg2 arg3 harg3 arg4 harg4) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the kernel program: the second layer's product, bias and clipping on blocks of 10000 rows.

  The pipeline stages, at grid point `t`, block `t` of the aggregated features (10000 × 64), the whole weight matrix
  (64 × 128, fetched at the first point only) and the whole bias row (1 × 128, likewise), runs the body, and writes
  block `t` of the result (10000 × 128) back. The body loads the three staged blocks whole, forms
  `max (x · W + b, 0)` (the payload) and stores it over the whole output block. Everything here is stated at a
  PARAMETER `V`, the contents of the TensorCore's buffers when the region is entered, and at any value instance `F`:
  the blocks the windows find, what the body leaves in the output's staging buffer as a function of the three input
  blocks, the body's triple, the proof data of the pipeline, and the body obligation at every grid point.
-/
import proofs.«407297_j7748121002089_3_alg».proof.Proof.Gen.KernelIdeal.Launch
import proofs.«407297_j7748121002089_3_alg».proof.Proof.Gen.KernelIdeal.Skeleton
import proofs.«407297_j7748121002089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    not (when it did not, the block index has not moved since the point that did). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_x : Rect S10000x64 := Rect.unit (s := S10000x64) ![0, 0] S10000x64.size inb_S10000x64_S10000x64_0_0
abbrev r1_w : Rect S64x128 := Rect.unit (s := S64x128) ![0, 0] S64x128.size inb_S64x128_S64x128_0_0
abbrev r1_b : Rect S1x128 := Rect.unit (s := S1x128) ![0, 0] S1x128.size inb_S1x128_S1x128_0_0
abbrev r1_o : Rect S10000x128 := Rect.unit (s := S10000x128) ![0, 0] S10000x128.size inb_S10000x128_S10000x128_0_0

/-! ## What the body leaves in the output's staging buffer -/

/-- The output block after the body, from the three input blocks: its one store, of the payload
    `max (x · W + b, 0)` of the blocks as loaded, over the whole buffer. -/
def out1_3 (x0 : Vec F S10000x64 .f32) (x1 : Vec F S64x128 .bf16) (x2 : Vec F S1x128 .f32) : Vec F S10000x128 .f32 :=
  View.canon [⟨r1_o, k1_pay1 (View.ld x0 r1_x) (View.ld x1 r1_w) (View.ld x2 r1_b)⟩]

/-- The one store covers the buffer. -/
theorem cover1_3 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

/-! ## The body's triple -/

set_option maxHeartbeats 1000000 in
/-- The body on whole staging memrefs, the inputs' at contents `x0 x1 x2` and the output's at anything, runs to a
    state holding the inputs' as they were and the output's at `out1_3 x0 x1 x2`. -/
theorem sound_kernel1 (c : Dev nD) (E : Set ℕ) (i : grid1.Coords) (arg1 : Memref sig .tc .vmem S10000x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S10000x128 .f32) (harg4 : arg4.IsWhole)
    (x0 : Vec F S10000x64 .f32) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_bias_relu_kernel i arg1 harg1 arg2 harg2 arg3 harg3 arg4 harg4) K := by
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel program: the second layer's product on blocks of 10000 rows, with no bias and no clipping.

  The pipeline stages, at grid point `t`, block `t` of the hidden features (10000 × 128) and the whole weight matrix
  (128 × 64, fetched at the first point only), runs the body, and writes block `t` of the result (10000 × 64) back.
  The body loads the two staged blocks whole, rounds the features to bf16 and forms the product `x · W` accumulated
  in f32 from zero (the payload), reads the output's staging buffer without using what it read, and stores the
  payload over the whole output block. Everything here is stated at a PARAMETER `V`, the contents of the
  TensorCore's buffers when the region is entered, and at any value instance `F`: the blocks the windows find, what
  the body leaves in the output's staging buffer as a function of the two input blocks, the body's triple, the proof
  data of the pipeline, and the body obligation at every grid point.
-/
import proofs.«407297_j7748121002089_3_alg».proof.Proof.Gen.KernelIdeal.Launch
import proofs.«407297_j7748121002089_3_alg».proof.Proof.Gen.KernelIdeal.Skeleton
import proofs.«407297_j7748121002089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: the feature block is fetched at each
    point, and the weight matrix, fetched once, has the same block index at every later point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole staging buffer -/

abbrev r2_x : Rect S10000x128 := Rect.unit (s := S10000x128) ![0, 0] S10000x128.size inb_S10000x128_S10000x128_0_0
abbrev r2_w : Rect S128x64 := Rect.unit (s := S128x64) ![0, 0] S128x64.size inb_S128x64_S128x64_0_0
abbrev r2_o : Rect S10000x64 := Rect.unit (s := S10000x64) ![0, 0] S10000x64.size inb_S10000x64_S10000x64_0_0

/-! ## What the body leaves in the output's staging buffer -/

/-- The output block after the body, from the two input blocks: its one store, of the product `x · W` of the blocks
    as loaded, over the whole buffer. What the buffer held before does not enter. -/
def out2_2 (x0 : Vec F S10000x128 .f32) (x1 : Vec F S128x64 .bf16) : Vec F S10000x64 .f32 :=
  View.canon [⟨r2_o, k2_pay1 (View.ld x0 r2_x) (View.ld x1 r2_w)⟩]

/-- The one store covers the buffer. -/
theorem cover2_2 (p0 : Vec F S10000x64 .f32) (y : S10000x64.Idx) :
    ∃ pc ∈ ([⟨r2_o, p0⟩] : List (View.Piece (Elt F) S10000x64 .f32)), y ∈ pc.1.set :=
  View.cover_of_tiled [⟨r2_o, p0⟩] S10000x64.size (by rfl) y

/-! ## The body's triple -/

set_option maxHeartbeats 1000000 in
/-- The body on whole staging memrefs, the inputs' at contents `x0 x1` and the output's at anything, runs to a
    state holding the inputs' as they were and the output's at `out2_2 x0 x1`. -/
theorem sound_kernel2 (c : Dev nD) (E : Set ℕ) (i : grid2.Coords) (arg1 : Memref sig .tc .vmem S10000x128 .f32) (harg1 : arg1.IsWhole) (arg2 : Memref sig .tc .vmem S128x64 .bf16) (harg2 : arg2.IsWhole) (arg3 : Memref sig .tc .vmem S10000x64 .f32) (harg3 : arg3.IsWhole)
    (x0 : Vec F S10000x128 .f32) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the two input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two inputs' memrefs hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the kernel program: the second layer's bias and clipping on blocks of 10000 rows.

  The pipeline stages, at grid point `t`, block `t` of the aggregated second-layer features (10000 × 64) and the
  whole bias row (1 × 64, fetched at the first point only), runs the body, and writes block `t` of the result
  (10000 × 64) back. The body loads the two staged blocks whole, spreads the bias row over the 10000 rows, forms
  `max (x + b, 0)` (the payload), reads the output's staging buffer without using what it read, and stores the
  payload over the whole output block. Everything here is stated at a PARAMETER `V`, the contents of the
  TensorCore's buffers when the region is entered, and at any value instance `F`: the blocks the windows find, what
  the body leaves in the output's staging buffer as a function of the two input blocks, the body's triple, the proof
  data of the pipeline, and the body obligation at every grid point.
-/
import proofs.«407297_j7748121002089_3_alg».proof.Proof.Gen.KernelIdeal.Launch
import proofs.«407297_j7748121002089_3_alg».proof.Proof.Gen.KernelIdeal.Skeleton
import proofs.«407297_j7748121002089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point: the feature block is fetched at each
    point, and the bias row, fetched once, has the same block index at every later point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole staging buffer -/

abbrev r3_x : Rect S10000x64 := Rect.unit (s := S10000x64) ![0, 0] S10000x64.size inb_S10000x64_S10000x64_0_0
abbrev r3_b : Rect S1x64 := Rect.unit (s := S1x64) ![0, 0] S1x64.size inb_S1x64_S1x64_0_0
abbrev r3_o : Rect S10000x64 := Rect.unit (s := S10000x64) ![0, 0] S10000x64.size inb_S10000x64_S10000x64_0_0

/-! ## What the body leaves in the output's staging buffer -/

/-- The output block after the body, from the two input blocks: its one store, of the payload `max (x + b, 0)` of
    the blocks as loaded, over the whole buffer. What the buffer held before does not enter. -/
def out3_2 (x0 : Vec F S10000x64 .f32) (x1 : Vec F S1x64 .f32) : Vec F S10000x64 .f32 :=
  View.canon [⟨r3_o, k3_pay1 (View.ld x0 r3_x) (View.ld x1 r3_b)⟩]

/-- The one store covers the buffer. -/
theorem cover3_2 (p0 : Vec F S10000x64 .f32) (y : S10000x64.Idx) :
    ∃ pc ∈ ([⟨r3_o, p0⟩] : List (View.Piece (Elt F) S10000x64 .f32)), y ∈ pc.1.set :=
  View.cover_of_tiled [⟨r3_o, p0⟩] S10000x64.size (by rfl) y

/-! ## The body's triple -/

set_option maxHeartbeats 1000000 in
/-- The body on whole staging memrefs, the inputs' at contents `x0 x1` and the output's at anything, runs to a
    state holding the inputs' as they were and the output's at `out3_2 x0 x1`. -/
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t` each
    input's buffer at its block and the output's at `out3_2` of the two input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two inputs' memrefs hold their blocks, so the body's triple applies; the invariant
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the kernel program: the pooling kernel, which sums one-hot-selected rows of the features into a 64 × 64
  accumulator over a grid of 8 points.

  At grid point `t` the pipeline stages block `t` of the batch ids (1 × 12800) and block `t` of the features
  (12800 × 64); the output window (64 × 64, the same block at every point) is written back after the last point only.
  The accumulator is a scratch buffer of the kernel's own that is CARRIED from point to point: at the first point the
  body stores zeros over it; at every point it loads the ids `v`, the accumulator `a` and the features `x` and stores
  `a + onehot(v) · x` (the payload) over the whole accumulator; at the last point it copies the accumulator over the
  output's staging buffer. So after point `n` the accumulator holds the payload folded over the blocks of points
  `0 … n`, starting from zeros (`acc4`), and the output is that at `n = 7`.

  Everything is stated at a PARAMETER `V`, the contents of the TensorCore's buffers when the region is entered, and at
  any value instance `F`: the blocks the windows find, the accumulator point by point, the body's triple in each of
  its three cases (first point, middle points, last point), the region's invariant by recursion on the position, the
  proof data of the pipeline, and the body obligation at every grid point.
-/
import proofs.«407297_j7748121002089_3_alg».proof.Proof.Gen.KernelIdeal.Launch
import proofs.«407297_j7748121002089_3_alg».proof.Proof.Gen.KernelIdeal.Skeleton
import proofs.«407297_j7748121002089_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch and the windows' blocks -/

/-- The accumulator: the kernel's scratch operand, a whole scoped buffer passed beside the windows. -/
abbrev sc4 : Memref sig .tc .vmem S64x64 .f32 := Memref.whole cc4_scratch0

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point (both inputs are fetched at every point). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator, point by point -/

/-- What the accumulator holds after the body at point `n`: the payload `a + onehot(ids) · features` of the point's
    two blocks over what the point before left, and over zeros at the first point. -/
def acc4 (c : Dev nD) : (n : ℕ) → n < cfg4.N → Vec F S64x64 .f32
  | 0, h => k4_pay2 (iblk4 V c 0 ⟨0, h⟩) (k4_pay1 (F := F)) (iblk4 V c 1 ⟨0, h⟩)
  | n + 1, h => k4_pay2 (iblk4 V c 0 ⟨n + 1, h⟩) (acc4 c n (Nat.lt_of_succ_lt h)) (iblk4 V c 1 ⟨n + 1, h⟩)

theorem acc4_zero (c : Dev nD) (h : 0 < cfg4.N) : acc4 V c 0 h = k4_pay2 (iblk4 V c 0 ⟨0, h⟩) (k4_pay1 (F := F)) (iblk4 V c 1 ⟨0, h⟩) := rfl
theorem acc4_succ (c : Dev nD) (n : ℕ) (h : n + 1 < cfg4.N) : acc4 V c (n + 1) h = k4_pay2 (iblk4 V c 0 ⟨n + 1, h⟩) (acc4 V c n (Nat.lt_of_succ_lt h)) (iblk4 V c 1 ⟨n + 1, h⟩) := rfl

/-- The same two equations at a point of the grid: the first point, -/
theorem acc4_first (c : Dev nD) (t : Fin cfg4.N) (hz : t.val = 0) :
    acc4 V c t.val t.isLt = k4_pay2 (iblk4 V c 0 t) (k4_pay1 (F := F)) (iblk4 V c 1 t) := by
  obtain ⟨n, hn⟩ := t
  cases n with
  | zero => rfl
  | succ n => exact absurd hz (Nat.succ_ne_zero n)

/-- and a later point, over the point before. -/
theorem acc4_later (c : Dev nD) (t : Fin cfg4.N) (hz : t.val ≠ 0) :
    acc4 V c t.val t.isLt = k4_pay2 (iblk4 V c 0 t) (acc4 V c (t.val - 1) (Nat.lt_of_le_of_lt (Nat.sub_le _ _) t.isLt)) (iblk4 V c 1 t) := by
  obtain ⟨n, hn⟩ := t
  cases n with
  | zero => exact absurd rfl hz
  | succ n => rfl

/-! ## The body's two conditions, in closed form -/

/-- The condition of the body's first conditional (it zeroes the accumulator), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)
/-- The condition of the body's second conditional (it copies the accumulator to the output). -/
abbrev cond4_1 (i : grid4.Coords) : Prop := k4_cond2 i = 1#1
/-- It holds at the last point only — decided over the grid. -/
theorem hcond4_1 : ∀ t : Fin cfg4.N, cond4_1 (grid4.coords t) ↔ t.val = 7 :=
  (by decide +kernel : ∀ t : Fin grid4.N, cond4_1 (grid4.coords t) ↔ t.val = 7)

/-! ## Where the windows are idle -/

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the second conditional is not taken the output window is idle (the body stores nothing into it) -/
theorem idleAt4_2 : ∀ t : Fin cfg4.N, ¬cond4_1 (grid4.coords t) → cfg4.idle 2 (grid4.coords t) = true := by decide +kernel
/-- and the pipeline does not write its block back; -/
theorem noFlush4_2 : ∀ t : Fin cfg4.N, ¬cond4_1 (grid4.coords t) → (cfg4.win 2).flush t = false := by decide +kernel
/-- where it is taken the window is live. -/
theorem liveAt4_2 : ∀ t : Fin cfg4.N, cond4_1 (grid4.coords t) → cfg4.idle 2 (grid4.coords t) = false := by decide +kernel

/-! ## The body's accesses: each a whole buffer -/

/-- The rectangle of every store into a 64 × 64 buffer: the whole buffer. -/
abbrev r4_s : Rect S64x64 := Rect.unit (s := S64x64) ![0, 0] S64x64.size inb_S64x64_S64x64_0_0

/-- Its offsets are zero. -/
theorem hz4 : (![0, 0] : Fin 2 → Nat) = fun _ => 0 := funext fun a => by fin_cases a <;> rfl

/-- A list of stores into the 64 × 64 buffer whose latest is of the whole buffer covers it. -/
theorem cover4_head (p : Vec F S64x64 .f32) (L : List (View.Piece (Elt F) S64x64 .f32)) (y : S64x64.Idx) :
    ∃ pc ∈ ((⟨r4_s, p⟩ : View.Piece (Elt F) S64x64 .f32) :: L), y ∈ pc.1.set :=
  ⟨_, List.mem_cons_self .., View.mem_set_unit_zero hz4 inb_S64x64_S64x64_0_0 y⟩

/-! ## The body's triple, case by case -/

set_option maxHeartbeats 1000000 in
/-- CASE A (the first point: the first conditional taken, the second not). On whole memrefs, the inputs' at contents
    `x0 x1`, the output's at `xi`, the accumulator's at anything, the body runs to a state holding the inputs' and the
    output's as they were and the accumulator's at the payload of `x0`, zeros and `x1`: the accumulator is zeroed, read
    back (the zeros), and stored over whole. -/
theorem sound_kernel4_A (c : Dev nD) (E : Set ℕ) (i : grid4.Coords) (arg1 : Memref sig .tc .vmem S1x12800 .i32) (harg1 : arg1.IsWhole) (arg2 : Memref sig .tc .vmem S12800x64 .f32) (harg2 : arg2.IsWhole) (arg3 : Memref sig .tc .vmem S64x64 .f32) (harg3 : arg3.IsWhole) (arg4 : Memref sig .tc .vmem S64x64 .f32) (harg4 : arg4.IsWhole)
    (hc0 : cond4_0 i) (hc1 : ¬cond4_1 i)
    (x0 : Vec F S1x12800 .i32) (x1 : Vec F S12800x64 .f32) (xi : Vec F S64x64 .f32) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k4_pay2 x0 (k4_pay1 (F := F)) x1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold sound_kernel4_A.sl.v11 sound_kernel4_A.sl.H3_1
  rw [View.read_writes_eq_canon _ _ _ (cover4_head _ _)]
  rw [View.canon_cons_unit_zero (S := S64x64) hz4, View.readCov_unit_zero (S := S64x64) _ hz4]
  simp only [View.readAt_eq_ld, View.ld_unit_zero (S := S1x12800) hz4, View.ld_unit_zero (S := S12800x64) hz4]

set_option maxHeartbeats 1000000 in
/-- CASE B (a middle point: neither conditional taken). The accumulator's memref at `xs`, what the point before left:
    the body leaves the payload of `x0`, `xs` and `x1` in it and touches nothing else. -/
theorem sound_kernel4_B (c : Dev nD) (E : Set ℕ) (i : grid4.Coords) (arg1 : Memref sig .tc .vmem S1x12800 .i32) (harg1 : arg1.IsWhole) (arg2 : Memref sig .tc .vmem S12800x64 .f32) (harg2 : arg2.IsWhole) (arg3 : Memref sig .tc .vmem S64x64 .f32) (harg3 : arg3.IsWhole) (arg4 : Memref sig .tc .vmem S64x64 .f32) (harg4 : arg4.IsWhole)
    (hc0 : ¬cond4_0 i) (hc1 : ¬cond4_1 i)
    (x0 : Vec F S1x12800 .i32) (x1 : Vec F S12800x64 .f32) (xi : Vec F S64x64 .f32) (xs : Vec F S64x64 .f32) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k4_pay2 x0 xs x1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover4_head _ _)]
  rw [View.canon_unit_zero (S := S64x64) hz4]
  simp only [View.readAt_eq_ld, View.ld_unit_zero (S := S1x12800) hz4, View.ld_unit_zero (S := S12800x64) hz4, View.ld_unit_zero (S := S64x64) hz4]

set_option maxHeartbeats 1000000 in
/-- CASE C (the last point: the second conditional taken, the first not). The output's memref at anything: the body
    leaves the payload of `x0`, `xs` and `x1` in the accumulator, reads it back and stores it over the whole output
    buffer, so both end at that payload. -/
theorem sound_kernel4_C (c : Dev nD) (E : Set ℕ) (i : grid4.Coords) (arg1 : Memref sig .tc .vmem S1x12800 .i32) (harg1 : arg1.IsWhole) (arg2 : Memref sig .tc .vmem S12800x64 .f32) (harg2 : arg2.IsWhole) (arg3 : Memref sig .tc .vmem S64x64 .f32) (harg3 : arg3.IsWhole) (arg4 : Memref sig .tc .vmem S64x64 .f32) (harg4 : arg4.IsWhole)
    (hc0 : ¬cond4_0 i) (hc1 : cond4_1 i)
    (x0 : Vec F S1x12800 .i32) (x1 : Vec F S12800x64 .f32) (xs : Vec F S64x64 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k4_pay2 x0 xs x1) ∗ owns (c : Thread nD τ) arg4 fullShare (k4_pay2 x0 xs x1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    unfold sound_kernel4_C.sl.v23 sound_kernel4_C.sl.H3_1
    rw [View.read_writes_eq_canon _ _ _ (cover4_head _ _)]
    rw [View.canon_unit_zero (S := S64x64) hz4, View.readCov_unit_zero (S := S64x64) _ hz4]
    simp only [View.readAt_eq_ld, View.ld_unit_zero (S := S1x12800) hz4, View.ld_unit_zero (S := S12800x64) hz4, View.ld_unit_zero (S := S64x64) hz4]
  iexists _; isplitr
  swap; · iexact H3
  ipureintro
  unfold sound_kernel4_C.sl.H3_1
  rw [View.read_writes_eq_canon _ _ _ (cover4_head _ _)]
  rw [View.canon_unit_zero (S := S64x64) hz4]
  simp only [View.readAt_eq_ld, View.ld_unit_zero (S := S1x12800) hz4, View.ld_unit_zero (S := S12800x64) hz4, View.ld_unit_zero (S := S64x64) hz4]

/-! ## The region's invariant -/

/-- The core's scoped buffers other than this region's staging buffers and its scratch, each at some contents:
    carried unopened. -/
abbrev others4 (c : Dev nD) : sProp 𝕄 :=
  Pipeline.scopedRestBut (Ix := Unit) (Name := ℕ) (U := UR sig nD τ) (Lvl := ℕ) (Val := Elt F) spec4 c [cc4_scratch0]

/-- What the launch hands the region, with the scratch split out as a memref owned at some contents. -/
theorem PhiA4_eq (c : Dev nD) :
    (Pipeline.ΦA spec4 c : sProp 𝕄)
      = iprop(((∃ d, owns (c : Thread nD τ) sc4 fullShare d) ∗ others4 (F := F) c) ∗ (∃ r, prngReg c r)) := by
  unfold Pipeline.ΦA
  rw [Pipeline.scopedRest_split_of_list spec4 c [cc4_scratch0] (by decide) (by decide)]
  simp only [Idealize.SL.BI.bigSepL_singleton, sc4, owns_whole]
  try rfl

/-- The invariant before position `n`: before the first point what the launch hands over (the scratch at anything);
    afterwards the scratch at what the point before left in it, the other scoped buffers at some contents, the generator
    register at some state. -/
def PhiS4 (c : Dev nD) : (n : ℕ) → n ≤ cfg4.N → sProp 𝕄
  | 0, _ => Pipeline.ΦA spec4 c
  | n + 1, hn => iprop((owns (c : Thread nD τ) sc4 fullShare (acc4 V c n hn) ∗ others4 (F := F) c) ∗ (∃ r, prngReg c r))

/-- The invariant before the first point, -/
theorem PhiS4_zero (c : Dev nD) (n : ℕ) (h : n ≤ cfg4.N) (hz : n = 0) : PhiS4 V c n h = Pipeline.ΦA spec4 c := by
  subst hz; rfl

/-- after point `n`, -/
theorem PhiS4_succ (c : Dev nD) (n : ℕ) (hn : n < cfg4.N) :
    PhiS4 V c (n + 1) hn = iprop((owns (c : Thread nD τ) sc4 fullShare (acc4 V c n hn) ∗ others4 (F := F) c) ∗ (∃ r, prngReg c r)) := rfl

/-- and before a point that is not the first. -/
theorem PhiS4_pos (c : Dev nD) (n : ℕ) (h : n ≤ cfg4.N) (hz : n ≠ 0) :
    PhiS4 V c n h = iprop((owns (c : Thread nD τ) sc4 fullShare (acc4 V c (n - 1) (by omega)) ∗ others4 (F := F) c) ∗ (∃ r, prngReg c r)) := by
  cases n with
  | zero => exact absurd rfl hz
  | succ n => rfl

/-! ## The pipeline's proof data -/

/-- The proof data of pipeline 4 on core `c`: the arrays as the region finds them; after the body at point `t` each
    input's buffer at its block and the output's at the accumulator's contents there (consulted at the last point only:
    elsewhere the window is idle and not written back); the invariant `PhiS4`; nothing owed; full shares. -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' memrefs hold their blocks; the closed forms of the two conditions say which case
    the point is in. At the first point the invariant hands the accumulator over at anything and case A leaves the
    payload over zeros; at a later point it hands it over at what the point before left and cases B, C leave the payload
    over that: in each case the accumulator's contents at this point, which the invariant takes back. The output's buffer
    is handed back as found where the window is idle, and at the last point holds the accumulator's contents. The other
    scoped buffers, the generator register and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
      unfold Dat.leavesExact; rw [liveAt4_0 t], after4_0]
  rw [show (dat4 V c).leavesExact 1 t = owns (c : Thread nD τ) (st4_1 t) fullShare ((dat4 V c).after 1 t) from by
      unfold Dat.leavesExact; rw [liveAt4_1 t], after4_1]
  have hN : t.val < 8 := lt_of_lt_of_eq t.isLt (show cfg4.N = 8 from N_4)
  by_cases h7 : t.val = 7
  · have hc1 : cond4_1 (grid4.coords t) := (hcond4_1 t).mpr h7
    have hc0 : ¬cond4_0 (grid4.coords t) := fun h => by have := (hcond4_0 t).mp h; omega
    have hz : t.val ≠ 0 := by omega
    rw [show (dat4 V c).leavesExact 2 t = owns (c : Thread nD τ) (st4_2 t) fullShare ((dat4 V c).after 2 t) from by
      unfold Dat.leavesExact; rw [liveAt4_2 t hc1], after4_2]
    rw [acc4_later V c t hz]
    rw [PhiS4_castSucc V c t, PhiS4_pos V c _ _ hz]
    iintro ⟨⟨⟨HS, HR⟩, Hg⟩, Ho, ⟨%d0, H0⟩, ⟨%d1, H1⟩, ⟨%d2, H2⟩⟩
    iapply (sound_kernel4_C c Set.univ (grid4.coords t) _ _ _ _ _ _ _ _ hc0 hc1 (iblk4 V c 0 t) (iblk4 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc1 : ¬cond4_1 (grid4.coords t) := fun h => h7 ((hcond4_1 t).mp h)
    rw [Dat.leavesExact_idle (dat4 V c) 2 t (idleAt4_2 t hc1) (noFlush4_2 t hc1)]
    by_cases hz : t.val = 0
    · have hc0 : cond4_0 (grid4.coords t) := (hcond4_0 t).mpr hz
      rw [acc4_first V c t hz]
      rw [PhiS4_castSucc V c t, PhiS4_zero V c _ _ hz, PhiA4_eq]
      iintro ⟨⟨⟨HS, HR⟩, Hg⟩, Ho, ⟨%d0, H0⟩, ⟨%d1, H1⟩, ⟨%d2, H2⟩⟩
      iapply (sound_kernel4_A c Set.univ (grid4.coords t) _ _ _ _ _ _ _ _ hc0 hc1 (iblk4 V c 0 t) (iblk4 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists d2; iexact H2
    · have hc0 : ¬cond4_0 (grid4.coords t) := fun h => hz ((hcond4_0 t).mp h)
      rw [acc4_later V c t hz]
      rw [PhiS4_castSucc V c t, PhiS4_pos V c _ _ hz]
      iintro ⟨⟨⟨HS, HR⟩, Hg⟩, Ho, ⟨%d0, H0⟩, ⟨%d1, H1⟩, ⟨%d2, H2⟩⟩
      iapply (sound_kernel4_B c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists d2; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives it back: what the scratch holds is forgotten. -/
theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 8 := N_4; omega), PhiA4_eq]
  iintro ⟨⟨HS, HR⟩, Hg⟩
  isplitl [HS HR]
  · isplitl [HS]; · iexists _; iexact HS
    iexact HR
  iexact Hg

end Cert.KernelIdeal.Hand

end
-- ==== Proof.KI.Fold.lean ====
/-
  The contents of the TensorCore's unscoped buffers at every boundary between two items of @main, as a fold from
  the launch memory: after a stretch of host operations, what those operations compute from the contents before;
  after a kernel region, the region's arrays at what its write-backs leave and every other buffer as entered.
  `W k` is the contents after item `k - 1` (`W 0` the launch memory); `V k` is `W k` read at the TensorCore's references,
  the form a region's proof data take.
-/
import proofs.«407297_j7748121002089_3_alg».proof.Proof.KI.Reg0
import proofs.«407297_j7748121002089_3_alg».proof.Proof.KI.Reg1
import proofs.«407297_j7748121002089_3_alg».proof.Proof.KI.Reg2
import proofs.«407297_j7748121002089_3_alg».proof.Proof.KI.Reg3
import proofs.«407297_j7748121002089_3_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After item 1, the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After item 2, the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After item 3, region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After item 4, the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After item 5, region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After item 6, region 2: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After item 7, the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- After item 8, region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After item 9, the host stretch `hostOps4`. -/
abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b
/-- After item 10, the host stretch `hostOps4_1`. -/
abbrev W11 : Dev nD → Valuation τ sig (Elt F) := fun c => StableHlo.after hostOps4_1 (W10 m ρ c)
abbrev V11 : (c : Dev nD) → (b : Ref sig .tc) → Buf (Elt F) ((c : Thread nD τ).loc b) := fun c b => W11 m ρ c b
/-- After item 11, the host stretch `hostOps4_2`. -/
abbrev W12 : Dev nD → Valuation τ sig (Elt F) := fun c => StableHlo.after hostOps4_2 (W11 m ρ c)
abbrev V12 : (c : Dev nD) → (b : Ref sig .tc) → Buf (Elt F) ((c : Thread nD τ).loc b) := fun c b => W12 m ρ c b
/-- After item 12, the host stretch `hostOps4_3`. -/
abbrev W13 : Dev nD → Valuation τ sig (Elt F) := fun c => StableHlo.after hostOps4_3 (W12 m ρ c)
abbrev V13 : (c : Dev nD) → (b : Ref sig .tc) → Buf (Elt F) ((c : Thread nD τ).loc b) := fun c b => W13 m ρ c b
/-- After item 13, the host stretch `hostOps4_4`. -/
abbrev W14 : Dev nD → Valuation τ sig (Elt F) := fun c => StableHlo.after hostOps4_4 (W13 m ρ c)
abbrev V14 : (c : Dev nD) → (b : Ref sig .tc) → Buf (Elt F) ((c : Thread nD τ).loc b) := fun c b => W14 m ρ c b
/-- After item 14, region 4: its arrays at what the pipeline leaves, every other buffer as entered. -/
def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb
abbrev V15 : (c : Dev nD) → (b : Ref sig .tc) → Buf (Elt F) ((c : Thread nD τ).loc b) := fun c b => W15 m ρ c b
theorem hF4 (c : Dev nD) (w : Fin cfg4.W) : (dat4 (V14 m ρ) c).arrAt w cfg4.N = V15 m ρ c (Pipeline.arrRef spec4 w) :=
  (W15_arr m ρ c w).symm
theorem hrest4 (c : Dev nD) : ∀ b, b ∉ Finset.univ.image (Pipeline.arrRef spec4) → V15 m ρ c b = V14 m ρ c b :=
  fun b hb => W15_of_ne m ρ c b fun w e => hb (Finset.mem_image.mpr ⟨w, Finset.mem_univ _, e⟩)
/-- After item 15, the host stretch `hostOps5`. -/
abbrev W16 : Dev nD → Valuation τ sig (Elt F) := fun c => StableHlo.after hostOps5 (W15 m ρ c)
abbrev V16 : (c : Dev nD) → (b : Ref sig .tc) → Buf (Elt F) ((c : Thread nD τ).loc b) := fun c b => W16 m ρ c b

end Cert.KernelIdeal.Hand

end
-- ==== Proof.KI.Run.lean ====
/-
  The run of the kernel program's @main: eleven stretches of host operations and five kernel regions, sixteen items in
  all, carried through the several-regions launch theorem at any value instance F.

  Between two items a core holds every unscoped buffer whole, at the contents the fold of KI/Fold.lean names for that
  boundary (W 0 the launch memory, W (k+1) what item k leaves), beside its generator register at some state and a
  record of owing nothing. A host stretch takes the buffers from W k to StableHlo.after of its operations, which is
  W (k+1) by definition. A kernel region splits its windows' arrays out of the unscoped buffers, runs its pipeline on
  them, and puts them back at the contents the write-backs leave, which is W (k+1) by the two defining equations of
  Pipeline.withArrays. The thread states therefore chain by reflexivity, and the last one names the final contents
  of EVERY unscoped buffer: W 16. Both the frame claim (each argument ends as launched) and the value of the
  program's result are read off that one post.
-/
import proofs.«407297_j7748121002089_3_alg».proof.Proof.Gen.KernelIdeal.Regions
import proofs.«407297_j7748121002089_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the arguments -/

/-- The fold starts at the launch memory: at any buffer of the core's device, -/
theorem W0_mem (c : Dev nD) (b : DevRef τ sig) : W0 m ρ c b = m (((c : Thread nD τ)).1, b) := rfl
/-- and so at a TensorCore reference. -/
theorem W0_eq (c : Dev nD) (b : Ref sig .tc) : W0 m ρ c (Proc.devRef .tc b) = m ((c : Thread nD τ).loc b) := rfl

/-- A reference that no host stretch writes and that is no region's window array holds, at the end, what the launch
    memory held: each host stretch leaves it (its operations' writes lie in the stretch's list of written references),
    and each region changes its own windows' arrays only. -/
theorem W16_of_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : ∀ w, Pipeline.arrRef spec1 w ≠ r) (h6 : ∀ w, Pipeline.arrRef spec2 w ≠ r)
    (h7 : r ∉ hostOps3_W) (h8 : ∀ w, Pipeline.arrRef spec3 w ≠ r)
    (h9 : r ∉ hostOps4_W) (h10 : r ∉ hostOps4_1_W) (h11 : r ∉ hostOps4_2_W) (h12 : r ∉ hostOps4_3_W)
    (h13 : r ∉ hostOps4_4_W) (h14 : ∀ w, Pipeline.arrRef spec4 w ≠ r) (h15 : r ∉ hostOps5_W) :
    W16 m ρ c (Proc.devRef .tc r) = m ((c : Thread nD τ).loc r) :=
  calc W16 m ρ c (Proc.devRef .tc r)
    _ = W15 m ρ c (Proc.devRef .tc r) := StableHlo.after_of_writes_sub hostOps5 _ hostOps5_writes h15
    _ = W14 m ρ c (Proc.devRef .tc r) := W15_of_ne m ρ c r h14
    _ = W13 m ρ c (Proc.devRef .tc r) := StableHlo.after_of_writes_sub hostOps4_4 _ hostOps4_4_writes h13
    _ = W12 m ρ c (Proc.devRef .tc r) := StableHlo.after_of_writes_sub hostOps4_3 _ hostOps4_3_writes h12
    _ = W11 m ρ c (Proc.devRef .tc r) := StableHlo.after_of_writes_sub hostOps4_2 _ hostOps4_2_writes h11
    _ = W10 m ρ c (Proc.devRef .tc r) := StableHlo.after_of_writes_sub hostOps4_1 _ hostOps4_1_writes h10
    _ = W9 m ρ c (Proc.devRef .tc r) := StableHlo.after_of_writes_sub hostOps4 _ hostOps4_writes h9
    _ = W8 m ρ c (Proc.devRef .tc r) := W9_of_ne m ρ c r h8
    _ = W7 m ρ c (Proc.devRef .tc r) := StableHlo.after_of_writes_sub hostOps3 _ hostOps3_writes h7
    _ = W6 m ρ c (Proc.devRef .tc r) := W7_of_ne m ρ c r h6
    _ = W5 m ρ c (Proc.devRef .tc r) := W6_of_ne m ρ c r h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-! ### The arguments end as launched: an argument is written by no host operation and is no window's array -/
theorem W16_main_arg0 (c : Dev nD) : W16 m ρ c (Proc.devRef .tc main_arg0) = m ((c : Thread nD τ).loc main_arg0) :=
  W16_of_untouched m ρ c main_arg0 (by decide) (by decide) (by decide) (by decide) (by decide) (by decide) (by decide) (by decide)
    (by decide) (by decide) (by decide) (by decide) (by decide) (by decide) (by decide) (by decide)
theorem W16_main_arg1 (c : Dev nD) : W16 m ρ c (Proc.devRef .tc main_arg1) = m ((c : Thread nD τ).loc main_arg1) :=
  W16_of_untouched m ρ c main_arg1 (by decide) (by decide) (by decide) (by decide) (by decide) (by decide) (by decide) (by decide)
    (by decide) (by decide) (by decide) (by decide) (by decide) (by decide) (by decide) (by decide)
theorem W16_main_arg2 (c : Dev nD) : W16 m ρ c (Proc.devRef .tc main_arg2) = m ((c : Thread nD τ).loc main_arg2) :=
  W16_of_untouched m ρ c main_arg2 (by decide) (by decide) (by decide) (by decide) (by decide) (by decide) (by decide) (by decide)
    (by decide) (by decide) (by decide) (by decide) (by decide) (by decide) (by decide) (by decide)
theorem W16_main_arg3 (c : Dev nD) : W16 m ρ c (Proc.devRef .tc main_arg3) = m ((c : Thread nD τ).loc main_arg3) :=
  W16_of_untouched m ρ c main_arg3 (by decide) (by decide) (by decide) (by decide) (by decide) (by decide) (by decide) (by decide)
    (by decide) (by decide) (by decide) (by decide) (by decide) (by decide) (by decide) (by decide)
theorem W16_main_arg4 (c : Dev nD) : W16 m ρ c (Proc.devRef .tc main_arg4) = m ((c : Thread nD τ).loc main_arg4) :=
  W16_of_untouched m ρ c main_arg4 (by decide) (by decide) (by decide) (by decide) (by decide) (by decide) (by decide) (by decide)
    (by decide) (by decide) (by decide) (by decide) (by decide) (by decide) (by decide) (by decide)
theorem W16_main_arg5 (c : Dev nD) : W16 m ρ c (Proc.devRef .tc main_arg5) = m ((c : Thread nD τ).loc main_arg5) :=
  W16_of_untouched m ρ c main_arg5 (by decide) (by decide) (by decide) (by decide) (by decide) (by decide) (by decide) (by decide)
    (by decide) (by decide) (by decide) (by decide) (by decide) (by decide) (by decide) (by decide)
theorem W16_main_arg6 (c : Dev nD) : W16 m ρ c (Proc.devRef .tc main_arg6) = m ((c : Thread nD τ).loc main_arg6) :=
  W16_of_untouched m ρ c main_arg6 (by decide) (by decide) (by decide) (by decide) (by decide) (by decide) (by decide) (by decide)
    (by decide) (by decide) (by decide) (by decide) (by decide) (by decide) (by decide) (by decide)
theorem W16_main_arg7 (c : Dev nD) : W16 m ρ c (Proc.devRef .tc main_arg7) = m ((c : Thread nD τ).loc main_arg7) :=
  W16_of_untouched m ρ c main_arg7 (by decide) (by decide) (by decide) (by decide) (by decide) (by decide) (by decide) (by decide)
    (by decide) (by decide) (by decide) (by decide) (by decide) (by decide) (by decide) (by decide)
theorem W16_main_arg8 (c : Dev nD) : W16 m ρ c (Proc.devRef .tc main_arg8) = m ((c : Thread nD τ).loc main_arg8) :=
  W16_of_untouched m ρ c main_arg8 (by decide) (by decide) (by decide) (by decide) (by decide) (by decide) (by decide) (by decide)
    (by decide) (by decide) (by decide) (by decide) (by decide) (by decide) (by decide) (by decide)
theorem W16_main_arg9 (c : Dev nD) : W16 m ρ c (Proc.devRef .tc main_arg9) = m ((c : Thread nD τ).loc main_arg9) :=
  W16_of_untouched m ρ c main_arg9 (by decide) (by decide) (by decide) (by decide) (by decide) (by decide) (by decide) (by decide)
    (by decide) (by decide) (by decide) (by decide) (by decide) (by decide) (by decide) (by decide)
theorem W16_main_arg10 (c : Dev nD) : W16 m ρ c (Proc.devRef .tc main_arg10) = m ((c : Thread nD τ).loc main_arg10) :=
  W16_of_untouched m ρ c main_arg10 (by decide) (by decide) (by decide) (by decide) (by decide) (by decide) (by decide) (by decide)
    (by decide) (by decide) (by decide) (by decide) (by decide) (by decide) (by decide) (by decide)
theorem W16_main_arg11 (c : Dev nD) : W16 m ρ c (Proc.devRef .tc main_arg11) = m ((c : Thread nD τ).loc main_arg11) :=
  W16_of_untouched m ρ c main_arg11 (by decide) (by decide) (by decide) (by decide) (by decide) (by decide) (by decide) (by decide)
    (by decide) (by decide) (by decide) (by decide) (by decide) (by decide) (by decide) (by decide)

/-! ## The proof data family and the thread state -/

/-- Every pipeline's proof data, each at the contents its region is entered from: a literal match on the pipeline's
    index, so that the launch theorem's pinned configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record that the core owes nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends at
    those references at StableHlo.after of the stretch from W c, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing (the launch theorem's chain ends at it BESIDE that
    record): every unscoped buffer at the last boundary's contents W 16, the generator register at some state. -/
abbrev Tₙ (c : Dev nD) : sProp 𝕄 := iprop(StableHlo.held (c : Thread nD τ) (Pipeline.ucRefs τ sig) (W16 m ρ c) ∗ ∃ r, prngReg c r)

/-- What the last host stretch leaves is the last thread state beside the record of owing nothing: the same three
    resources, bracketed the other way. -/
theorem last_state (c : Dev nD) :
    iprop(StableHlo.held (c : Thread nD τ) (Pipeline.ucRefs τ sig) (W16 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The regions as segments

Each region is entered from every unscoped buffer at its entry contents and left at its exit contents. At the entry its
windows' arrays are split out of the unscoped buffers; at the exit they are put back at what the pipeline leaves, which the
fold's exit contents hold at the arrays and nowhere else differ from the entry contents. The generator register goes into
the region's invariant and comes back; nothing is owed; no region has a semaphore of its own. -/

-- applying a library lemma stated over the pinned configuration unifies with the printed one only when unification may
-- unfold plain definitions in a metavariable's type
set_option backward.isDefEq.respectTransparency.types false in
/-- REGION 0 (item 3): the 16-to-64 product with bias and clipping, entered at W 3, left at W 4. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (item 5): the 64-to-128 product with bias and clipping, entered at W 5, left at W 6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (item 6): the 128-to-64 product, entered at W 6 (no host operation stands between regions 1 and 2), left
    at W 7. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (item 8): the bias row added and the sum clipped, entered at W 8, left at W 9. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (item 14): the accumulation into a 64 × 64 block, entered at W 14, left at W 15. This kernel carries a scratch buffer
    from one grid point to the next, so its invariant is its own: at the first point it follows from the common
    invariant (the scoped rest and the generator register), and at the last point it gives the common one back. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V14 m ρ) c).loose
  hwaits := Pipeline.hwaits_of_owed_zero _ _ _ _ L lv 4 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec4 c (V14 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec4 c : sProp 𝕄)).trans (hin4 (V14 m ρ) c)
    unfold Pipeline.ΦA
    iintro ⟨Hp, -, Hr⟩
    isplitl [Hr]; · iexact Hr
    iexact Hp
  hout c := by
    rw [Pipeline.ownSems0_none]
    refine (hout4 (V14 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V14 m ρ c) (V15 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's sixteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .host (hseg hostOps4_1 hostOps4_1_sub hostOps4_1_fresh (W10 m ρ)),
    .host (hseg hostOps4_2 hostOps4_2_sub hostOps4_2_fresh (W11 m ρ)),
    .host (hseg hostOps4_3 hostOps4_3_sub hostOps4_3_fresh (W12 m ρ)),
    .host (hseg hostOps4_4 hostOps4_4_sub hostOps4_4_fresh (W13 m ρ)),
    .region (reg4 m ρ),
    .host (hseg hostOps5 hostOps5_sub hostOps5_fresh (W15 m ρ)) ]

/-- @main IS the run of the segments: it is the chain of its sixteen items, and the segments' run is the chain of their
    fragments, item for item. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and in every final state each unscoped buffer of each core holds what the
    fold's last valuation W 16 names for it. The thread states chain by reflexivity (each boundary's contents are the next
    item's entry contents by name); the first is made from what the launch deals; the last is read against the final
    state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- What the run's post says of one unscoped TensorCore reference. -/
theorem read_final {r : PUnit × MemSt nD τ sig (Elt F)}
    (h : ∀ c : Dev nD, ∀ b ∈ Pipeline.ucRefs τ sig, r.2.mem (((c : Thread nD τ)).1, b) = W16 m ρ c b)
    (c : Dev nD) (b : Ref sig .tc) (hb : ¬ (Proc.devRef .tc b : DevRef τ sig).isScoped) :
    r.2.mem ((c.tc : Thread nD τ).loc b) = W16 m ρ c (Proc.devRef .tc b) :=
  h c _ (mem_uc b hb)

/-- THE FRAME, at any value instance: every argument array ends holding its launch contents. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(read_final m ρ h c main_arg0 (by decide)).trans (W16_main_arg0 m ρ c),
     (read_final m ρ h c main_arg1 (by decide)).trans (W16_main_arg1 m ρ c),
     (read_final m ρ h c main_arg2 (by decide)).trans (W16_main_arg2 m ρ c),
     (read_final m ρ h c main_arg3 (by decide)).trans (W16_main_arg3 m ρ c),
     (read_final m ρ h c main_arg4 (by decide)).trans (W16_main_arg4 m ρ c),
     (read_final m ρ h c main_arg5 (by decide)).trans (W16_main_arg5 m ρ c),
     (read_final m ρ h c main_arg6 (by decide)).trans (W16_main_arg6 m ρ c),
     (read_final m ρ h c main_arg7 (by decide)).trans (W16_main_arg7 m ρ c),
     (read_final m ρ h c main_arg8 (by decide)).trans (W16_main_arg8 m ρ c),
     (read_final m ρ h c main_arg9 (by decide)).trans (W16_main_arg9 m ρ c),
     (read_final m ρ h c main_arg10 (by decide)).trans (W16_main_arg10 m ρ c),
     (read_final m ρ h c main_arg11 (by decide)).trans (W16_main_arg11 m ρ c)⟩) (run_all m ρ)

/-- THE VALUE'S RUN, at any value instance: the program's result buffer ends at what the fold's last valuation names for
    it, and every argument array ends holding its launch contents. -/
theorem value_run : θ_run defs (onTc (τ := τ) (main (F := F))) ⟨m, fun _ => 0, ρ⟩ (fun r => ∀ c : Dev nD,
      r.2.mem ((c.tc : Thread nD τ).loc main_v99) = W16 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨read_final m ρ h c main_v99 (by decide),
     (read_final m ρ h c main_arg0 (by decide)).trans (W16_main_arg0 m ρ c),
     (read_final m ρ h c main_arg1 (by decide)).trans (W16_main_arg1 m ρ c),
     (read_final m ρ h c main_arg2 (by decide)).trans (W16_main_arg2 m ρ c),
     (read_final m ρ h c main_arg3 (by decide)).trans (W16_main_arg3 m ρ c),
     (read_final m ρ h c main_arg4 (by decide)).trans (W16_main_arg4 m ρ c),
     (read_final m ρ h c main_arg5 (by decide)).trans (W16_main_arg5 m ρ c),
     (read_final m ρ h c main_arg6 (by decide)).trans (W16_main_arg6 m ρ c),
     (read_final m ρ h c main_arg7 (by decide)).trans (W16_main_arg7 m ρ c),
     (read_final m ρ h c main_arg8 (by decide)).trans (W16_main_arg8 m ρ c),
     (read_final m ρ h c main_arg9 (by decide)).trans (W16_main_arg9 m ρ c),
     (read_final m ρ h c main_arg10 (by decide)).trans (W16_main_arg10 m ρ c),
     (read_final m ρ h c main_arg11 (by decide)).trans (W16_main_arg11 m ρ c)⟩) (run_all m ρ)

end Cert.KernelIdeal.Hand

end
-- ==== Proof.LibRowIndex.lean ====
/-
  Rows of a matrix taken and added by an index column.

  A matrix `x : [N, F]` is read at rows chosen by a column of integers `idx : [E, 1]` (the gather that
  `x[idx]` along axis 0 lowers to), and a matrix of updates `u : [E, F]` is added into rows of an `[N, F]`
  operand chosen the same way (the scatter that `segment_sum` lowers to). Read at an index both are
  plain statements about ONE row function of the edge `e`, independent of the width `F`:
  * the gathered element at `(e, f)` is `x (rowClamp e, f)`, the start index read signed and clamped into `[0, N-1]`;
  * the scatter-added element at `(i, f)` is the operand's plus the sum of `u (e, f)` over the edges whose
    start index, read signed and NOT clamped, is exactly `i` (an edge whose index is outside `[0, N)` lands nowhere).
-/
import Idealize.ShloMosaic.PureOps.Ideal
import Idealize.ShloMosaic.PureOps.Ideal.Laws
import Idealize.ShloMosaic.Lib.ValueIdx

noncomputable section

open scoped BigOperators

namespace Idealize.ShloMosaic.RowIndex

open Idealize.ShloMosaic Idealize.ShloMosaic.ValueIdx

/-- The shape of a matrix of `N` rows and `F` columns, and of a column of `E` indices. -/
abbrev SRows (N F : Nat) : Shape := ⟨2, ![N, F]⟩
abbrev SCol (E : Nat) : Shape := ⟨2, ![E, 1]⟩

/-- The dimension numbers of "take rows": operand `[N, F]`, start indices `[E, 1]`, result `[E, F]`. -/
def rowGatherDims (N E F : Nat)
    (wf : GatherDims.WF (SRows N F) (SCol E) (SRows E F) [1] [0] [] [0] [] 1 ![1, F]) :
    GatherDims (SRows N F) (SCol E) (SRows E F) where
  offsetDims := [1]
  collapsedSliceDims := [0]
  operandBatchingDims := []
  startIndicesBatchingDims := []
  startIndexMap := [0]
  indexVectorDim := 1
  sliceSizes := ![1, F]
  wf := wf

/-- The dimension numbers of "add rows": operand `[N, F]`, scatter indices `[E, 1]`, updates `[E, F]`. -/
def rowScatterDims (N E F : Nat)
    (wf : ScatterDims.WF (SRows N F) (SCol E) (SRows E F) [1] [0] [0] 1) :
    ScatterDims (SRows N F) (SCol E) (SRows E F) where
  updateWindowDims := [1]
  insertedWindowDims := [0]
  scatterDimsToOperandDims := [0]
  indexVectorDim := 1
  wf := wf

variable {N E : Nat} {w : Nat}

/-- The row edge `e` READS: its start index, signed, clamped into `[0, N - 1]`. -/
def rowClamp (hN : 0 < N) (idx : IVec (SCol E) w) (e : Fin E) : Fin N :=
  ⟨min (idx (ix2 e (0 : Fin 1))).toInt.toNat (N - 1), by omega⟩

/-- The row edge `e` ADDS INTO: its start index, signed, when that lies in `[0, N)`; none otherwise. -/
def rowLand (idx : IVec (SCol E) w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- An axis of a matrix is the first or the second. -/
private theorem fin2_cases (a : Fin 2) : a = 0 ∨ a = 1 := by
  rcases a with ⟨v, hv⟩
  rcases v with _ | _ | v
  · exact Or.inl rfl
  · exact Or.inr rfl
  · omega

/-- The second axis is not the first. -/
private theorem fin2_one_ne_zero : ¬ ((1 : Fin 2) = 0) := by decide

/-- TAKE ROWS, read at `(e, f)`: row `rowClamp e` of the operand, column `f`. -/
theorem rowGather_apply {α : Type} {F : Nat} (hN : 0 < N)
    (wf : GatherDims.WF (SRows N F) (SCol E) (SRows E F) [1] [0] [] [0] [] 1 ![1, F])
    (x : (SRows N F).Idx → α) (idx : IVec (SCol E) w) (e : Fin E) (f : Fin F) :
    Host.gather (rowGatherDims N E F wf) x idx (ix2 e f) = x (ix2 (rowClamp hN idx e) f) := by
  unfold Host.gather
  congr 1
  funext a
  refine Fin.ext ?_
  show (rowGatherDims N E F wf).start (ix2 e f) idx a + (rowGatherDims N E F wf).batchCoord (ix2 e f) a
    + (rowGatherDims N E F wf).offCoord (ix2 e f) a = _
  rw [GatherDims.batchCoord_eq_zero _ _ _ List.not_mem_nil, Nat.add_zero]
  rcases fin2_cases a with rfl | rfl
  · -- the row axis is collapsed: no offset coordinate, the start is the clamped index
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N E F wf).startIndexMap from List.mem_singleton.mpr rfl)]
    have hsi : (rowGatherDims N E F wf).siIdx (ix2 e f) ⟨List.idxOf (0 : Fin 2) (rowGatherDims N E F wf).startIndexMap,
        List.idxOf_lt_length_iff.2 (List.mem_singleton.mpr rfl)⟩ = ix2 e (0 : Fin 1) := by
      funext b; refine Fin.ext ?_
      rcases fin2_cases b with rfl | rfl
      · rfl
      · rfl
    rw [hsi]
    rfl
  · -- the column axis is the offset axis: start 0, offset coordinate the result's column
    have hs : (rowGatherDims N E F wf).start (ix2 e f) idx 1 = 0 := by
      unfold GatherDims.start
      rw [dif_neg (show (1 : Fin 2) ∉ (rowGatherDims N E F wf).startIndexMap from by
        intro h; exact absurd (List.mem_singleton.mp h) fin2_one_ne_zero)]
    rw [hs, Nat.zero_add]
    have hk : (1 : Fin 2) ∈ (rowGatherDims N E F wf).sKept :=
      (GatherDims.mem_sKept _ _).mpr ⟨fun h => absurd (List.mem_singleton.mp h) fin2_one_ne_zero, List.not_mem_nil⟩
    unfold GatherDims.offCoord
    rw [dif_pos hk]
    rfl

/-- Where the update at `(e, f)` lands: row `rowLand e`, the same column. -/
theorem rowScatter_resultIdx {F : Nat}
    (wf : ScatterDims.WF (SRows N F) (SCol E) (SRows E F) [1] [0] [0] 1)
    (idx : IVec (SCol E) w) (e : Fin E) (f : Fin F) :
    (rowScatterDims N E F wf).resultIdx? (ix2 e f) idx = (rowLand (N := N) idx e).map fun i => ix2 i f := by
  have hk0 : (0 : Fin 2) ∉ (rowScatterDims N E F wf).sKept := by
    simp [ScatterDims.sKept, Shape.kept, List.mem_filter, List.mem_finRange, rowScatterDims]
  have hk1 : (1 : Fin 2) ∈ (rowScatterDims N E F wf).sKept := by
    simp [ScatterDims.sKept, Shape.kept, List.mem_filter, List.mem_finRange, rowScatterDims]
  -- on the row axis the window starts at the signed index and has no window coordinate
  have hs0 : (rowScatterDims N E F wf).start (ix2 e f) idx 0 = (idx (ix2 e (0 : Fin 1))).toInt := by
    unfold ScatterDims.start
    rw [dif_pos (show (0 : Fin 2) ∈ (rowScatterDims N E F wf).scatterDimsToOperandDims from List.mem_singleton.mpr rfl)]
    have hsi : (rowScatterDims N E F wf).siIdx (ix2 e f)
        ⟨List.idxOf (0 : Fin 2) (rowScatterDims N E F wf).scatterDimsToOperandDims,
          List.idxOf_lt_length_iff.2 (List.mem_singleton.mpr rfl)⟩ = ix2 e (0 : Fin 1) := by
      funext b; refine Fin.ext ?_
      rcases fin2_cases b with rfl | rfl
      · rfl
      · rfl
    rw [hsi]
  have hw0 : (rowScatterDims N E F wf).window (ix2 e f) 0 = 0 := by
    unfold ScatterDims.window; rw [dif_neg hk0]
  -- on the column axis the window starts at 0 and its coordinate is the update's column
  have hs1 : (rowScatterDims N E F wf).start (ix2 e f) idx 1 = 0 := by
    unfold ScatterDims.start
    rw [dif_neg (show (1 : Fin 2) ∉ (rowScatterDims N E F wf).scatterDimsToOperandDims from by
      intro h; exact absurd (List.mem_singleton.mp h) fin2_one_ne_zero)]
  have hw1 : (rowScatterDims N E F wf).window (ix2 e f) 1 = f.val := by
    unfold ScatterDims.window; rw [dif_pos hk1]; rfl
  unfold ScatterDims.resultIdx? rowLand
  by_cases h : 0 ≤ (idx (ix2 e (0 : Fin 1))).toInt ∧ (idx (ix2 e (0 : Fin 1))).toInt < N
  · -- the index is a row of the operand: both axes are in range, the landing index is (that row, f)
    have hall : ∀ a, 0 ≤ (rowScatterDims N E F wf).start (ix2 e f) idx a + (rowScatterDims N E F wf).window (ix2 e f) a ∧
        (rowScatterDims N E F wf).start (ix2 e f) idx a + (rowScatterDims N E F wf).window (ix2 e f) a < (SRows N F).size a := by
      intro a
      rcases fin2_cases a with rfl | rfl
      · rw [hs0, hw0]
        show 0 ≤ (idx (ix2 e (0 : Fin 1))).toInt + ((0 : Nat) : Int) ∧ (idx (ix2 e (0 : Fin 1))).toInt + ((0 : Nat) : Int) < (N : Int)
        omega
      · rw [hs1, hw1]
        show 0 ≤ (0 : Int) + (f.val : Int) ∧ (0 : Int) + (f.val : Int) < (F : Int)
        have := f.isLt
        omega
    rw [dif_pos hall, dif_pos h]
    show some _ = some _
    congr 1
    funext a
    refine Fin.ext ?_
    rcases fin2_cases a with rfl | rfl
    · show ((rowScatterDims N E F wf).start (ix2 e f) idx 0 + (rowScatterDims N E F wf).window (ix2 e f) 0).toNat
        = (idx (ix2 e (0 : Fin 1))).toInt.toNat
      rw [hs0, hw0]; simp
    · show ((rowScatterDims N E F wf).start (ix2 e f) idx 1 + (rowScatterDims N E F wf).window (ix2 e f) 1).toNat = f.val
      rw [hs1, hw1]; simp
  · -- the index is no row of the operand: the row axis is out of range, the update is dropped
    have hnall : ¬ ∀ a, 0 ≤ (rowScatterDims N E F wf).start (ix2 e f) idx a + (rowScatterDims N E F wf).window (ix2 e f) a ∧
        (rowScatterDims N E F wf).start (ix2 e f) idx a + (rowScatterDims N E F wf).window (ix2 e f) a < (SRows N F).size a := by
      intro hall
      have h0 := hall 0
      rw [hs0, hw0] at h0
      have h0' : 0 ≤ (idx (ix2 e (0 : Fin 1))).toInt + ((0 : Nat) : Int) ∧ (idx (ix2 e (0 : Fin 1))).toInt + ((0 : Nat) : Int) < (N : Int) := h0
      exact h (by omega)
    rw [dif_neg hnall, dif_neg h]
    rfl

/-- ADD ROWS at the exact values, read at `(i, f)`: the operand's element plus the sum, over the edges landing on
    row `i`, of the update's element in column `f`. -/
theorem rowScatterAdd_apply {F : Nat}
    (wf : ScatterDims.WF (SRows N F) (SCol E) (SRows E F) [1] [0] [0] 1)
    (z : (SRows N F).Idx → EReal) (idx : IVec (SCol E) w) (u : (SRows E F).Idx → EReal) (i : Fin N) (f : Fin F) :
    Ideal.hostScatterAdd (rowScatterDims N E F wf) z idx u (ix2 i f)
      = z (ix2 i f) + ∑ e ∈ Finset.univ.filter (fun e : Fin E => rowLand (N := N) idx e = some i), u (ix2 e f) := by
  unfold Ideal.hostScatterAdd
  congr 1
  symm
  refine Finset.sum_bij (fun e _ => ix2 e f) ?_ ?_ ?_ ?_
  · -- an edge landing on row i sends its column-f update to (i, f)
    intro e he
    rw [Finset.mem_filter] at he ⊢
    refine ⟨Finset.mem_univ _, ?_⟩
    rw [rowScatter_resultIdx, he.2]
    rfl
  · -- the edge is the update index's first coordinate
    intro e₁ _ e₂ _ h
    exact congrFun h 0
  · -- an update landing on (i, f) is in column f, from an edge landing on row i
    intro j hj
    obtain ⟨e, f', rfl⟩ : ∃ e f', j = ix2 e f' := ⟨j 0, j 1, eq_ix2 j⟩
    rw [Finset.mem_filter, rowScatter_resultIdx] at hj
    rcases hl : rowLand (N := N) idx e with _ | r
    · rw [hl] at hj
      exact absurd hj.2 (by simp)
    · rw [hl] at hj
      have hq : ix2 r f' = ix2 i f := Option.some.inj hj.2
      have hr : r = i := congrFun hq 0
      have hf : f' = f := congrFun hq 1
      subst hr; subst hf
      exact ⟨e, Finset.mem_filter.mpr ⟨Finset.mem_univ _, hl⟩, rfl⟩
  · intro e _
    rfl

end Idealize.ShloMosaic.RowIndex

end
-- ==== Proof.GcnMath.lean ====
/-
  Graph aggregation and matrix product over the extended reals.

  `Agg` takes, for each edge `e`, row `row e` of a node-feature matrix, scales it by the edge's coefficient `nv e`
  and adds it into row `land e` (an edge with `land e = none` adds nowhere). `MM` is the matrix product,
  `ReluB` adds a bias row and clips below at zero, `Pool` sums the rows assigned to each group.
  Aggregation is linear in the features, so it commutes with a matrix product on the right:
  `(Agg Y) · W = Agg (Y · W)`. Over the extended reals this needs every entry FINITE (a real number):
  distributivity and the exchange of the two sums fail at infinities.
-/
import Mathlib.Data.EReal.Basic
import Mathlib.Data.EReal.Operations
import Mathlib.Algebra.BigOperators.Group.Finset.Basic
import Mathlib.Algebra.BigOperators.Group.Finset.Sigma
import Mathlib.Algebra.BigOperators.Ring.Finset

noncomputable section

open scoped BigOperators

namespace Cert.GcnMath

/-- An extended real that is a real number. -/
def IsFin (x : EReal) : Prop := ∃ r : ℝ, x = (r : EReal)

theorem isFin_zero : IsFin 0 := ⟨0, rfl⟩
theorem isFin_one : IsFin 1 := ⟨1, rfl⟩
theorem isFin_coe (r : ℝ) : IsFin (r : EReal) := ⟨r, rfl⟩
theorem IsFin.add {x y : EReal} (hx : IsFin x) (hy : IsFin y) : IsFin (x + y) := by
  obtain ⟨a, rfl⟩ := hx
  obtain ⟨b, rfl⟩ := hy
  exact ⟨a + b, (EReal.coe_add a b).symm⟩
theorem IsFin.mul {x y : EReal} (hx : IsFin x) (hy : IsFin y) : IsFin (x * y) := by
  obtain ⟨a, rfl⟩ := hx
  obtain ⟨b, rfl⟩ := hy
  exact ⟨a * b, (EReal.coe_mul a b).symm⟩
theorem IsFin.max {x y : EReal} (hx : IsFin x) (hy : IsFin y) : IsFin (max x y) := by
  -- the maximum is one of the two
  rcases le_total x y with h | h
  · rw [max_eq_right h]; exact hy
  · rw [max_eq_left h]; exact hx
theorem IsFin.sum {α : Type} (s : Finset α) (g : α → EReal) (h : ∀ a ∈ s, IsFin (g a)) : IsFin (∑ a ∈ s, g a) := by
  classical
  induction s using Finset.induction_on with
  | empty => simpa using isFin_zero
  | insert a s ha ih =>
    rw [Finset.sum_insert ha]
    exact (h a (Finset.mem_insert_self a s)).add (ih (fun b hb => h b (Finset.mem_insert_of_mem hb)))

/-- The sum of coercions is the coercion of the sum. -/
theorem coe_sum {α : Type} (s : Finset α) (g : α → ℝ) :
    ∑ a ∈ s, ((g a : ℝ) : EReal) = ((∑ a ∈ s, g a : ℝ) : EReal) := by
  classical
  induction s using Finset.induction_on with
  | empty => simp
  | insert a s ha ih => rw [Finset.sum_insert ha, Finset.sum_insert ha, ih, EReal.coe_add]

variable {ι ε κ φ : Type} [Fintype ε] [Fintype κ] [DecidableEq ι]

/-- Rows taken at `row e`, scaled by `nv e`, added into row `land e`. -/
def Agg (row : ε → ι) (land : ε → Option ι) (nv : ε → EReal) (Y : ι → φ → EReal) : ι → φ → EReal :=
  fun i f => ∑ e ∈ Finset.univ.filter (fun e => land e = some i), Y (row e) f * nv e

/-- The matrix product. -/
def MM (Y : ι → κ → EReal) (W : κ → φ → EReal) : ι → φ → EReal :=
  fun i f => ∑ k, Y i k * W k f

/-- A bias row added, then the maximum with zero. -/
def ReluB (Y : ι → φ → EReal) (b : φ → EReal) : ι → φ → EReal :=
  fun i f => max (Y i f + b f) 0

/-- AGGREGATION COMMUTES WITH THE PRODUCT, on finite entries. -/
theorem agg_mm (row : ε → ι) (land : ε → Option ι) (nv : ε → EReal) (Y : ι → κ → EReal) (W : κ → φ → EReal)
    (hY : ∀ i k, IsFin (Y i k)) (hW : ∀ k f, IsFin (W k f)) (hn : ∀ e, IsFin (nv e)) :
    MM (Agg row land nv Y) W = Agg row land nv (MM Y W) := by
  funext i f
  -- every entry is the coercion of a real
  choose y hy using hY
  choose w hw using hW
  choose v hv using hn
  simp only [Agg, MM, hy, hw, hv]
  -- both sides are coercions of real double sums
  simp only [← EReal.coe_mul, coe_sum]
  congr 1
  -- in ℝ: distribute, exchange the two sums, reorder the three factors
  simp only [Finset.sum_mul]
  rw [Finset.sum_comm]
  refine Finset.sum_congr rfl (fun e _ => Finset.sum_congr rfl (fun k _ => ?_))
  exact mul_right_comm _ _ _

theorem isFin_agg (row : ε → ι) (land : ε → Option ι) (nv : ε → EReal) (Y : ι → φ → EReal)
    (hY : ∀ i f, IsFin (Y i f)) (hn : ∀ e, IsFin (nv e)) (i : ι) (f : φ) : IsFin (Agg row land nv Y i f) :=
  IsFin.sum _ _ (fun e _ => (hY (row e) f).mul (hn e))

theorem isFin_mm (Y : ι → κ → EReal) (W : κ → φ → EReal)
    (hY : ∀ i k, IsFin (Y i k)) (hW : ∀ k f, IsFin (W k f)) (i : ι) (f : φ) : IsFin (MM Y W i f) :=
  IsFin.sum _ _ (fun k _ => (hY i k).mul (hW k f))

theorem isFin_reluB (Y : ι → φ → EReal) (b : φ → EReal)
    (hY : ∀ i f, IsFin (Y i f)) (hb : ∀ f, IsFin (b f)) (i : ι) (f : φ) : IsFin (ReluB Y b i f) :=
  ((hY i f).add (hb f)).max isFin_zero

/-- One layer as the reference computes it (product first, then aggregation) and as the kernel does
    (aggregation first, on the narrower width, then the product): equal on finite entries. -/
theorem layer_eq (row : ε → ι) (land : ε → Option ι) (nv : ε → EReal) (Y : ι → κ → EReal) (W : κ → φ → EReal)
    (b : φ → EReal)
    (hY : ∀ i k, IsFin (Y i k)) (hW : ∀ k f, IsFin (W k f)) (hn : ∀ e, IsFin (nv e)) :
    ReluB (MM (Agg row land nv Y) W) b = ReluB (Agg row land nv (MM Y W)) b := by
  rw [agg_mm row land nv Y W hY hW hn]

/-- and the layer's entries are finite. -/
theorem isFin_layer (row : ε → ι) (land : ε → Option ι) (nv : ε → EReal) (Y : ι → κ → EReal) (W : κ → φ → EReal)
    (b : φ → EReal)
    (hY : ∀ i k, IsFin (Y i k)) (hW : ∀ k f, IsFin (W k f)) (hn : ∀ e, IsFin (nv e)) (hb : ∀ f, IsFin (b f))
    (i : ι) (f : φ) : IsFin (ReluB (Agg row land nv (MM Y W)) b i f) :=
  isFin_reluB _ _ (fun i f => isFin_agg row land nv _ (fun i f => isFin_mm Y W hY hW i f) hn i f) hb i f

/-- Coefficients that are 0 or 1: a sum of `c n * h n` is the sum of `h n` over the `n` whose coefficient is 1.
    No finiteness is needed: `0 * x = 0` and `1 * x = x` for every extended real. -/
theorem sum_indicator_mul {ν : Type} [Fintype ν] (p : ν → Prop) [DecidablePred p] (h : ν → EReal) :
    ∑ n, (if p n then (1 : EReal) else 0) * h n = ∑ n ∈ Finset.univ.filter p, h n := by
  rw [Finset.sum_filter]
  refine Finset.sum_congr rfl (fun n _ => ?_)
  by_cases hp : p n
  · rw [if_pos hp, if_pos hp, one_mul]
  · rw [if_neg hp, if_neg hp, zero_mul]

end Cert.GcnMath

end
-- ==== Proof.Spec.lean ====
/-
  The graph network as plain functions of the argument arrays, at the exact values (extended reals).

  Both programs first compute, from the edge list and the edge weights, a symmetric normalization: each edge `e` of the
  list extended by the self-loops READS the node row `row e` (its source, read signed, a negative one wrapped, then
  clamped into range), ADDS INTO the node row `land e` (its destination, read signed, dropped when out of range) and carries
  the coefficient `nv e = dinv[src] · w · dinv[dst]`. Those three functions of the edge are taken here from the reference's
  own stages (its operations %23, %10 and %33). A layer is then `ReluB (Agg (MM H W)) b`; the three layers composed give
  the node features `H3`; `Pooled` sums them over the nodes of each graph; the tail divides by the clipped node counts,
  multiplies by the last weight column and adds the last bias.
-/
import proofs.«407297_j7748121002089_3_alg».proof.Proof.Gen.ReferenceIdeal.Read
import proofs.«407297_j7748121002089_3_alg».proof.Proof.LibRowIndex
import proofs.«407297_j7748121002089_3_alg».proof.Proof.GcnMath

noncomputable section

open scoped BigOperators

namespace Cert.Spec

open Cert.ReferenceIdeal Cert.ReferenceIdeal.Gen Cert.ReferenceIdeal.Read
open Idealize.ShloMosaic Idealize.ShloMosaic.ValueIdx Idealize.ShloMosaic.RowIndex Cert.GcnMath

/-- The argument arrays' types, at the exact values. -/
abbrev TX : Type := (⟨S100000x16, .f32⟩ : BufTy).Contents (Elt Ideal)
abbrev TE : Type := (⟨S2x1600000, .i32⟩ : BufTy).Contents (Elt Ideal)
abbrev TWt : Type := (⟨S1600000, .f32⟩ : BufTy).Contents (Elt Ideal)
abbrev TB : Type := (⟨S100000, .i32⟩ : BufTy).Contents (Elt Ideal)
abbrev TW1 : Type := (⟨S16x64, .f32⟩ : BufTy).Contents (Elt Ideal)
abbrev Tb1 : Type := (⟨S64, .f32⟩ : BufTy).Contents (Elt Ideal)
abbrev TW2 : Type := (⟨S64x128, .f32⟩ : BufTy).Contents (Elt Ideal)
abbrev Tb2 : Type := (⟨S128, .f32⟩ : BufTy).Contents (Elt Ideal)
abbrev TW3 : Type := (⟨S128x64, .f32⟩ : BufTy).Contents (Elt Ideal)
abbrev Tb3 : Type := (⟨S64, .f32⟩ : BufTy).Contents (Elt Ideal)
abbrev TWf : Type := (⟨S64x1, .f32⟩ : BufTy).Contents (Elt Ideal)
abbrev Tbf : Type := (⟨S1, .f32⟩ : BufTy).Contents (Elt Ideal)

/-- A matrix as a function of its two coordinates, and back. -/
def cur2 {a b : Nat} (A : (⟨2, ![a, b]⟩ : Shape).Idx → EReal) : Fin a → Fin b → EReal := fun i j => A (ix2 i j)
def cur1 {a : Nat} (A : (⟨1, ![a]⟩ : Shape).Idx → EReal) : Fin a → EReal := fun i => A (ix1 i)
def arr2 {a b : Nat} (g : Fin a → Fin b → EReal) : (⟨2, ![a, b]⟩ : Shape).Idx → EReal := fun j => g (j 0) (j 1)

theorem arr2_ix2 {a b : Nat} (g : Fin a → Fin b → EReal) (i : Fin a) (j : Fin b) : arr2 g (ix2 i j) = g i j := rfl
theorem arr2_cur2 {a b : Nat} (A : (⟨2, ![a, b]⟩ : Shape).Idx → EReal) : arr2 (cur2 A) = A := by
  funext j; exact congrArg A (eq_ix2 j).symm
theorem cur2_arr2 {a b : Nat} (g : Fin a → Fin b → EReal) : cur2 (arr2 g) = g := rfl

/-- The source column (normalized), the destination column, the coefficients: the reference's stages. -/
abbrev srcCol (x1 : TE) : (⟨S1700000x1, .i32⟩ : BufTy).Contents (Elt Ideal) := val_main_v23 (F := Ideal) x1
abbrev dstCol (x1 : TE) : (⟨S1700000x1, .i32⟩ : BufTy).Contents (Elt Ideal) := val_main_v10 (F := Ideal) x1
abbrev nrm (x1 : TE) (x2 : TWt) : (⟨S1700000, .f32⟩ : BufTy).Contents (Elt Ideal) := val_main_v33 (F := Ideal) x1 x2

/-- The node row edge `e` reads, the node row it adds into, and its coefficient. -/
def row (x1 : TE) (e : Fin 1700000) : Fin 100000 := rowClamp (N := 100000) (E := 1700000) (by decide) (srcCol x1) e
def land (x1 : TE) (e : Fin 1700000) : Option (Fin 100000) := rowLand (N := 100000) (E := 1700000) (dstCol x1) e
def nv (x1 : TE) (x2 : TWt) (e : Fin 1700000) : EReal := nrm x1 x2 (ix1 e)

/-- The graph each node is assigned to (its id read signed; none when outside `[0, 64)`). -/
def graphOf (x3 : TB) (n : Fin 100000) : Option (Fin 64) := rowLand (N := 64) (E := 100000) (val_main_v93 (F := Ideal) x3) n

/-- The three layers' node features, as the reference computes them (product, aggregation, bias, clip). -/
def H1 (x0 : TX) (x1 : TE) (x2 : TWt) (x4 : TW1) (x5 : Tb1) : Fin 100000 → Fin 64 → EReal :=
  ReluB (Agg (row x1) (land x1) (nv x1 x2) (MM (cur2 x0) (cur2 x4))) (cur1 x5)
def H2 (x0 : TX) (x1 : TE) (x2 : TWt) (x4 : TW1) (x5 : Tb1) (x6 : TW2) (x7 : Tb2) : Fin 100000 → Fin 128 → EReal :=
  ReluB (Agg (row x1) (land x1) (nv x1 x2) (MM (H1 x0 x1 x2 x4 x5) (cur2 x6))) (cur1 x7)
def H3 (x0 : TX) (x1 : TE) (x2 : TWt) (x4 : TW1) (x5 : Tb1) (x6 : TW2) (x7 : Tb2) (x8 : TW3) (x9 : Tb3) : Fin 100000 → Fin 64 → EReal :=
  ReluB (Agg (row x1) (land x1) (nv x1 x2) (MM (H2 x0 x1 x2 x4 x5 x6 x7) (cur2 x8))) (cur1 x9)

/-- The same three layers as the kernel computes them: the first two aggregate FIRST, on the narrower width. -/
def K1 (x0 : TX) (x1 : TE) (x2 : TWt) (x4 : TW1) (x5 : Tb1) : Fin 100000 → Fin 64 → EReal :=
  ReluB (MM (Agg (row x1) (land x1) (nv x1 x2) (cur2 x0)) (cur2 x4)) (cur1 x5)
def K2 (x1 : TE) (x2 : TWt) (h1 : Fin 100000 → Fin 64 → EReal) (x6 : TW2) (x7 : Tb2) : Fin 100000 → Fin 128 → EReal :=
  ReluB (MM (Agg (row x1) (land x1) (nv x1 x2) h1) (cur2 x6)) (cur1 x7)
def K3 (x1 : TE) (x2 : TWt) (h2 : Fin 100000 → Fin 128 → EReal) (x8 : TW3) (x9 : Tb3) : Fin 100000 → Fin 64 → EReal :=
  ReluB (Agg (row x1) (land x1) (nv x1 x2) (MM h2 (cur2 x8))) (cur1 x9)

/-- The features summed over the nodes of each graph. -/
def Pooled (x3 : TB) (h : Fin 100000 → Fin 64 → EReal) : Fin 64 → Fin 64 → EReal :=
  fun g f => ∑ n ∈ Finset.univ.filter (fun n : Fin 100000 => graphOf x3 n = some g), h n f

/-- THE TAIL both programs share, as a function of the pooled sums: divide each graph's row by its clipped node
    count, multiply by the last weight column, add the last bias (the reference's operations %99, %100, %103). -/
def tail (P : (⟨S64x64, .f32⟩ : BufTy).Contents (Elt Ideal)) (x3 : TB) (x10 : TWf) (x11 : Tbf) :
    (⟨S64x1, .f32⟩ : BufTy).Contents (Elt Ideal) :=
  addf (F := Ideal) (φ := .f32) (Host.dotGeneral (F := Ideal) (φ₁ := .f32) (φ₂ := .f32) dot_S64x64_S64x1_S64x1_1_0_0_1_n_n none
      (Host.divf (F := Ideal) (φ := .f32) P (val_main_v98 (F := Ideal) x3)) x10)
    (val_main_v102 (F := Ideal) x11)

end Cert.Spec

end
-- ==== Proof.KI.KerHostA.lean ====
/-
  The kernel program's host operations before its first region, at the exact values: the source and destination
  columns and the edge coefficients are the reference's own (the same operations on the same arguments), the first
  layer's input to the matrix product is the aggregation of the node features on their own width, the weights pass
  through the change of format unchanged and the bias row is the bias vector.
-/
import proofs.«407297_j7748121002089_3_alg».proof.Proof.KI.Fold
import proofs.«407297_j7748121002089_3_alg».proof.Proof.Gen.KernelIdeal.Regions
import proofs.«407297_j7748121002089_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.RowIndex
open Cert.GcnMath

variable (m : (ℓ : Loc nD τ sig) → Buf (Elt Ideal) ℓ) (ρ : Dev nD → PrngReg) (c : Dev nD)

/-- The argument arrays as launched, at the spec's types. -/
abbrev a0 : Cert.Spec.TX := m ((c.tc : Thread nD τ).loc main_arg0)
abbrev a1 : Cert.Spec.TE := m ((c.tc : Thread nD τ).loc main_arg1)
abbrev a2 : Cert.Spec.TWt := m ((c.tc : Thread nD τ).loc main_arg2)
abbrev a3 : Cert.Spec.TB := m ((c.tc : Thread nD τ).loc main_arg3)
abbrev a4 : Cert.Spec.TW1 := m ((c.tc : Thread nD τ).loc main_arg4)
abbrev a5 : Cert.Spec.Tb1 := m ((c.tc : Thread nD τ).loc main_arg5)
abbrev a6 : Cert.Spec.TW2 := m ((c.tc : Thread nD τ).loc main_arg6)
abbrev a7 : Cert.Spec.Tb2 := m ((c.tc : Thread nD τ).loc main_arg7)
abbrev a8 : Cert.Spec.TW3 := m ((c.tc : Thread nD τ).loc main_arg8)
abbrev a9 : Cert.Spec.Tb3 := m ((c.tc : Thread nD τ).loc main_arg9)
abbrev a10 : Cert.Spec.TWf := m ((c.tc : Thread nD τ).loc main_arg10)
abbrev a11 : Cert.Spec.Tbf := m ((c.tc : Thread nD τ).loc main_arg11)

/-- Buffers of the fold at their literal types. -/
abbrev w3_src : IVec S1700000x1 32 := W3 m ρ c main_v42
abbrev w3_dst : IVec S1700000x1 32 := W3 m ρ c main_v48
abbrev w3_nrm : FVec Ideal S1700000 .f32 := W3 m ρ c main_v33
abbrev w3_agg : FVec Ideal S100000x16 .f32 := W3 m ρ c main_v49
abbrev w3_w1 : FVec Ideal S16x64 .bf16 := W3 m ρ c main_v34
abbrev w3_w2 : FVec Ideal S64x128 .bf16 := W3 m ρ c main_v35
abbrev w3_w3 : FVec Ideal S128x64 .bf16 := W3 m ρ c main_v36
abbrev w3_b1 : FVec Ideal S1x64 .f32 := W3 m ρ c main_v50
abbrev w3_v5 : IVec S1700000 32 := W3 m ρ c main_v5
abbrev w3_v6 : IVec S1700000 32 := W3 m ρ c main_v6

/-! ## The three stretches, each from arbitrary contents

Each stretch of host operations is read from ARBITRARY contents `V` of the buffers before it: its results are the
operations applied to `V` at the operands. The three are then composed. -/

section Stretches

open Cert.ReferenceIdeal.Read

variable (V : Valuation τ sig (Elt Ideal))

/-- A reference a stretch does not write keeps its contents. -/
theorem s0_of (r : Ref sig .tc) (h : r ∉ hostOps0_W) :
    StableHlo.after hostOps0 V (Proc.devRef .tc r) = V (Proc.devRef .tc r) :=
  StableHlo.after_of_writes_sub hostOps0 V hostOps0_writes h
theorem s1_of (r : Ref sig .tc) (h : r ∉ hostOps0_1_W) :
    StableHlo.after hostOps0_1 V (Proc.devRef .tc r) = V (Proc.devRef .tc r) :=
  StableHlo.after_of_writes_sub hostOps0_1 V hostOps0_1_writes h
theorem s2_of (r : Ref sig .tc) (h : r ∉ hostOps0_2_W) :
    StableHlo.after hostOps0_2 V (Proc.devRef .tc r) = V (Proc.devRef .tc r) :=
  StableHlo.after_of_writes_sub hostOps0_2 V hostOps0_2_writes h

/-! ### The first stretch: the reference's own first operations on the edge list and the edge weights -/

theorem s0_v5 : (StableHlo.after hostOps0 V (Proc.devRef .tc main_v5) : IVec S1700000 32)
    = val_main_v5 (F := Ideal) (V (Proc.devRef .tc main_arg1)) := by
  after_results
  rfl
theorem s0_v6 : (StableHlo.after hostOps0 V (Proc.devRef .tc main_v6) : IVec S1700000 32)
    = val_main_v6 (F := Ideal) (V (Proc.devRef .tc main_arg1)) := by
  after_results
  rfl
theorem s0_v8 : (StableHlo.after hostOps0 V (Proc.devRef .tc main_v8) : FVec Ideal S1700000 .f32)
    = val_main_v8 (F := Ideal) (V (Proc.devRef .tc main_arg2)) := by
  after_results
  rfl
theorem s0_v13 : (StableHlo.after hostOps0 V (Proc.devRef .tc main_v13) : IVec S100000 1)
    = val_main_v13 (F := Ideal) (V (Proc.devRef .tc main_arg1)) (V (Proc.devRef .tc main_arg2)) := by
  after_results
  rfl
theorem s0_v16 : (StableHlo.after hostOps0 V (Proc.devRef .tc main_v16) : FVec Ideal S100000 .f32)
    = val_main_v16 (F := Ideal) (V (Proc.devRef .tc main_arg1)) (V (Proc.devRef .tc main_arg2)) := by
  after_results
  rfl
theorem s0_cst3 : (StableHlo.after hostOps0 V (Proc.devRef .tc main_cst_3) : FVec Ideal S_ .f32)
    = val_main_cst_3 (F := Ideal) := by
  after_results
  rfl

/-! ### The second stretch: the outlined choice between the inverse square root and zero -/

theorem s1_v17 : (StableHlo.after hostOps0_1 V (Proc.devRef .tc main_v17) : FVec Ideal S100000 .f32)
    = select (V (Proc.devRef .tc main_v13) : IVec S100000 1) (V (Proc.devRef .tc main_v16) : FVec Ideal S100000 .f32)
        (broadcastInDim S100000 ![] bcast_S_S100000 (V (Proc.devRef .tc main_cst_3) : FVec Ideal S_ .f32)) := by
  after_results
  rfl

end Stretches

/-! ### The first two stretches composed -/

section Two

open Cert.ReferenceIdeal.Read

variable (V : Valuation τ sig (Elt Ideal))

/-- The contents after the first two stretches. -/
abbrev X2 : Valuation τ sig (Elt Ideal) := StableHlo.after hostOps0_1 (StableHlo.after hostOps0 V)

theorem x2_of (r : Ref sig .tc) (h1 : r ∉ hostOps0_1_W) (h0 : r ∉ hostOps0_W) :
    X2 V (Proc.devRef .tc r) = V (Proc.devRef .tc r) :=
  (s1_of _ r h1).trans (s0_of V r h0)

theorem x2_v5 : (X2 V (Proc.devRef .tc main_v5) : IVec S1700000 32)
    = val_main_v5 (F := Ideal) (V (Proc.devRef .tc main_arg1)) :=
  (s1_of _ main_v5 (by decide)).trans (s0_v5 V)
theorem x2_v6 : (X2 V (Proc.devRef .tc main_v6) : IVec S1700000 32)
    = val_main_v6 (F := Ideal) (V (Proc.devRef .tc main_arg1)) :=
  (s1_of _ main_v6 (by decide)).trans (s0_v6 V)
theorem x2_v8 : (X2 V (Proc.devRef .tc main_v8) : FVec Ideal S1700000 .f32)
    = val_main_v8 (F := Ideal) (V (Proc.devRef .tc main_arg2)) :=
  (s1_of _ main_v8 (by decide)).trans (s0_v8 V)
/-- The inverse square roots of the degrees (zero where the degree is not positive): the reference's. -/
theorem x2_v17 : (X2 V (Proc.devRef .tc main_v17) : FVec Ideal S100000 .f32)
    = val_main_v17 (F := Ideal) (V (Proc.devRef .tc main_arg1)) (V (Proc.devRef .tc main_arg2)) := by
  refine (s1_v17 (StableHlo.after hostOps0 V)).trans ?_
  rw [s0_v13 V, s0_v16 V, s0_cst3 V]
  rfl

end Two

/-! ### The third stretch -/

/-- A start-index vector with its negative entries wrapped by the number of rows, as a column. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A start-index vector as a column. -/
def colOf (v : IVec S1700000 32) : IVec S1700000x1 32 :=
  broadcastInDim S1700000x1 ![0] bcast_S1700000_S1700000x1_0 v

/-- The edge coefficients from the per-node factors, the edge weights and the two index vectors. -/
def nrmOf (dinv : FVec Ideal S100000 .f32) (w2 : FVec Ideal S1700000 .f32) (v5 v6 : IVec S1700000 32) :
    FVec Ideal S1700000 .f32 :=
  mulf (mulf (Host.gather gather_S100000_S1700000x1_S1700000_n_0_n_n_0_1_1 dinv (wrapCol v5)) w2)
    (Host.gather gather_S100000_S1700000x1_S1700000_n_0_n_n_0_1_1 dinv (wrapCol v6))

/-- Rows of `x0` taken by the column `sc`, scaled by the coefficients, added into the rows the column `dc` names. -/
def aggOf (x0 : FVec Ideal S100000x16 .f32) (sc dc : IVec S1700000x1 32) (n : FVec Ideal S1700000 .f32) :
    FVec Ideal S100000x16 .f32 :=
  Host.scatterAdd scatter_S100000x16_S1700000x1_S1700000x16_1_0_0_1
    (broadcastInDim S100000x16 ![] bcast_S_S100000x16 (constant S_ .f32 0x00000000#32))
    dc
    (mulf (Host.gather gather_S100000x16_S1700000x1_S1700000x16_1_0_n_n_0_1_116 x0 sc)
      (broadcastInDim S1700000x16 ![0, 1] bcast_S1700000x1_S1700000x16_0_1
        (broadcastInDim S1700000x1 ![0] bcast_S1700000_S1700000x1_0 n)))

section Third

variable (V : Valuation τ sig (Elt Ideal))

theorem s2_v42 : (StableHlo.after hostOps0_2 V (Proc.devRef .tc main_v42) : IVec S1700000x1 32)
    = wrapCol (V (Proc.devRef .tc main_v5)) := by
  after_results_simp
  rfl
theorem s2_v48 : (StableHlo.after hostOps0_2 V (Proc.devRef .tc main_v48) : IVec S1700000x1 32)
    = colOf (V (Proc.devRef .tc main_v6)) := by
  after_results
  rfl
theorem s2_v33 : (StableHlo.after hostOps0_2 V (Proc.devRef .tc main_v33) : FVec Ideal S1700000 .f32)
    = nrmOf (V (Proc.devRef .tc main_v17)) (V (Proc.devRef .tc main_v8)) (V (Proc.devRef .tc main_v5))
        (V (Proc.devRef .tc main_v6)) := by
  after_results_simp
  rfl
theorem s2_v49 : (StableHlo.after hostOps0_2 V (Proc.devRef .tc main_v49) : FVec Ideal S100000x16 .f32)
    = aggOf (V (Proc.devRef .tc main_arg0)) (wrapCol (V (Proc.devRef .tc main_v5))) (colOf (V (Proc.devRef .tc main_v6)))
        (nrmOf (V (Proc.devRef .tc main_v17)) (V (Proc.devRef .tc main_v8)) (V (Proc.devRef .tc main_v5))
          (V (Proc.devRef .tc main_v6))) := by
  after_results_simp
  rfl
theorem s2_v34 : (StableHlo.after hostOps0_2 V (Proc.devRef .tc main_v34) : FVec Ideal S16x64 .bf16)
    = truncf (F := Ideal) (s := S16x64) .bf16 (V (Proc.devRef .tc main_arg4)) bitsLt_bf16_f32 := by
  after_results
theorem s2_v35 : (StableHlo.after hostOps0_2 V (Proc.devRef .tc main_v35) : FVec Ideal S64x128 .bf16)
    = truncf (F := Ideal) (s := S64x128) .bf16 (V (Proc.devRef .tc main_arg6)) bitsLt_bf16_f32 := by
  after_results
theorem s2_v36 : (StableHlo.after hostOps0_2 V (Proc.devRef .tc main_v36) : FVec Ideal S128x64 .bf16)
    = truncf (F := Ideal) (s := S128x64) .bf16 (V (Proc.devRef .tc main_arg8)) bitsLt_bf16_f32 := by
  after_results
theorem s2_v50 : (StableHlo.after hostOps0_2 V (Proc.devRef .tc main_v50) : FVec Ideal S1x64 .f32)
    = shapeCast (α := EReal) S1x64 (V (Proc.devRef .tc main_arg5) : FVec Ideal S64 .f32) shapeCasts_S64_S1x64 := by
  after_results
  rfl

end Third

/-! ### The reference's stages in the same words -/

section Stages

open Cert.ReferenceIdeal.Read

variable (x1 : Cert.Spec.TE) (x2 : Cert.Spec.TWt)

/-- The reference's normalized source column is the wrapped column of its source vector; its destination column the
    column of its destination vector; its coefficients those of its per-node factors and its extended weights. -/
theorem wrapCol_v5 : wrapCol (val_main_v5 (F := Ideal) x1) = val_main_v23 (F := Ideal) x1 := rfl
theorem colOf_v6 : colOf (val_main_v6 (F := Ideal) x1) = val_main_v10 (F := Ideal) x1 := rfl
theorem nrmOf_ref : nrmOf (val_main_v17 (F := Ideal) x1 x2) (val_main_v8 (F := Ideal) x2) (val_main_v5 (F := Ideal) x1)
    (val_main_v6 (F := Ideal) x1) = val_main_v33 (F := Ideal) x1 x2 := rfl

end Stages

/-! ### The three stretches composed -/

section Three

open Cert.ReferenceIdeal.Read

variable (V : Valuation τ sig (Elt Ideal))

/-- The contents after the three stretches. -/
abbrev X3 : Valuation τ sig (Elt Ideal) := StableHlo.after hostOps0_2 (X2 V)

theorem x3_v5 : (X3 V (Proc.devRef .tc main_v5) : IVec S1700000 32)
    = val_main_v5 (F := Ideal) (V (Proc.devRef .tc main_arg1)) :=
  (s2_of _ main_v5 (by decide)).trans (x2_v5 V)
theorem x3_v6 : (X3 V (Proc.devRef .tc main_v6) : IVec S1700000 32)
    = val_main_v6 (F := Ideal) (V (Proc.devRef .tc main_arg1)) :=
  (s2_of _ main_v6 (by decide)).trans (x2_v6 V)
theorem x3_src : (X3 V (Proc.devRef .tc main_v42) : IVec S1700000x1 32)
    = Cert.Spec.srcCol (V (Proc.devRef .tc main_arg1)) := by
  refine (s2_v42 (X2 V)).trans ?_
  rw [x2_v5 V]
  exact wrapCol_v5 _
theorem x3_dst : (X3 V (Proc.devRef .tc main_v48) : IVec S1700000x1 32)
    = Cert.Spec.dstCol (V (Proc.devRef .tc main_arg1)) := by
  refine (s2_v48 (X2 V)).trans ?_
  rw [x2_v6 V]
  exact colOf_v6 _
theorem x3_nrm : (X3 V (Proc.devRef .tc main_v33) : FVec Ideal S1700000 .f32)
    = Cert.Spec.nrm (V (Proc.devRef .tc main_arg1)) (V (Proc.devRef .tc main_arg2)) := by
  refine (s2_v33 (X2 V)).trans ?_
  rw [x2_v17 V, x2_v8 V, x2_v5 V, x2_v6 V]
  exact nrmOf_ref _ _
theorem x3_agg : (X3 V (Proc.devRef .tc main_v49) : FVec Ideal S100000x16 .f32)
    = aggOf (V (Proc.devRef .tc main_arg0)) (Cert.Spec.srcCol (V (Proc.devRef .tc main_arg1)))
        (Cert.Spec.dstCol (V (Proc.devRef .tc main_arg1)))
        (Cert.Spec.nrm (V (Proc.devRef .tc main_arg1)) (V (Proc.devRef .tc main_arg2))) := by
  refine (s2_v49 (X2 V)).trans ?_
  rw [x2_v17 V, x2_v8 V, x2_v5 V, x2_v6 V, x2_of V main_arg0 (by decide) (by decide), wrapCol_v5, colOf_v6, nrmOf_ref]
theorem x3_w1 (k : Fin 16) (q : Fin 64) :
    (X3 V (Proc.devRef .tc main_v34) : FVec Ideal S16x64 .bf16) (ix2 k q)
      = (V (Proc.devRef .tc main_arg4) : FVec Ideal S16x64 .f32) (ix2 k q) := by
  exact (congrFun (s2_v34 (X2 V)) (ix2 k q)).trans (congrFun (x2_of V main_arg4 (by decide) (by decide)) (ix2 k q))
theorem x3_w2 (k : Fin 64) (q : Fin 128) :
    (X3 V (Proc.devRef .tc main_v35) : FVec Ideal S64x128 .bf16) (ix2 k q)
      = (V (Proc.devRef .tc main_arg6) : FVec Ideal S64x128 .f32) (ix2 k q) := by
  exact (congrFun (s2_v35 (X2 V)) (ix2 k q)).trans (congrFun (x2_of V main_arg6 (by decide) (by decide)) (ix2 k q))
theorem x3_w3 (k : Fin 128) (q : Fin 64) :
    (X3 V (Proc.devRef .tc main_v36) : FVec Ideal S128x64 .bf16) (ix2 k q)
      = (V (Proc.devRef .tc main_arg8) : FVec Ideal S128x64 .f32) (ix2 k q) := by
  exact (congrFun (s2_v36 (X2 V)) (ix2 k q)).trans (congrFun (x2_of V main_arg8 (by decide) (by decide)) (ix2 k q))
theorem x3_b1 (q : Fin 64) :
    (X3 V (Proc.devRef .tc main_v50) : FVec Ideal S1x64 .f32) (ix2 (0 : Fin 1) q)
      = (V (Proc.devRef .tc main_arg5) : FVec Ideal S64 .f32) (ix1 q) := by
  refine (congrFun (s2_v50 (X2 V)) (ix2 (0 : Fin 1) q)).trans ?_
  rw [x2_of V main_arg5 (by decide) (by decide)]
  exact shapeCast_a_1a_apply _ shapeCasts_S64_S1x64 0 q

end Three

/-! ### One aggregation over rows, read at an index -/

/-- ROWS TAKEN, SCALED AND ADDED, read at (p, k): for dimension records that ARE "add rows" and "take rows" at N rows,
    E edges and F columns, an operand that is zero and a coefficient matrix that is constant along the columns, the
    element is the sum, over the edges landing on row p, of the row the edge reads at column k times the edge's coefficient. -/
theorem rowsAgg_apply {N E F : Nat} (hN : 0 < N)
    (ds : ScatterDims (SRows N F) (SCol E) (SRows E F))
    (wfs : ScatterDims.WF (SRows N F) (SCol E) (SRows E F) [1] [0] [0] 1)
    (hds : ds = rowScatterDims N E F wfs)
    (dg : GatherDims (SRows N F) (SCol E) (SRows E F))
    (wfg : GatherDims.WF (SRows N F) (SCol E) (SRows E F) [1] [0] [] [0] [] 1 ![1, F])
    (hdg : dg = rowGatherDims N E F wfg)
    (z : (SRows N F).Idx → EReal) (hz : ∀ p k, z (ix2 p k) = 0)
    (b : (SRows E F).Idx → EReal) (nr : Fin E → EReal) (hb : ∀ e k, b (ix2 e k) = nr e)
    (h : (SRows N F).Idx → EReal) (src dst : IVec (SCol E) 32) (p : Fin N) (k : Fin F) :
    Host.scatterAdd (F := Ideal) (φ := .f32) ds z dst (mulf (F := Ideal) (φ := .f32) (Host.gather dg h src) b) (ix2 p k)
      = ∑ e ∈ Finset.univ.filter (fun e : Fin E => rowLand (N := N) dst e = some p),
          h (ix2 (rowClamp (N := N) hN src e) k) * nr e := by
  subst hds hdg
  -- the scatter-add at (p, k): the operand's element, which is zero, plus the updates landing on row p
  refine (rowScatterAdd_apply (N := N) (E := E) (F := F) wfs z dst
    (mulf (F := Ideal) (φ := .f32) (Host.gather (rowGatherDims N E F wfg) h src) b) p k).trans ?_
  rw [hz, zero_add]
  -- each update is the gathered row's element times the coefficient
  refine Finset.sum_congr rfl (fun e _ => ?_)
  rw [mulf_apply, hb, rowGather_apply hN wfg h src e k]

/-- The edge coefficients broadcast along the 16 columns, read at (e, k): the coefficient of edge e. -/
theorem bcast_coef16_apply (nr : FVec Ideal S1700000 .f32) (e : Fin 1700000) (k : Fin 16) :
    broadcastInDim S1700000x16 ![0, 1] bcast_S1700000x1_S1700000x16_0_1
        (broadcastInDim S1700000x1 ![0] bcast_S1700000_S1700000x1_0 nr) (ix2 e k) = nr (ix1 e) := by
  refine (broadcastInDim_apply _ bcast_S1700000x1_S1700000x16_0_1 _ (ix2 e k) (ix2 e (0 : Fin 1)) (fun a => match a with
    | ⟨0, _⟩ => by show e.val = if (1700000 : Nat) = 1 then 0 else e.val; rw [if_neg (by decide)]
    | ⟨1, _⟩ => by show 0 = if (1 : Nat) = 1 then 0 else k.val; rw [if_pos rfl])).trans ?_
  exact broadcastInDim_apply _ bcast_S1700000_S1700000x1_0 nr (ix2 e (0 : Fin 1)) (ix1 e) (fun a => match a with
    | ⟨0, _⟩ => by show e.val = if (1700000 : Nat) = 1 then 0 else e.val; rw [if_neg (by decide)])

theorem aggOf_apply (x0 : FVec Ideal S100000x16 .f32) (sc dc : IVec S1700000x1 32) (n : FVec Ideal S1700000 .f32)
    (p : Fin 100000) (k : Fin 16) :
    aggOf x0 sc dc n (ix2 p k)
      = ∑ e ∈ Finset.univ.filter (fun e : Fin 1700000 => rowLand (N := 100000) dc e = some p),
          x0 (ix2 (rowClamp (N := 100000) (by decide) sc e) k) * n (ix1 e) := by
  have h1 := rowsAgg_apply (N := 100000) (E := 1700000) (F := 16) (by decide)
    scatter_S100000x16_S1700000x1_S1700000x16_1_0_0_1 scatter_S100000x16_S1700000x1_S1700000x16_1_0_0_1_wf rfl
    gather_S100000x16_S1700000x1_S1700000x16_1_0_n_n_0_1_116 gather_S100000x16_S1700000x1_S1700000x16_1_0_n_n_0_1_116_wf rfl
  have h2 := h1 (broadcastInDim S100000x16 ![] bcast_S_S100000x16 (constant (F := Ideal) S_ .f32 0x00000000#32))
    (fun _ _ => Ideal.ofBits_zero_f32)
  have h3 := h2 (broadcastInDim S1700000x16 ![0, 1] bcast_S1700000x1_S1700000x16_0_1
      (broadcastInDim S1700000x1 ![0] bcast_S1700000_S1700000x1_0 n))
    (fun e => n (ix1 e)) (fun e k => bcast_coef16_apply n e k)
  have h4 := h3 x0 sc dc p k
  exact h4

/-- The aggregated features after the three stretches, read at (p, k): the aggregation's own sum. -/
theorem x3_agg_apply (V : Valuation τ sig (Elt Ideal)) (p : Fin 100000) (k : Fin 16) :
    (X3 V (Proc.devRef .tc main_v49) : FVec Ideal S100000x16 .f32) (ix2 p k)
      = Agg (Cert.Spec.row (V (Proc.devRef .tc main_arg1))) (Cert.Spec.land (V (Proc.devRef .tc main_arg1)))
          (Cert.Spec.nv (V (Proc.devRef .tc main_arg1)) (V (Proc.devRef .tc main_arg2)))
          (Cert.Spec.cur2 (V (Proc.devRef .tc main_arg0))) p k := by
  refine (congrFun (x3_agg V) (ix2 p k)).trans ?_
  refine (aggOf_apply _ _ _ _ p k).trans ?_
  -- the sum over the edges landing on row p is the aggregation's definition
  rfl

/-! ## The ten facts, at the fold's buffers -/

/-- The normalized source column, the destination column and the coefficients are the reference's. -/
theorem kh_src : w3_src m ρ c = Cert.Spec.srcCol (a1 m c) := x3_src (W0 m ρ c)
theorem kh_dst : w3_dst m ρ c = Cert.Spec.dstCol (a1 m c) := x3_dst (W0 m ρ c)
theorem kh_nrm : w3_nrm m ρ c = Cert.Spec.nrm (a1 m c) (a2 m c) := x3_nrm (W0 m ρ c)
/-- The raw source and destination vectors (%5 and %6), which the later stretches normalize again. -/
theorem kh_v5 : w3_v5 m ρ c = Cert.ReferenceIdeal.Read.val_main_v5 (F := Ideal) (a1 m c) := x3_v5 (W0 m ρ c)
theorem kh_v6 : w3_v6 m ρ c = Cert.ReferenceIdeal.Read.val_main_v6 (F := Ideal) (a1 m c) := x3_v6 (W0 m ρ c)

/-- The first region's row-blocked input: the node features aggregated on their own width. -/
theorem kh_agg1 (p : Fin 100000) (k : Fin 16) :
    w3_agg m ρ c (ix2 p k)
      = Agg (Cert.Spec.row (a1 m c)) (Cert.Spec.land (a1 m c)) (Cert.Spec.nv (a1 m c) (a2 m c)) (Cert.Spec.cur2 (a0 m c)) p k := by
  exact x3_agg_apply (W0 m ρ c) p k

/-- The three weight matrices pass through the change of format unchanged; the bias row is the bias vector. -/
theorem kh_w1 (k : Fin 16) (q : Fin 64) : w3_w1 m ρ c (ix2 k q) = a4 m c (ix2 k q) := x3_w1 (W0 m ρ c) k q
theorem kh_w2 (k : Fin 64) (q : Fin 128) : w3_w2 m ρ c (ix2 k q) = a6 m c (ix2 k q) := x3_w2 (W0 m ρ c) k q
theorem kh_w3 (k : Fin 128) (q : Fin 64) : w3_w3 m ρ c (ix2 k q) = a8 m c (ix2 k q) := x3_w3 (W0 m ρ c) k q
theorem kh_b1 (q : Fin 64) : w3_b1 m ρ c (ix2 (0 : Fin 1) q) = a5 m c (ix1 q) := x3_b1 (W0 m ρ c) q

end Cert.KernelIdeal.Hand

end
-- ==== Proof.KI.KerHostB.lean ====
/-
  The kernel program's host operations between and after its regions, at the exact values: the second and third
  layers' aggregations (of the first region's and the third region's result arrays), the bias rows, the weights carried
  unchanged, the two arrays padded to 102400 rows for the pooling region, and the tail, which is the reference's own.
-/
import proofs.«407297_j7748121002089_3_alg».proof.Proof.KI.KerHostA
import proofs.«407297_j7748121002089_3_alg».proof.Proof.Gen.KernelIdeal.Regions
import Idealize.ShloMosaic.Lib.KernelVsHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.RowIndex
open Cert.GcnMath

variable (m : (ℓ : Loc nD τ sig) → Buf (Elt Ideal) ℓ) (ρ : Dev nD → PrngReg) (c : Dev nD)

/-- Buffers of the fold at their literal types: the regions' result arrays and the later stretches' results. -/
abbrev w4_h1 : FVec Ideal S100000x64 .f32 := W4 m ρ c main_v51
abbrev w5_agg : FVec Ideal S100000x64 .f32 := W5 m ρ c main_v64
abbrev w5_w2 : FVec Ideal S64x128 .bf16 := W5 m ρ c main_v35
abbrev w5_b2 : FVec Ideal S1x128 .f32 := W5 m ρ c main_v65
abbrev w6_h2 : FVec Ideal S100000x128 .f32 := W6 m ρ c main_v66
abbrev w6_w3 : FVec Ideal S128x64 .bf16 := W6 m ρ c main_v36
abbrev w7_xw : FVec Ideal S100000x64 .f32 := W7 m ρ c main_v67
abbrev w8_agg : FVec Ideal S100000x64 .f32 := W8 m ρ c main_v80
abbrev w8_b3 : FVec Ideal S1x64 .f32 := W8 m ρ c main_v81
abbrev w9_h3 : FVec Ideal S100000x64 .f32 := W9 m ρ c main_v82
abbrev w14_pb : IVec S1x102400 32 := W14 m ρ c main_v85
abbrev w14_ph : FVec Ideal S102400x64 .f32 := W14 m ρ c main_v84
abbrev w15_pool : FVec Ideal S64x64 .f32 := W15 m ρ c main_v86
abbrev w16_res : FVec Ideal S64x1 .f32 := W16 m ρ c main_v99

/-! ### What each item leaves unchanged, reference by reference

A host stretch leaves a reference it does not write as it was; a region leaves every buffer that is not one of its
arrays as it was. Walking back item by item, a reference written only before the first region is as after item 2,
and an argument is as launched. -/

section Walk
variable (r : Ref sig .tc)

theorem W3_arg (h0 : r ∉ hostOps0_W) (h1 : r ∉ hostOps0_1_W) (h2 : r ∉ hostOps0_2_W) :
    W3 m ρ c (Proc.devRef .tc r) = m ((c.tc : Thread nD τ).loc r) :=
  (StableHlo.after_of_writes_sub hostOps0_2 _ hostOps0_2_writes h2).trans <|
    (StableHlo.after_of_writes_sub hostOps0_1 _ hostOps0_1_writes h1).trans <|
      StableHlo.after_of_writes_sub hostOps0 _ hostOps0_writes h0
theorem W4_q (h : ∀ w, Pipeline.arrRef spec0 w ≠ r) :
    W4 m ρ c (Proc.devRef .tc r) = W3 m ρ c (Proc.devRef .tc r) := W4_of_ne m ρ c r h
theorem W5_q (h : r ∉ hostOps1_W) : W5 m ρ c (Proc.devRef .tc r) = W4 m ρ c (Proc.devRef .tc r) :=
  StableHlo.after_of_writes_sub hostOps1 _ hostOps1_writes h
theorem W6_q (h : ∀ w, Pipeline.arrRef spec1 w ≠ r) :
    W6 m ρ c (Proc.devRef .tc r) = W5 m ρ c (Proc.devRef .tc r) := W6_of_ne m ρ c r h
theorem W7_q (h : ∀ w, Pipeline.arrRef spec2 w ≠ r) :
    W7 m ρ c (Proc.devRef .tc r) = W6 m ρ c (Proc.devRef .tc r) := W7_of_ne m ρ c r h
theorem W8_q (h : r ∉ hostOps3_W) : W8 m ρ c (Proc.devRef .tc r) = W7 m ρ c (Proc.devRef .tc r) :=
  StableHlo.after_of_writes_sub hostOps3 _ hostOps3_writes h
theorem W9_q (h : ∀ w, Pipeline.arrRef spec3 w ≠ r) :
    W9 m ρ c (Proc.devRef .tc r) = W8 m ρ c (Proc.devRef .tc r) := W9_of_ne m ρ c r h
theorem W14_q (h0 : r ∉ hostOps4_W) (h1 : r ∉ hostOps4_1_W) (h2 : r ∉ hostOps4_2_W) (h3 : r ∉ hostOps4_3_W)
    (h4 : r ∉ hostOps4_4_W) : W14 m ρ c (Proc.devRef .tc r) = W9 m ρ c (Proc.devRef .tc r) :=
  (StableHlo.after_of_writes_sub hostOps4_4 _ hostOps4_4_writes h4).trans <|
    (StableHlo.after_of_writes_sub hostOps4_3 _ hostOps4_3_writes h3).trans <|
      (StableHlo.after_of_writes_sub hostOps4_2 _ hostOps4_2_writes h2).trans <|
        (StableHlo.after_of_writes_sub hostOps4_1 _ hostOps4_1_writes h1).trans <|
          StableHlo.after_of_writes_sub hostOps4 _ hostOps4_writes h0
theorem W15_q (h : ∀ w, Pipeline.arrRef spec4 w ≠ r) :
    W15 m ρ c (Proc.devRef .tc r) = W14 m ρ c (Proc.devRef .tc r) := W15_of_ne m ρ c r h

/-- Through the first three regions and the stretch between them. -/
theorem W7_eq_W3 (h0 : ∀ w, Pipeline.arrRef spec0 w ≠ r) (h1 : r ∉ hostOps1_W) (h2 : ∀ w, Pipeline.arrRef spec1 w ≠ r)
    (h3 : ∀ w, Pipeline.arrRef spec2 w ≠ r) : W7 m ρ c (Proc.devRef .tc r) = W3 m ρ c (Proc.devRef .tc r) :=
  (W7_q m ρ c r h3).trans <| (W6_q m ρ c r h2).trans <| (W5_q m ρ c r h1).trans (W4_q m ρ c r h0)
/-- Through the fourth region as well. -/
theorem W9_eq_W3 (h0 : ∀ w, Pipeline.arrRef spec0 w ≠ r) (h1 : r ∉ hostOps1_W) (h2 : ∀ w, Pipeline.arrRef spec1 w ≠ r)
    (h3 : ∀ w, Pipeline.arrRef spec2 w ≠ r) (h4 : r ∉ hostOps3_W) (h5 : ∀ w, Pipeline.arrRef spec3 w ≠ r) :
    W9 m ρ c (Proc.devRef .tc r) = W3 m ρ c (Proc.devRef .tc r) :=
  (W9_q m ρ c r h5).trans <| (W8_q m ρ c r h4).trans (W7_eq_W3 m ρ c r h0 h1 h2 h3)
/-- Through the padding stretches and the pooling region. -/
theorem W15_eq_W9 (g0 : r ∉ hostOps4_W) (g1 : r ∉ hostOps4_1_W) (g2 : r ∉ hostOps4_2_W) (g3 : r ∉ hostOps4_3_W)
    (g4 : r ∉ hostOps4_4_W) (g5 : ∀ w, Pipeline.arrRef spec4 w ≠ r) :
    W15 m ρ c (Proc.devRef .tc r) = W9 m ρ c (Proc.devRef .tc r) :=
  (W15_q m ρ c r g5).trans (W14_q m ρ c r g0 g1 g2 g3 g4)

end Walk

/-! ### One aggregation stretch, read at an index -/

/-- The raw source vector normalized (a negative entry wrapped by the number of nodes), as a column; the raw
    destination vector as a column: the two index columns every aggregation stretch recomputes. -/
abbrev normCol (v5 : IVec S1700000 32) : IVec S1700000x1 32 :=
  broadcastInDim S1700000x1 ![0] bcast_S1700000_S1700000x1_0
    (select (cmpi CmpIPredicate.slt v5 (broadcastInDim S1700000 ![] bcast_S_S1700000 (constantI S_ 32 0#32)))
      (addi v5 (broadcastInDim S1700000 ![] bcast_S_S1700000 (constantI S_ 32 100000#32))) v5)
abbrev plainCol (v6 : IVec S1700000 32) : IVec S1700000x1 32 :=
  broadcastInDim S1700000x1 ![0] bcast_S1700000_S1700000x1_0 v6

/-- Normalizing the reference's raw source vector gives its source column (the reference does the same three steps). -/
theorem normCol_v5 (x1 : Cert.Spec.TE) :
    normCol (Cert.ReferenceIdeal.Read.val_main_v5 (F := Ideal) x1) = Cert.Spec.srcCol x1 := by
  show _ = Cert.ReferenceIdeal.Read.val_main_v23 (F := Ideal) x1
  unfold Cert.ReferenceIdeal.Read.val_main_v23 Cert.ReferenceIdeal.Read.val_main_v22 Cert.ReferenceIdeal.Read.val_main_v19
    Cert.ReferenceIdeal.Read.val_main_v21 Cert.ReferenceIdeal.Read.val_main_v18 Cert.ReferenceIdeal.Read.val_main_v20
    Cert.ReferenceIdeal.Read.val_main_c Cert.ReferenceIdeal.Read.val_main_c_4
  rfl
/-- Broadcasting the reference's raw destination vector to a column gives its destination column. -/
theorem plainCol_v6 (x1 : Cert.Spec.TE) :
    plainCol (Cert.ReferenceIdeal.Read.val_main_v6 (F := Ideal) x1) = Cert.Spec.dstCol x1 := by
  show _ = Cert.ReferenceIdeal.Read.val_main_v10 (F := Ideal) x1
  unfold Cert.ReferenceIdeal.Read.val_main_v10
  rfl

/-- A coefficient vector broadcast along the 64 columns, read at (e, k). -/
theorem bcast_coef_apply (nr : FVec Ideal S1700000 .f32) (e : Fin 1700000) (k : Fin 64) :
    broadcastInDim S1700000x64 ![0, 1] bcast_S1700000x1_S1700000x64_0_1
        (broadcastInDim S1700000x1 ![0] bcast_S1700000_S1700000x1_0 nr) (ix2 e k) = nr (ix1 e) := by
  unfold broadcastInDim
  refine congrArg nr (funext fun a => ?_)
  match a with
  | ⟨0, _⟩ => rfl

/-- ONE AGGREGATION OVER ROWS, read at (p, k), for any dimension records that ARE "add rows" and "take rows" at
    100000 rows, 1700000 edges and 64 columns, any zero operand and any coefficient matrix constant along the columns:
    the sum, over the edges landing on row p, of the row the edge reads times the edge's coefficient. -/
theorem rows_agg_apply
    (ds : ScatterDims (SRows 100000 64) (SCol 1700000) (SRows 1700000 64))
    (wfs : ScatterDims.WF (SRows 100000 64) (SCol 1700000) (SRows 1700000 64) [1] [0] [0] 1)
    (hds : ds = rowScatterDims 100000 1700000 64 wfs)
    (dg : GatherDims (SRows 100000 64) (SCol 1700000) (SRows 1700000 64))
    (wfg : GatherDims.WF (SRows 100000 64) (SCol 1700000) (SRows 1700000 64) [1] [0] [] [0] [] 1 ![1, 64])
    (hdg : dg = rowGatherDims 100000 1700000 64 wfg)
    (z : (SRows 100000 64).Idx → EReal) (hz : ∀ p k, z (ix2 p k) = 0)
    (b : (SRows 1700000 64).Idx → EReal) (nr : Fin 1700000 → EReal) (hb : ∀ e k, b (ix2 e k) = nr e)
    (h : (SRows 100000 64).Idx → EReal) (src dst : IVec (SCol 1700000) 32) (p : Fin 100000) (k : Fin 64) :
    Host.scatterAdd (F := Ideal) (φ := .f32) ds z dst (mulf (F := Ideal) (φ := .f32) (Host.gather dg h src) b) (ix2 p k)
      = ∑ e ∈ Finset.univ.filter (fun e : Fin 1700000 => rowLand (N := 100000) dst e = some p),
          h (ix2 (rowClamp (N := 100000) (by decide) src e) k) * nr e := by
  subst hds hdg
  refine (rowScatterAdd_apply (N := 100000) (E := 1700000) (F := 64) wfs z dst
    (mulf (F := Ideal) (φ := .f32) (Host.gather (rowGatherDims 100000 1700000 64 wfg) h src) b) p k).trans ?_
  rw [hz, zero_add]
  refine Finset.sum_congr rfl (fun e _ => ?_)
  rw [mulf_apply, hb]
  exact congrArg (· * nr e) (rowGather_apply (by decide) wfg h src e k)

/-! ### The padded arrays, read at an index -/

/-- A vector of 100000 entries padded behind with 2400 copies of a value, then given a leading unit axis, read at
    (0, n): the vector's entry while n is below 100000, the padding value from there on. -/
theorem padb_apply (x : IVec S100000 32) (v : IVec S_ 32) (c0 : BitVec 32) (hv : ∀ i, v i = c0) (n : Fin 102400) :
    shapeCast S1x102400 (pad S102400 ![0] ![2400] ![0] x v pads_S100000_S102400_024000 h_S_)
        shapeCasts_S102400_S1x102400 (ix2 (0 : Fin 1) n)
      = if h : n.val < 100000 then x (ix1 (⟨n.val, h⟩ : Fin 100000)) else c0 := by
  refine (shapeCast_a_1a_apply _ _ 0 n).trans ?_
  by_cases h : n.val < 100000
  · rw [dif_pos h]
    exact pad_apply_of_inside _ _ _ x v pads_S100000_S102400_024000 h_S_ _ (ix1 (⟨n.val, h⟩ : Fin 100000)) (by
      intro a
      have ha : a = 0 := Subsingleton.elim _ _
      subst ha
      show n.val = 0 + n.val * (0 + 1); omega)
  · rw [dif_neg h]
    refine (pad_apply_of_not_inside _ _ _ x v pads_S100000_S102400_024000 h_S_ _ (0 : Fin 1) (by
      intro hin
      have e : (n.val - 0) / (0 + 1) < 100000 := hin.2.2
      omega)).trans (hv _)

/-- A matrix of 100000 rows padded below with 2400 rows of a value, read at (n, f). -/
theorem padh_apply (x : FVec Ideal S100000x64 .f32) (v : FVec Ideal S_ .f32) (c0 : EReal) (hv : ∀ i, v i = c0)
    (n : Fin 102400) (f : Fin 64) :
    pad S102400x64 ![0, 0] ![2400, 0] ![0, 0] x v pads_S100000x64_S102400x64_024000_000 h_S_ (ix2 n f)
      = if h : n.val < 100000 then x (ix2 (⟨n.val, h⟩ : Fin 100000) f) else c0 := by
  by_cases h : n.val < 100000
  · rw [dif_pos h]
    exact pad_apply_of_inside _ _ _ x v pads_S100000x64_S102400x64_024000_000 h_S_ _ (ix2 (⟨n.val, h⟩ : Fin 100000) f) (by
      intro a
      match a with
      | ⟨0, _⟩ => show n.val = 0 + n.val * (0 + 1); omega
      | ⟨1, _⟩ => show f.val = 0 + f.val * (0 + 1); omega)
  · rw [dif_neg h]
    refine (pad_apply_of_not_inside _ _ _ x v pads_S100000x64_S102400x64_024000_000 h_S_ _ (0 : Fin 2) (by
      intro hin
      have e : (n.val - 0) / (0 + 1) < 100000 := hin.2.2
      omega)).trans (hv _)

/-- The integer zero converted to a float is zero. -/
theorem sitofp_zero_apply (i : S_.Idx) :
    (sitofp (F := Ideal) .f32 (constantI S_ 32 0#32) : FVec Ideal S_ .f32) i = 0 := by
  show (((0#32 : BitVec 32).toInt : ℝ) : EReal) = 0
  have h0 : (0#32 : BitVec 32).toInt = 0 := by decide
  rw [h0, Int.cast_zero, EReal.coe_zero]

/-- The second region's row-blocked input: the first layer's features aggregated on their own width. -/
theorem kh_agg2 (p : Fin 100000) (k : Fin 64) :
    w5_agg m ρ c (ix2 p k)
      = Agg (Cert.Spec.row (a1 m c)) (Cert.Spec.land (a1 m c)) (Cert.Spec.nv (a1 m c) (a2 m c)) (Cert.Spec.cur2 (w4_h1 m ρ c)) p k := by
  -- the raw vectors and the coefficients are as after item 2: the reference's
  have e5 : (W4 m ρ c (Proc.devRef .tc main_v5) : IVec S1700000 32)
      = Cert.ReferenceIdeal.Read.val_main_v5 (F := Ideal) (a1 m c) :=
    (W4_q m ρ c main_v5 (by decide)).trans (kh_v5 m ρ c)
  have e6 : (W4 m ρ c (Proc.devRef .tc main_v6) : IVec S1700000 32)
      = Cert.ReferenceIdeal.Read.val_main_v6 (F := Ideal) (a1 m c) :=
    (W4_q m ρ c main_v6 (by decide)).trans (kh_v6 m ρ c)
  have e33 : (W4 m ρ c (Proc.devRef .tc main_v33) : FVec Ideal S1700000 .f32) = Cert.Spec.nrm (a1 m c) (a2 m c) :=
    (W4_q m ρ c main_v33 (by decide)).trans (kh_nrm m ρ c)
  -- the stretch's operations on them
  have e : w5_agg m ρ c
      = Host.scatterAdd (F := Ideal) (φ := .f32) scatter_S100000x64_S1700000x1_S1700000x64_1_0_0_1
          (broadcastInDim S100000x64 ![] bcast_S_S100000x64 (constant (F := Ideal) S_ .f32 0#32))
          (plainCol (Cert.ReferenceIdeal.Read.val_main_v6 (F := Ideal) (a1 m c)))
          (mulf (Host.gather gather_S100000x64_S1700000x1_S1700000x64_1_0_n_n_0_1_164 (w4_h1 m ρ c)
              (normCol (Cert.ReferenceIdeal.Read.val_main_v5 (F := Ideal) (a1 m c))))
            (broadcastInDim S1700000x64 ![0, 1] bcast_S1700000x1_S1700000x64_0_1
              (broadcastInDim S1700000x1 ![0] bcast_S1700000_S1700000x1_0 (Cert.Spec.nrm (a1 m c) (a2 m c))))) := by
    show StableHlo.after hostOps1 _ (Proc.devRef .tc main_v64) = _
    after_results_simp
    rw [e5, e6, e33]
  rw [e, normCol_v5, plainCol_v6]
  -- read at (p, k): the sum over the edges landing on row p, which is the aggregation's own definition
  refine (rows_agg_apply scatter_S100000x64_S1700000x1_S1700000x64_1_0_0_1
    scatter_S100000x64_S1700000x1_S1700000x64_1_0_0_1_wf rfl
    gather_S100000x64_S1700000x1_S1700000x64_1_0_n_n_0_1_164
    gather_S100000x64_S1700000x1_S1700000x64_1_0_n_n_0_1_164_wf rfl
    _ (fun _ _ => Ideal.ofBits_zero_f32)
    _ (fun e => Cert.Spec.nrm (a1 m c) (a2 m c) (ix1 e)) (fun e k => bcast_coef_apply _ e k)
    (w4_h1 m ρ c) (Cert.Spec.srcCol (a1 m c)) (Cert.Spec.dstCol (a1 m c)) p k).trans ?_
  rfl
theorem kh_w2' (k : Fin 64) (q : Fin 128) : w5_w2 m ρ c (ix2 k q) = a6 m c (ix2 k q) := by
  have e : w5_w2 m ρ c = w3_w2 m ρ c :=
    (W5_q m ρ c main_v35 (by decide)).trans (W4_q m ρ c main_v35 (by decide))
  rw [e]; exact kh_w2 m ρ c k q
theorem kh_b2 (q : Fin 128) : w5_b2 m ρ c (ix2 (0 : Fin 1) q) = a7 m c (ix1 q) := by
  have e : w5_b2 m ρ c
      = shapeCast S1x128 (W4 m ρ c (Proc.devRef .tc main_arg7) : FVec Ideal S128 .f32) shapeCasts_S128_S1x128 := by
    show StableHlo.after hostOps1 _ (Proc.devRef .tc main_v65) = _
    after_results
    rfl
  have ea : (W4 m ρ c (Proc.devRef .tc main_arg7) : FVec Ideal S128 .f32) = a7 m c :=
    (W4_q m ρ c main_arg7 (by decide)).trans (W3_arg m ρ c main_arg7 (by decide) (by decide) (by decide))
  rw [e, ea]
  exact shapeCast_a_1a_apply _ _ 0 q
theorem kh_w3' (k : Fin 128) (q : Fin 64) : w6_w3 m ρ c (ix2 k q) = a8 m c (ix2 k q) := by
  have e : w6_w3 m ρ c = w3_w3 m ρ c :=
    (W6_q m ρ c main_v36 (by decide)).trans <|
      (W5_q m ρ c main_v36 (by decide)).trans (W4_q m ρ c main_v36 (by decide))
  rw [e]; exact kh_w3 m ρ c k q

/-- The fourth region's row-blocked input: the third region's product aggregated. -/
theorem kh_agg3 (p : Fin 100000) (q : Fin 64) :
    w8_agg m ρ c (ix2 p q)
      = Agg (Cert.Spec.row (a1 m c)) (Cert.Spec.land (a1 m c)) (Cert.Spec.nv (a1 m c) (a2 m c)) (Cert.Spec.cur2 (w7_xw m ρ c)) p q := by
  -- the raw vectors and the coefficients are as after item 2: the reference's
  have e5 : (W7 m ρ c (Proc.devRef .tc main_v5) : IVec S1700000 32)
      = Cert.ReferenceIdeal.Read.val_main_v5 (F := Ideal) (a1 m c) :=
    (W7_eq_W3 m ρ c main_v5 (by decide) (by decide) (by decide) (by decide)).trans (kh_v5 m ρ c)
  have e6 : (W7 m ρ c (Proc.devRef .tc main_v6) : IVec S1700000 32)
      = Cert.ReferenceIdeal.Read.val_main_v6 (F := Ideal) (a1 m c) :=
    (W7_eq_W3 m ρ c main_v6 (by decide) (by decide) (by decide) (by decide)).trans (kh_v6 m ρ c)
  have e33 : (W7 m ρ c (Proc.devRef .tc main_v33) : FVec Ideal S1700000 .f32) = Cert.Spec.nrm (a1 m c) (a2 m c) :=
    (W7_eq_W3 m ρ c main_v33 (by decide) (by decide) (by decide) (by decide)).trans (kh_nrm m ρ c)
  -- the stretch's operations on them
  have e : w8_agg m ρ c
      = Host.scatterAdd (F := Ideal) (φ := .f32) scatter_S100000x64_S1700000x1_S1700000x64_1_0_0_1
          (broadcastInDim S100000x64 ![] bcast_S_S100000x64 (constant (F := Ideal) S_ .f32 0#32))
          (plainCol (Cert.ReferenceIdeal.Read.val_main_v6 (F := Ideal) (a1 m c)))
          (mulf (Host.gather gather_S100000x64_S1700000x1_S1700000x64_1_0_n_n_0_1_164 (w7_xw m ρ c)
              (normCol (Cert.ReferenceIdeal.Read.val_main_v5 (F := Ideal) (a1 m c))))
            (broadcastInDim S1700000x64 ![0, 1] bcast_S1700000x1_S1700000x64_0_1
              (broadcastInDim S1700000x1 ![0] bcast_S1700000_S1700000x1_0 (Cert.Spec.nrm (a1 m c) (a2 m c))))) := by
    show StableHlo.after hostOps3 _ (Proc.devRef .tc main_v80) = _
    after_results_simp
    rw [e5, e6, e33]
  rw [e, normCol_v5, plainCol_v6]
  -- read at (p, q): the sum over the edges landing on row p, which is the aggregation's own definition
  refine (rows_agg_apply scatter_S100000x64_S1700000x1_S1700000x64_1_0_0_1
    scatter_S100000x64_S1700000x1_S1700000x64_1_0_0_1_wf rfl
    gather_S100000x64_S1700000x1_S1700000x64_1_0_n_n_0_1_164
    gather_S100000x64_S1700000x1_S1700000x64_1_0_n_n_0_1_164_wf rfl
    _ (fun _ _ => Ideal.ofBits_zero_f32)
    _ (fun e => Cert.Spec.nrm (a1 m c) (a2 m c) (ix1 e)) (fun e k => bcast_coef_apply _ e k)
    (w7_xw m ρ c) (Cert.Spec.srcCol (a1 m c)) (Cert.Spec.dstCol (a1 m c)) p q).trans ?_
  rfl
theorem kh_b3 (q : Fin 64) : w8_b3 m ρ c (ix2 (0 : Fin 1) q) = a9 m c (ix1 q) := by
  have e : w8_b3 m ρ c
      = shapeCast S1x64 (W7 m ρ c (Proc.devRef .tc main_arg9) : FVec Ideal S64 .f32) shapeCasts_S64_S1x64 := by
    show StableHlo.after hostOps3 _ (Proc.devRef .tc main_v81) = _
    after_results
    rfl
  have ea : (W7 m ρ c (Proc.devRef .tc main_arg9) : FVec Ideal S64 .f32) = a9 m c :=
    (W7_eq_W3 m ρ c main_arg9 (by decide) (by decide) (by decide) (by decide)).trans
      (W3_arg m ρ c main_arg9 (by decide) (by decide) (by decide))
  rw [e, ea]
  exact shapeCast_a_1a_apply _ _ 0 q

/-- The graph ids padded with the value 64 (no graph's id), the features padded with zero rows. -/
theorem kh_padb (n : Fin 102400) :
    w14_pb m ρ c (ix2 (0 : Fin 1) n) = if h : n.val < 100000 then a3 m c (ix1 (⟨n.val, h⟩ : Fin 100000)) else 64#32 := by
  -- the five short stretches before the pooling region, read down to the contents after the fourth region
  have e : w14_pb m ρ c
      = shapeCast S1x102400 (pad S102400 ![0] ![2400] ![0] (W9 m ρ c (Proc.devRef .tc main_arg3) : IVec S100000 32)
          (constantI S_ 32 64#32) pads_S100000_S102400_024000 h_S_) shapeCasts_S102400_S1x102400 := by
    show StableHlo.after hostOps4_4 _ (Proc.devRef .tc main_v85) = _
    after_results
    rfl
  have ea : (W9 m ρ c (Proc.devRef .tc main_arg3) : IVec S100000 32) = a3 m c :=
    (W9_eq_W3 m ρ c main_arg3 (by decide) (by decide) (by decide) (by decide) (by decide) (by decide)).trans
      (W3_arg m ρ c main_arg3 (by decide) (by decide) (by decide))
  rw [e, ea]
  exact padb_apply (a3 m c) (constantI S_ 32 64#32) 64#32 (fun _ => rfl) n
theorem kh_padh (n : Fin 102400) (f : Fin 64) :
    w14_ph m ρ c (ix2 n f) = if h : n.val < 100000 then w9_h3 m ρ c (ix2 (⟨n.val, h⟩ : Fin 100000) f) else 0 := by
  have e : w14_ph m ρ c
      = pad S102400x64 ![0, 0] ![2400, 0] ![0, 0] (w9_h3 m ρ c)
          (sitofp (F := Ideal) .f32 (constantI S_ 32 0#32) : FVec Ideal S_ .f32)
          pads_S100000x64_S102400x64_024000_000 h_S_ := by
    show StableHlo.after hostOps4_4 _ (Proc.devRef .tc main_v84) = _
    after_results
    rfl
  rw [e]
  exact padh_apply _ _ 0 sitofp_zero_apply n f

/-- The kernel's result is the shared tail of the pooling region's result array. -/
theorem kh_tail : w16_res m ρ c = Cert.Spec.tail (w15_pool m ρ c) (a3 m c) (a10 m c) (a11 m c) := by
  -- the three arguments the tail reads are as launched
  have e3 : (W15 m ρ c (Proc.devRef .tc main_arg3) : IVec S100000 32) = a3 m c :=
    (W15_eq_W9 m ρ c main_arg3 (by decide) (by decide) (by decide) (by decide) (by decide) (by decide)).trans <|
      (W9_eq_W3 m ρ c main_arg3 (by decide) (by decide) (by decide) (by decide) (by decide) (by decide)).trans
        (W3_arg m ρ c main_arg3 (by decide) (by decide) (by decide))
  have e10 : (W15 m ρ c (Proc.devRef .tc main_arg10) : FVec Ideal S64x1 .f32) = a10 m c :=
    (W15_eq_W9 m ρ c main_arg10 (by decide) (by decide) (by decide) (by decide) (by decide) (by decide)).trans <|
      (W9_eq_W3 m ρ c main_arg10 (by decide) (by decide) (by decide) (by decide) (by decide) (by decide)).trans
        (W3_arg m ρ c main_arg10 (by decide) (by decide) (by decide))
  have e11 : (W15 m ρ c (Proc.devRef .tc main_arg11) : FVec Ideal S1 .f32) = a11 m c :=
    (W15_eq_W9 m ρ c main_arg11 (by decide) (by decide) (by decide) (by decide) (by decide) (by decide)).trans <|
      (W9_eq_W3 m ρ c main_arg11 (by decide) (by decide) (by decide) (by decide) (by decide) (by decide)).trans
        (W3_arg m ρ c main_arg11 (by decide) (by decide) (by decide))
  show StableHlo.after hostOps5 _ (Proc.devRef .tc main_v99) = _
  after_results_simp
  rw [e3, e10, e11]
  -- the reference's last operations, stage by stage: the same operations on the same operands
  unfold Cert.Spec.tail Cert.ReferenceIdeal.Read.val_main_v98 Cert.ReferenceIdeal.Read.val_main_v97
    Cert.ReferenceIdeal.Read.val_main_v96 Cert.ReferenceIdeal.Read.val_main_v95 Cert.ReferenceIdeal.Read.val_main_v91
    Cert.ReferenceIdeal.Read.val_main_v90 Cert.ReferenceIdeal.Read.val_main_v89 Cert.ReferenceIdeal.Read.val_main_v88
    Cert.ReferenceIdeal.Read.val_main_v102 Cert.ReferenceIdeal.Read.val_main_v101
  rfl

end Cert.KernelIdeal.Hand

end
-- ==== Proof.KI.Final0.lean ====
/-
  Region 0's result array, at the exact values: every block the pipeline writes back is a restriction of ONE function of
  the three input arrays, `max (x · W + b, 0)` row by row, and the blocks cover the array.
-/
import proofs.«407297_j7748121002089_3_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The region's three input arrays and its result array, as the region finds and leaves them, at their literal types. -/
abbrev in0_x (c : Dev nD) : FVec Ideal S100000x16 .f32 := V c main_v49
abbrev in0_w (c : Dev nD) : FVec Ideal S16x64 .bf16 := V c main_v34
abbrev in0_b (c : Dev nD) : FVec Ideal S1x64 .f32 := V c main_v50
abbrev res0 (c : Dev nD) : FVec Ideal S100000x64 .f32 := (dat0 V c).arrAt 3 cfg0.N

/-- The zero offsets of a whole-buffer access, however they are spelt. -/
theorem zero_off0 : (![0, 0] : Fin 2 → Nat) = fun _ => 0 :=
  funext fun a => by match a with | ⟨0, _⟩ => rfl | ⟨1, _⟩ => rfl

/-! ## The product at an index

The operand indices of the block product at output index `i` and contraction index `q`, axis by axis: the left operand is
read at (`i`'s row, `q`), the right operand at (`q`, `i`'s column). -/

/-- The left operand's row is the output's row. -/
theorem lhs_row0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
/-- The left operand's column is the contraction coordinate. -/
theorem lhs_contr0 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
/-- The right operand's row is the contraction coordinate. -/
theorem rhs_contr0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
/-- The right operand's column is the output's column. -/
theorem rhs_col0 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- The block product into the zero accumulator, read at row `p`, column `q`: the sum over the contracted axis. -/
theorem prod_at0 (a : FVec Ideal S10000x16 .bf16) (w : FVec Ideal S16x64 .bf16) (p : Fin 10000) (q : Fin 64) :
    (matmul (F := Ideal) dot_S10000x16_S16x64_S10000x64_1_0_0_1_n_n none a w (constant (F := Ideal) S10000x64 .f32 0x00000000#32)) (ix2 p q)
      = ∑ k : Fin 16, a (ix2 p k) * w (ix2 k q) := by
  show FloatOps.matmul dot_S10000x16_S16x64_S10000x64_1_0_0_1_n_n none a w (constant (F := Ideal) S10000x64 .f32 0x00000000#32) (ix2 p q) = _
  rw [Ideal.matmul_constant_zero_apply, ← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 p q) ((contrEquiv1 dot_S10000x16_S16x64_S10000x64_1_0_0_1_n_n 16 rfl rfl).symm k) = ix2 p k := funext fun a => Fin.ext (by
    match a with
    | ⟨0, _⟩ => exact lhs_row0 _ _
    | ⟨1, _⟩ => exact (lhs_contr0 _ _).trans hk)
  have er : dot_S10000x16_S16x64_S10000x64_1_0_0_1_n_n.rhsIdx (ix2 p q) ((contrEquiv1 dot_S10000x16_S16x64_S10000x64_1_0_0_1_n_n 16 rfl rfl).symm k) = ix2 k q := funext fun a => Fin.ext (by
    match a with
    | ⟨0, _⟩ => exact (rhs_contr0 _ _).trans hk
    | ⟨1, _⟩ => exact rhs_col0 _ _)
  rw [el, er]

/-! ## The body's payload at an index -/

/-- The payload of three blocks, read at row `p`, column `q`: the row of the first against the column of the second,
    plus the third's one row at `q`, clipped below at zero. The format change on the first block is the identity on
    extended reals, the casts are between equal shapes, the accumulator is the zero splat. -/
theorem pay_at0 (x0 : Vec Ideal S10000x16 .f32) (x1 : Vec Ideal S16x64 .bf16) (x2 : Vec Ideal S1x64 .f32) (p : Fin 10000) (q : Fin 64) :
    k0_pay1 (F := Ideal) x0 x1 x2 (ix2 p q)
      = max ((∑ k : Fin 16, x0 (ix2 p k) * x1 (ix2 k q)) + x2 (ix2 (0 : Fin 1) q)) 0 := by
  unfold k0_pay1
  simp only [shapeCast_self]
  rw [maximumf_apply, addf_apply, broadcast_apply, prod_at0, broadcastTo_1b_ab_apply]
  simp only [truncf_apply]
  show max _ (Ideal.ofBits .f32 0x00000000#32) = _
  rw [Ideal.ofBits_zero_f32]

/-! ## The layer as one function of the three arrays -/

/-- Row `p` of the features against column `q` of the weights, plus the bias at `q`, clipped below at zero. -/
def unit0 (X : FVec Ideal S100000x16 .f32) (W : FVec Ideal S16x64 .bf16) (b : FVec Ideal S1x64 .f32) (p : Fin 100000) (q : Fin 64) : EReal :=
  max ((∑ k : Fin 16, X (ix2 p k) * W (ix2 k q)) + b (ix2 (0 : Fin 1) q)) 0

/-- The whole result array: `unit0` at each index's two coordinates. -/
def layer0 (X : FVec Ideal S100000x16 .f32) (W : FVec Ideal S16x64 .bf16) (b : FVec Ideal S1x64 .f32) : FVec Ideal S100000x64 .f32 :=
  fun i => unit0 X W b (i 0) (i 1)

/-! ## The windows' block indices, over the grid -/

/-- The row-blocked windows (features, result) have block index `(t, 0)` at point `t`; the weights' and the bias's
    windows have block index `(0, 0)` at every point. -/
theorem index_grid0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read against the arrays -/

/-- Row `y` of the features' block at point `t` is row `r` of the array, `r` the block's first row plus `y`. -/
theorem blk_x0 (c : Dev nD) (t : Fin cfg0.N) (y : Fin 10000) (k : Fin 16) (r : Fin 100000) (hr : r.val = 10000 * t.val + y.val) :
    (iblk0 V c 0 t : Vec Ideal S10000x16 .f32) (ix2 y k) = in0_x V c (ix2 r k) := by
  obtain ⟨e0, e1, -⟩ := index_grid0 t
  unfold iblk0
  show V c main_v49 (((cfg0.win 0).blk t).view.emb (ix2 y k)) = V c main_v49 (ix2 r k)
  congr 1
  funext a
  apply Fin.ext
  match a with
  | ⟨0, _⟩ => show win0_0.index t (0 : Fin 2) * 10000 + 1 * y.val = r.val; omega
  | ⟨1, _⟩ => show win0_0.index t (1 : Fin 2) * 16 + 1 * k.val = k.val; omega

/-- The weights' block at any point is the whole array. -/
theorem blk_w0 (c : Dev nD) (t : Fin cfg0.N) (k : Fin 16) (q : Fin 64) :
    (iblk0 V c 1 t : Vec Ideal S16x64 .bf16) (ix2 k q) = in0_w V c (ix2 k q) := by
  obtain ⟨-, -, e0, e1, -⟩ := index_grid0 t
  unfold iblk0
  show V c main_v34 (((cfg0.win 1).blk t).view.emb (ix2 k q)) = V c main_v34 (ix2 k q)
  congr 1
  funext a
  apply Fin.ext
  match a with
  | ⟨0, _⟩ => show win0_1.index t (0 : Fin 2) * 16 + 1 * k.val = k.val; omega
  | ⟨1, _⟩ => show win0_1.index t (1 : Fin 2) * 64 + 1 * q.val = q.val; omega

/-- The bias's block at any point is the whole row. -/
theorem blk_b0 (c : Dev nD) (t : Fin cfg0.N) (q : Fin 64) :
    (iblk0 V c 2 t : Vec Ideal S1x64 .f32) (ix2 (0 : Fin 1) q) = in0_b V c (ix2 (0 : Fin 1) q) := by
  obtain ⟨-, -, -, -, e0, e1, -⟩ := index_grid0 t
  unfold iblk0
  show V c main_v50 (((cfg0.win 2).blk t).view.emb (ix2 (0 : Fin 1) q)) = V c main_v50 (ix2 (0 : Fin 1) q)
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 64 + 1 * q.val = q.val; omega

/-! ## What each point writes back -/

/-- The body's one store covers the output's buffer and its three loads read whole buffers: what it leaves is the
    payload of the three blocks. -/
theorem out_pay0 (x0 : Vec Ideal S10000x16 .f32) (x1 : Vec Ideal S16x64 .bf16) (x2 : Vec Ideal S1x64 .f32) :
    out0_3 x0 x1 x2 = k0_pay1 (F := Ideal) x0 x1 x2 := by
  unfold out0_3
  rw [View.canon_unit_zero zero_off0]
  simp only [View.ld_unit_zero (S := S10000x16) zero_off0, View.ld_unit_zero (S := S16x64) zero_off0, View.ld_unit_zero (S := S1x64) zero_off0]

/-- Row `y`, column `q` of what the body leaves at point `t` is the layer at row `r`, the block's first row plus `y`. -/
theorem left_at0 (c : Dev nD) (t : Fin cfg0.N) (y : Fin 10000) (q : Fin 64) (r : Fin 100000) (hr : r.val = 10000 * t.val + y.val) :
    out0_3 (iblk0 V c 0 t) (iblk0 V c 1 t) (iblk0 V c 2 t) (ix2 y q) = unit0 (in0_x V c) (in0_w V c) (in0_b V c) r q := by
  refine (congrFun (out_pay0 (iblk0 V c 0 t) (iblk0 V c 1 t) (iblk0 V c 2 t)) (ix2 y q)).trans ?_
  refine (pay_at0 (iblk0 V c 0 t) (iblk0 V c 1 t) (iblk0 V c 2 t) y q).trans ?_
  unfold unit0
  rw [blk_b0 V c t q]
  refine congrArg (fun s => max (s + in0_b V c (ix2 (0 : Fin 1) q)) 0) ?_
  refine Finset.sum_congr rfl fun k _ => ?_
  rw [blk_x0 V c t y k r hr, blk_w0 V c t k q]

/-- The same at any index `j` of the block and any index `i` of the array whose row is the block's first row plus
    `j`'s and whose column is `j`'s. -/
theorem left_idx0 (c : Dev nD) (t : Fin cfg0.N) (j : S10000x64.Idx) (i : S100000x64.Idx)
    (h0 : (i 0).val = 10000 * t.val + (j 0).val) (h1 : (i 1).val = (j 1).val) :
    out0_3 (iblk0 V c 0 t) (iblk0 V c 1 t) (iblk0 V c 2 t) j = layer0 (in0_x V c) (in0_w V c) (in0_b V c) i := by
  obtain ⟨y, q, rfl⟩ : ∃ (y : Fin 10000) (q : Fin 64), j = ix2 y q := ⟨j 0, j 1, eq_ix2 j⟩
  obtain ⟨r, s, rfl⟩ : ∃ (r : Fin 100000) (s : Fin 64), i = ix2 r s := ⟨i 0, i 1, eq_ix2 i⟩
  obtain rfl : s = q := Fin.ext h1
  exact left_at0 V c t y s r h0

/-- WHAT POINT `t` WRITES BACK is block `t` of the layer of the three arrays as the region finds them. -/
theorem wrote0 (c : Dev nD) (t : Fin cfg0.N) :
    (dat0 V c).flushed 3 t = ((cfg0.win 3).blk t).view.read (Elt Ideal) (layer0 (in0_x V c) (in0_w V c) (in0_b V c)) := by
  show (cfg0.win 3).cut (grid0.coords t) ((dat0 V c).after 3 t) = _
  rw [after0_3]
  obtain ⟨-, -, -, -, -, -, e0, e1⟩ := index_grid0 t
  funext j
  refine left_idx0 V c t ((cfg0.win 3).xinj (grid0.coords t) j) (((cfg0.win 3).blk t).view.emb j) ?_ ?_
  · show win0_3.index t (0 : Fin 2) * 10000 + 1 * (j 0).val = 10000 * t.val + (j 0).val
    omega
  · show win0_3.index t (1 : Fin 2) * 64 + 1 * (j 1).val = (j 1).val
    omega

/-! ## The blocks cover the array -/

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v51).slice (win0_3.rect t)).set ↔ _
  rw [View.set_slice_whole, Rect.mem_set_unit]
  exact Iff.rfl

/-- Row `r` of the array lies in the block of the point `r / 10000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  refine ⟨⟨(i 0).val / 10000, ht⟩, flush0_3 _, ?_⟩
  rw [mem_blk0]
  obtain ⟨-, -, -, -, -, -, e0, e1⟩ := index_grid0 ⟨(i 0).val / 10000, ht⟩
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e1]
    omega

/-! ## The result array -/

/-- The result array after the region is the layer of the three arrays. -/
theorem res_layer0 (c : Dev nD) : res0 V c = layer0 (in0_x V c) (in0_w V c) (in0_b V c) :=
  (dat0 V c).arrAt_eq_of_cover 3 (layer0 (in0_x V c) (in0_w V c) (in0_b V c)) (fun t _ => wrote0 V c t) cover0

/-- The first layer's array after region 0, read at row `p`, column `q`. -/
theorem final0 (c : Dev nD) (p : Fin 100000) (q : Fin 64) :
    res0 V c (ix2 p q)
      = max ((∑ k : Fin 16, in0_x V c (ix2 p k) * in0_w V c (ix2 k q)) + in0_b V c (ix2 (0 : Fin 1) q)) 0 :=
  congrFun (res_layer0 V c) (ix2 p q)

end Cert.KernelIdeal.Hand

end
-- ==== Proof.KI.Final1.lean ====
/-
  Region 1's result array, at the exact values: every block the pipeline writes back is a restriction of ONE function of
  the three input arrays, `max (x · W + b, 0)` row by row, and the blocks cover the array.
-/
import proofs.«407297_j7748121002089_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The region's three input arrays and its result array, as the region finds and leaves them, at their literal types. -/
abbrev in1_x (c : Dev nD) : FVec Ideal S100000x64 .f32 := V c main_v64
abbrev in1_w (c : Dev nD) : FVec Ideal S64x128 .bf16 := V c main_v35
abbrev in1_b (c : Dev nD) : FVec Ideal S1x128 .f32 := V c main_v65
abbrev res1 (c : Dev nD) : FVec Ideal S100000x128 .f32 := (dat1 V c).arrAt 3 cfg1.N

/-- The zero offsets of a whole-buffer access, however they are spelt. -/
theorem zero_off1 : (![0, 0] : Fin 2 → Nat) = fun _ => 0 :=
  funext fun a => by match a with | ⟨0, _⟩ => rfl | ⟨1, _⟩ => rfl

/-! ## The product at an index

The operand indices of the block product at output index `i` and contraction index `q`, axis by axis: the left operand is
read at (`i`'s row, `q`), the right operand at (`q`, `i`'s column). -/

/-- The left operand's row is the output's row. -/
theorem lhs_row1 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left operand's column is the contraction coordinate. -/
theorem lhs_contr1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand's row is the contraction coordinate. -/
theorem rhs_contr1 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- The right operand's column is the output's column. -/
theorem rhs_col1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The block product into the zero accumulator, read at row `p`, column `q`: the sum over the contracted axis. -/
theorem prod_at1 (a : FVec Ideal S10000x64 .bf16) (w : FVec Ideal S64x128 .bf16) (p : Fin 10000) (q : Fin 128) :
    (matmul (F := Ideal) dot_S10000x64_S64x128_S10000x128_1_0_0_1_n_n none a w (constant (F := Ideal) S10000x128 .f32 0x00000000#32)) (ix2 p q)
      = ∑ k : Fin 64, a (ix2 p k) * w (ix2 k q) := by
  show FloatOps.matmul dot_S10000x64_S64x128_S10000x128_1_0_0_1_n_n none a w (constant (F := Ideal) S10000x128 .f32 0x00000000#32) (ix2 p q) = _
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs_row1 _ _
    | ⟨1, _⟩ => exact (lhs_contr1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs_contr1 _ _).trans hk
    | ⟨1, _⟩ => exact rhs_col1 _ _)
  rw [el, er]

/-! ## The body's payload at an index -/

/-- The payload of three blocks, read at row `p`, column `q`: the row of the first against the column of the second,
    plus the third's one row at `q`, clipped below at zero. The format change on the first block is the identity on
    extended reals, the casts are between equal shapes, the accumulator is the zero splat. -/
theorem pay_at1 (x0 : Vec Ideal S10000x64 .f32) (x1 : Vec Ideal S64x128 .bf16) (x2 : Vec Ideal S1x128 .f32) (p : Fin 10000) (q : Fin 128) :
    k1_pay1 (F := Ideal) x0 x1 x2 (ix2 p q)
      = max ((∑ k : Fin 64, x0 (ix2 p k) * x1 (ix2 k q)) + x2 (ix2 (0 : Fin 1) q)) 0 := by
  unfold k1_pay1
  simp only [shapeCast_self]
  rw [maximumf_apply, addf_apply, broadcast_apply, prod_at1, broadcastTo_1b_ab_apply]
  simp only [truncf_apply]
  show max _ (Ideal.ofBits .f32 0x00000000#32) = _
  rw [Ideal.ofBits_zero_f32]

/-! ## The layer as one function of the three arrays -/

/-- Row `p` of the features against column `q` of the weights, plus the bias at `q`, clipped below at zero. -/
def unit1 (X : FVec Ideal S100000x64 .f32) (W : FVec Ideal S64x128 .bf16) (b : FVec Ideal S1x128 .f32) (p : Fin 100000) (q : Fin 128) : EReal :=
  max ((∑ k : Fin 64, X (ix2 p k) * W (ix2 k q)) + b (ix2 (0 : Fin 1) q)) 0

/-- The whole result array: `unit1` at each index's two coordinates. -/
def layer1 (X : FVec Ideal S100000x64 .f32) (W : FVec Ideal S64x128 .bf16) (b : FVec Ideal S1x128 .f32) : FVec Ideal S100000x128 .f32 :=
  fun i => unit1 X W b (i 0) (i 1)

/-! ## The windows' block indices, over the grid -/

/-- The row-blocked windows (features, result) have block index `(t, 0)` at point `t`; the weights' and the bias's
    windows have block index `(0, 0)` at every point. -/
theorem index_grid1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks, read against the arrays -/

/-- Row `y` of the features' block at point `t` is row `r` of the array, `r` the block's first row plus `y`. -/
theorem blk_x1 (c : Dev nD) (t : Fin cfg1.N) (y : Fin 10000) (k : Fin 64) (r : Fin 100000) (hr : r.val = 10000 * t.val + y.val) :
    (iblk1 V c 0 t : Vec Ideal S10000x64 .f32) (ix2 y k) = in1_x V c (ix2 r k) := by
  obtain ⟨e0, e1, -⟩ := index_grid1 t
  unfold iblk1
  show V c main_v64 (((cfg1.win 0).blk t).view.emb (ix2 y k)) = V c main_v64 (ix2 r k)
  congr 1
  funext a
  apply Fin.ext
  match a with
  | ⟨0, _⟩ => show win1_0.index t (0 : Fin 2) * 10000 + 1 * y.val = r.val; omega
  | ⟨1, _⟩ => show win1_0.index t (1 : Fin 2) * 64 + 1 * k.val = k.val; omega

/-- The weights' block at any point is the whole array. -/
theorem blk_w1 (c : Dev nD) (t : Fin cfg1.N) (k : Fin 64) (q : Fin 128) :
    (iblk1 V c 1 t : Vec Ideal S64x128 .bf16) (ix2 k q) = in1_w V c (ix2 k q) := by
  obtain ⟨-, -, e0, e1, -⟩ := index_grid1 t
  unfold iblk1
  show V c main_v35 (((cfg1.win 1).blk t).view.emb (ix2 k q)) = V c main_v35 (ix2 k q)
  congr 1
  funext a
  apply Fin.ext
  match a with
  | ⟨0, _⟩ => show win1_1.index t (0 : Fin 2) * 64 + 1 * k.val = k.val; omega
  | ⟨1, _⟩ => show win1_1.index t (1 : Fin 2) * 128 + 1 * q.val = q.val; omega

/-- The bias's block at any point is the whole row. -/
theorem blk_b1 (c : Dev nD) (t : Fin cfg1.N) (q : Fin 128) :
    (iblk1 V c 2 t : Vec Ideal S1x128 .f32) (ix2 (0 : Fin 1) q) = in1_b V c (ix2 (0 : Fin 1) q) := by
  obtain ⟨-, -, -, -, e0, e1, -⟩ := index_grid1 t
  unfold iblk1
  show V c main_v65 (((cfg1.win 2).blk t).view.emb (ix2 (0 : Fin 1) q)) = V c main_v65 (ix2 (0 : Fin 1) q)
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-! ## What each point writes back -/

/-- The body's one store covers the output's buffer and its three loads read whole buffers: what it leaves is the
    payload of the three blocks. -/
theorem out_pay1 (x0 : Vec Ideal S10000x64 .f32) (x1 : Vec Ideal S64x128 .bf16) (x2 : Vec Ideal S1x128 .f32) :
    out1_3 x0 x1 x2 = k1_pay1 (F := Ideal) x0 x1 x2 := by
  unfold out1_3
  rw [View.canon_unit_zero zero_off1]
  simp only [View.ld_unit_zero (S := S10000x64) zero_off1, View.ld_unit_zero (S := S64x128) zero_off1, View.ld_unit_zero (S := S1x128) zero_off1]

/-- Row `y`, column `q` of what the body leaves at point `t` is the layer at row `r`, the block's first row plus `y`. -/
theorem left_at1 (c : Dev nD) (t : Fin cfg1.N) (y : Fin 10000) (q : Fin 128) (r : Fin 100000) (hr : r.val = 10000 * t.val + y.val) :
    out1_3 (iblk1 V c 0 t) (iblk1 V c 1 t) (iblk1 V c 2 t) (ix2 y q) = unit1 (in1_x V c) (in1_w V c) (in1_b V c) r q := by
  refine (congrFun (out_pay1 (iblk1 V c 0 t) (iblk1 V c 1 t) (iblk1 V c 2 t)) (ix2 y q)).trans ?_
  refine (pay_at1 (iblk1 V c 0 t) (iblk1 V c 1 t) (iblk1 V c 2 t) y q).trans ?_
  unfold unit1
  rw [blk_b1 V c t q]
  refine congrArg (fun s => max (s + in1_b V c (ix2 (0 : Fin 1) q)) 0) ?_
  refine Finset.sum_congr rfl fun k _ => ?_
  rw [blk_x1 V c t y k r hr, blk_w1 V c t k q]

/-- The same at any index `j` of the block and any index `i` of the array whose row is the block's first row plus
    `j`'s and whose column is `j`'s. -/
theorem left_idx1 (c : Dev nD) (t : Fin cfg1.N) (j : S10000x128.Idx) (i : S100000x128.Idx)
    (h0 : (i 0).val = 10000 * t.val + (j 0).val) (h1 : (i 1).val = (j 1).val) :
    out1_3 (iblk1 V c 0 t) (iblk1 V c 1 t) (iblk1 V c 2 t) j = layer1 (in1_x V c) (in1_w V c) (in1_b V c) i := by
  obtain ⟨y, q, rfl⟩ : ∃ (y : Fin 10000) (q : Fin 128), j = ix2 y q := ⟨j 0, j 1, eq_ix2 j⟩
  obtain ⟨r, s, rfl⟩ : ∃ (r : Fin 100000) (s : Fin 128), i = ix2 r s := ⟨i 0, i 1, eq_ix2 i⟩
  obtain rfl : s = q := Fin.ext h1
  exact left_at1 V c t y s r h0

/-- WHAT POINT `t` WRITES BACK is block `t` of the layer of the three arrays as the region finds them. -/
theorem wrote1 (c : Dev nD) (t : Fin cfg1.N) :
    (dat1 V c).flushed 3 t = ((cfg1.win 3).blk t).view.read (Elt Ideal) (layer1 (in1_x V c) (in1_w V c) (in1_b V c)) := by
  show (cfg1.win 3).cut (grid1.coords t) ((dat1 V c).after 3 t) = _
  rw [after1_3]
  obtain ⟨-, -, -, -, -, -, e0, e1⟩ := index_grid1 t
  funext j
  refine left_idx1 V c t ((cfg1.win 3).xinj (grid1.coords t) j) (((cfg1.win 3).blk t).view.emb j) ?_ ?_
  · show win1_3.index t (0 : Fin 2) * 10000 + 1 * (j 0).val = 10000 * t.val + (j 0).val
    omega
  · show win1_3.index t (1 : Fin 2) * 128 + 1 * (j 1).val = (j 1).val
    omega

/-! ## The blocks cover the array -/

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v66).slice (win1_3.rect t)).set ↔ _
  rw [View.set_slice_whole, Rect.mem_set_unit]
  exact Iff.rfl

/-- Row `r` of the array lies in the block of the point `r / 10000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  have ht : (i 0).val / 10000 < cfg1.N := by rw [hN]; omega
  refine ⟨⟨(i 0).val / 10000, ht⟩, flush1_3 _, ?_⟩
  rw [mem_blk1]
  obtain ⟨-, -, -, -, -, -, e0, e1⟩ := index_grid1 ⟨(i 0).val / 10000, ht⟩
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_3.index ⟨(i 0).val / 10000, ht⟩ (1 : Fin 2) * 128 ≤ (i 1).val ∧ (i 1).val < win1_3.index ⟨(i 0).val / 10000, ht⟩ (1 : Fin 2) * 128 + 128
    rw [e1]
    omega

/-! ## The result array -/

/-- The result array after the region is the layer of the three arrays. -/
theorem res_layer1 (c : Dev nD) : res1 V c = layer1 (in1_x V c) (in1_w V c) (in1_b V c) :=
  (dat1 V c).arrAt_eq_of_cover 3 (layer1 (in1_x V c) (in1_w V c) (in1_b V c)) (fun t _ => wrote1 V c t) cover1

/-- The second layer's array after region 1, read at row `p`, column `q`. -/
theorem final1 (c : Dev nD) (p : Fin 100000) (q : Fin 128) :
    res1 V c (ix2 p q)
      = max ((∑ k : Fin 64, in1_x V c (ix2 p k) * in1_w V c (ix2 k q)) + in1_b V c (ix2 (0 : Fin 1) q)) 0 :=
  congrFun (res_layer1 V c) (ix2 p q)

end Cert.KernelIdeal.Hand

end
-- ==== Proof.KI.Final2.lean ====
/-
  Region 2's result array, at the exact values: the matrix product of the second layer's features with the third weight
  matrix, row by row; the blocks written back cover the array.
-/
import proofs.«407297_j7748121002089_3_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev in2_x (c : Dev nD) : FVec Ideal S100000x128 .f32 := V c main_v66
abbrev in2_w (c : Dev nD) : FVec Ideal S128x64 .bf16 := V c main_v36
abbrev res2 (c : Dev nD) : FVec Ideal S100000x64 .f32 := (dat2 V c).arrAt 2 cfg2.N

/-! ## The payload at an index -/

/-- The zero offsets of a whole-buffer access. -/
theorem zero_off2 : (![0, 0] : Fin 2 → Nat) = fun _ => 0 := funext fun a => by fin_cases a <;> rfl

/-! The product's dimension numbers contract the left operand's columns against the right operand's rows. At result
    index `i` and contraction position `s` the left operand is read at row `i 0`, column `s`, and the right operand at
    row `s`, column `i 1`: one fact per operand and axis. -/

theorem lhs_dot2_0 (i : S10000x64.Idx) (s : dot_S10000x128_S128x64_S10000x64_1_0_0_1_n_n.contr.Idx) :
    (dot_S10000x128_S128x64_S10000x64_1_0_0_1_n_n.lhsIdx i s 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_dot2_1 (i : S10000x64.Idx) (s : dot_S10000x128_S128x64_S10000x64_1_0_0_1_n_n.contr.Idx) :
    (dot_S10000x128_S128x64_S10000x64_1_0_0_1_n_n.lhsIdx i s 1).val = (s ⟨0, by decide⟩).val :=
  dot_S10000x128_S128x64_S10000x64_1_0_0_1_n_n.lhsIdx_val_of_single rfl i s
theorem rhs_dot2_0 (i : S10000x64.Idx) (s : dot_S10000x128_S128x64_S10000x64_1_0_0_1_n_n.contr.Idx) :
    (dot_S10000x128_S128x64_S10000x64_1_0_0_1_n_n.rhsIdx i s 0).val = (s ⟨0, by decide⟩).val :=
  dot_S10000x128_S128x64_S10000x64_1_0_0_1_n_n.rhsIdx_val_of_single rfl i s
theorem rhs_dot2_1 (i : S10000x64.Idx) (s : dot_S10000x128_S128x64_S10000x64_1_0_0_1_n_n.contr.Idx) :
    (dot_S10000x128_S128x64_S10000x64_1_0_0_1_n_n.rhsIdx i s 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's arithmetic at row `p`, column `q` of a block: the feature block's row `p` against the weight matrix's
    column `q`, summed over the 128 hidden features. The change of format before the product is the identity at the
    exact values, and the accumulator starts at zero. -/
theorem pay2_apply (x0 : Vec Ideal S10000x128 .f32) (x1 : Vec Ideal S128x64 .bf16) (p : Fin 10000) (q : Fin 64) :
    k2_pay1 (F := Ideal) x0 x1 (ix2 p q) = ∑ k : Fin 128, x0 (ix2 p k) * x1 (ix2 k q) := by
  unfold k2_pay1
  rw [shapeCast_self, shapeCast_self]
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = (ix2 p k : S10000x128.Idx) := funext fun a => Fin.ext (by
    match a with
    | ⟨0, _⟩ => exact lhs_dot2_0 _ _
    | ⟨1, _⟩ => exact (lhs_dot2_1 _ _).trans hk)
  have er : dot_S10000x128_S128x64_S10000x64_1_0_0_1_n_n.rhsIdx (ix2 p q) ((contrEquiv1 dot_S10000x128_S128x64_S10000x64_1_0_0_1_n_n 128 rfl rfl).symm k) = (ix2 k q : S128x64.Idx) := funext fun a => Fin.ext (by
    match a with
    | ⟨0, _⟩ => exact (rhs_dot2_0 _ _).trans hk
    | ⟨1, _⟩ => exact rhs_dot2_1 _ _)
  rw [el, er]
  rfl

/-! ## The result as one function of the two arrays -/

/-- Row `p`, column `q` of the result: the feature array's row `p` against the weight matrix's column `q`. -/
def rowsTimes2 (x : FVec Ideal S100000x128 .f32) (w : FVec Ideal S128x64 .bf16) : FVec Ideal S100000x64 .f32 :=
  fun i => ∑ k : Fin 128, x (ix2 (i 0 : Fin 100000) k) * w (ix2 k (i 1 : Fin 64))

theorem rowsTimes2_apply (x : FVec Ideal S100000x128 .f32) (w : FVec Ideal S128x64 .bf16) (p : Fin 100000) (q : Fin 64) :
    rowsTimes2 x w (ix2 p q) = ∑ k : Fin 128, x (ix2 p k) * w (ix2 k q) := rfl

/-! ## Where the blocks sit -/

/-- The block indices over the grid: at point `t` the feature window and the result window are on row block `t`,
    and the weight window on the whole matrix. -/
theorem block_at2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t`, at row `p`, column `k`, is the feature array's row `10000 t + p`. -/
theorem xblock2_apply (c : Dev nD) (t : Fin cfg2.N) (p : Fin 10000) (k : Fin 128) (r : Fin 100000)
    (hr : r.val = 10000 * t.val + p.val) :
    (iblk2 V c 0 t : Vec Ideal S10000x128 .f32) (ix2 p k) = in2_x V c (ix2 r k) := by
  obtain ⟨e0, e1, -⟩ := block_at2 t
  unfold iblk2
  rw [View.read_apply]
  show V c main_v66 _ = V c main_v66 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The weight block at any point is the weight matrix. -/
theorem wblock2_apply (c : Dev nD) (t : Fin cfg2.N) (k : Fin 128) (q : Fin 64) :
    (iblk2 V c 1 t : Vec Ideal S128x64 .bf16) (ix2 k q) = in2_w V c (ix2 k q) := by
  obtain ⟨-, -, e0, e1, -⟩ := block_at2 t
  unfold iblk2
  rw [View.read_apply]
  show V c main_v36 _ = V c main_v36 _
  congr 1
  funext a
  apply Fin.ext
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-! ## What a point writes back, and the cover -/

/-- What point `t` writes back is block `t` of `rowsTimes2` of the two arrays as the region finds them: the body's
    one store holds the payload of the two staged blocks, the feature block's row `p` is the array's row
    `10000 t + p`, the same row the result block's row `p` lands on, and the weight block is the whole matrix. -/
theorem flushed2_eq (c : Dev nD) (t : Fin cfg2.N) :
    (dat2 V c).flushed 2 t = ((cfg2.win 2).blk t).view.read (Elt Ideal) (rowsTimes2 (in2_x V c) (in2_w V c)) := by
  show (cfg2.win 2).cut (grid2.coords t) ((dat2 V c).after 2 t) = _
  rw [after2_2]
  unfold out2_2
  rw [View.canon_unit_zero zero_off2]
  simp only [View.ld_unit_zero (S := S10000x128) zero_off2, View.ld_unit_zero (S := S128x64) zero_off2]
  obtain ⟨-, -, -, -, e0, e1⟩ := block_at2 t
  have hN : cfg2.N = 10 := N_2
  funext j
  obtain ⟨p, q, rfl⟩ : ∃ (p : Fin 10000) (q : Fin 64), j = ix2 p q := ⟨j 0, j 1, eq_ix2 j⟩
  have ht : t.val < 10 := hN ▸ t.isLt
  have hp : p.val < 10000 := p.isLt
  let r : Fin 100000 := ⟨10000 * t.val + p.val, by omega⟩
  have hemb : ((cfg2.win 2).blk t).view.emb (ix2 p q) = (ix2 r q : S100000x64.Idx) := by
    funext a
    apply Fin.ext
    match a with
    | ⟨0, _⟩ => show win2_2.index t (0 : Fin 2) * 10000 + 1 * p.val = 10000 * t.val + p.val; rw [e0]; omega
    | ⟨1, _⟩ => show win2_2.index t (1 : Fin 2) * 64 + 1 * q.val = q.val; rw [e1]; omega
  show k2_pay1 (F := Ideal) (iblk2 V c 0 t) (iblk2 V c 1 t) (ix2 p q) = rowsTimes2 (in2_x V c) (in2_w V c) (((cfg2.win 2).blk t).view.emb (ix2 p q))
  rw [hemb, rowsTimes2_apply]
  refine (pay2_apply (iblk2 V c 0 t) (iblk2 V c 1 t) p q).trans ?_
  refine Finset.sum_congr rfl fun k _ => ?_
  rw [xblock2_apply V c t p k r rfl, wblock2_apply V c t k q]

/-- An index of the result array is in point `t`'s block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v67).slice (win2_2.rect t)).set ↔ _
  rw [View.set_slice_whole, Rect.mem_set_unit]
  exact Iff.rfl

/-- Row `p` of the result array lies in the block of point `p / 10000`, which is written back. -/
theorem covered2 (i : S100000x64.Idx) :
    ∃ t : Fin cfg2.N, (cfg2.win 2).flush t = true ∧ i ∈ ((cfg2.win 2).blk t).view.set := by
  have hN : cfg2.N = 10 := N_2
  have h0 : (i 0).val < 100000 := (i 0).isLt
  have h1 : (i 1).val < 64 := (i 1).isLt
  let t : Fin cfg2.N := ⟨(i 0).val / 10000, by rw [hN]; omega⟩
  obtain ⟨-, -, -, -, e0, e1⟩ := block_at2 t
  have ht : t.val = (i 0).val / 10000 := rfl
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 64 ≤ (i 1).val ∧ (i 1).val < win2_2.index t (1 : Fin 2) * 64 + 64; rw [e1]; omega

/-- The result array after the region is `rowsTimes2` of the two arrays as the region finds them. -/
theorem res2_eq (c : Dev nD) : res2 V c = rowsTimes2 (in2_x V c) (in2_w V c) :=
  (dat2 V c).arrAt_eq_of_cover 2 (rowsTimes2 (in2_x V c) (in2_w V c)) (fun t _ => flushed2_eq V c t) covered2

theorem final2 (c : Dev nD) (p : Fin 100000) (q : Fin 64) :
    res2 V c (ix2 p q) = ∑ k : Fin 128, in2_x V c (ix2 p k) * in2_w V c (ix2 k q) := by
  rw [res2_eq, rowsTimes2_apply]

end Cert.KernelIdeal.Hand

end
-- ==== Proof.KI.Final3.lean ====
/-
  Region 3's result array, at the exact values: the bias row added to the aggregated features and the maximum with
  zero, element by element; the blocks written back cover the array.
-/
import proofs.«407297_j7748121002089_3_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev in3_x (c : Dev nD) : FVec Ideal S100000x64 .f32 := V c main_v80
abbrev in3_b (c : Dev nD) : FVec Ideal S1x64 .f32 := V c main_v81
abbrev res3 (c : Dev nD) : FVec Ideal S100000x64 .f32 := (dat3 V c).arrAt 2 cfg3.N

/-! ## The payload at an index -/

/-- The zero offsets of a whole-buffer access. -/
theorem zero_off3 : (![0, 0] : Fin 2 → Nat) = fun _ => 0 := funext fun a => by fin_cases a <;> rfl

/-- The body's arithmetic at row `p`, column `q` of a block: the feature there plus the bias row's entry of that
    column (the row is spread over all the block's rows), then the larger of that and zero. -/
theorem pay3_apply (x0 : Vec Ideal S10000x64 .f32) (x1 : Vec Ideal S1x64 .f32) (p : Fin 10000) (q : Fin 64) :
    k3_pay1 (F := Ideal) x0 x1 (ix2 p q) = max (x0 (ix2 p q) + x1 (ix2 (0 : Fin 1) q)) 0 := by
  unfold k3_pay1
  rw [shapeCast_self, shapeCast_self]
  show max ((x0 (ix2 p q) : EReal) + broadcastTo S10000x64 x1 broadcasts_S1x64_S10000x64 (ix2 p q)) (Ideal.ofBits .f32 0x00000000#32) = _
  rw [Ideal.ofBits_zero_f32, broadcastTo_apply x1 broadcasts_S1x64_S10000x64 (ix2 p q) (ix2 (0 : Fin 1) q) ?_]
  intro a
  match a with
  | ⟨0, _⟩ => rfl
  | ⟨1, _⟩ => rfl

/-! ## The result as one function of the two arrays -/

/-- Row `p`, column `q` of the result: the feature there plus the bias of column `q`, clipped below at zero. -/
def biasClip3 (x : FVec Ideal S100000x64 .f32) (b : FVec Ideal S1x64 .f32) : FVec Ideal S100000x64 .f32 :=
  fun i => max (x i + b (ix2 (0 : Fin 1) (i 1 : Fin 64))) 0

theorem biasClip3_apply (x : FVec Ideal S100000x64 .f32) (b : FVec Ideal S1x64 .f32) (p : Fin 100000) (q : Fin 64) :
    biasClip3 x b (ix2 p q) = max (x (ix2 p q) + b (ix2 (0 : Fin 1) q)) 0 := rfl

/-! ## Where the blocks sit -/

/-- The block indices over the grid: at point `t` the feature window and the result window are on row block `t`,
    and the bias window on the whole row. -/
theorem block_at3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature block at point `t`, at row `p`, column `q`, is the feature array's row `10000 t + p`. -/
theorem xblock3_apply (c : Dev nD) (t : Fin cfg3.N) (p : Fin 10000) (q : Fin 64) (r : Fin 100000)
    (hr : r.val = 10000 * t.val + p.val) :
    (iblk3 V c 0 t : Vec Ideal S10000x64 .f32) (ix2 p q) = in3_x V c (ix2 r q) := by
  obtain ⟨e0, e1, -⟩ := block_at3 t
  unfold iblk3
  rw [View.read_apply]
  show V c main_v80 _ = V c main_v80 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * q.val = q.val; rw [e1]; omega

/-- The bias block at any point is the bias row. -/
theorem bblock3_apply (c : Dev nD) (t : Fin cfg3.N) (q : Fin 64) :
    (iblk3 V c 1 t : Vec Ideal S1x64 .f32) (ix2 (0 : Fin 1) q) = in3_b V c (ix2 (0 : Fin 1) q) := by
  obtain ⟨-, -, e0, e1, -⟩ := block_at3 t
  unfold iblk3
  rw [View.read_apply]
  show V c main_v81 _ = V c main_v81 _
  congr 1
  funext a
  apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega

/-! ## What a point writes back, and the cover -/

/-- What point `t` writes back is block `t` of `biasClip3` of the two arrays as the region finds them: the body's
    one store holds the payload of the two staged blocks, the feature block's row `p` is the array's row
    `10000 t + p`, the same row the result block's row `p` lands on, and the bias block is the whole bias row. -/
theorem flushed3_eq (c : Dev nD) (t : Fin cfg3.N) :
    (dat3 V c).flushed 2 t = ((cfg3.win 2).blk t).view.read (Elt Ideal) (biasClip3 (in3_x V c) (in3_b V c)) := by
  show (cfg3.win 2).cut (grid3.coords t) ((dat3 V c).after 2 t) = _
  rw [after3_2]
  unfold out3_2
  rw [View.canon_unit_zero zero_off3]
  simp only [View.ld_unit_zero (S := S10000x64) zero_off3, View.ld_unit_zero (S := S1x64) zero_off3]
  obtain ⟨-, -, -, -, e0, e1⟩ := block_at3 t
  have hN : cfg3.N = 10 := N_3
  funext j
  obtain ⟨p, q, rfl⟩ : ∃ (p : Fin 10000) (q : Fin 64), j = ix2 p q := ⟨j 0, j 1, eq_ix2 j⟩
  have ht : t.val < 10 := hN ▸ t.isLt
  have hp : p.val < 10000 := p.isLt
  let r : Fin 100000 := ⟨10000 * t.val + p.val, by omega⟩
  have hemb : ((cfg3.win 2).blk t).view.emb (ix2 p q) = (ix2 r q : S100000x64.Idx) := by
    funext a
    apply Fin.ext
    match a with
    | ⟨0, _⟩ => show win3_2.index t (0 : Fin 2) * 10000 + 1 * p.val = 10000 * t.val + p.val; rw [e0]; omega
    | ⟨1, _⟩ => show win3_2.index t (1 : Fin 2) * 64 + 1 * q.val = q.val; rw [e1]; omega
  show k3_pay1 (F := Ideal) (iblk3 V c 0 t) (iblk3 V c 1 t) (ix2 p q) = biasClip3 (in3_x V c) (in3_b V c) (((cfg3.win 2).blk t).view.emb (ix2 p q))
  rw [hemb, biasClip3_apply]
  refine (pay3_apply (iblk3 V c 0 t) (iblk3 V c 1 t) p q).trans ?_
  rw [xblock3_apply V c t p q r rfl, bblock3_apply V c t q]

/-- An index of the result array is in point `t`'s block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v82).slice (win3_2.rect t)).set ↔ _
  rw [View.set_slice_whole, Rect.mem_set_unit]
  exact Iff.rfl

/-- Row `p` of the result array lies in the block of point `p / 10000`, which is written back. -/
theorem covered3 (i : S100000x64.Idx) :
    ∃ t : Fin cfg3.N, (cfg3.win 2).flush t = true ∧ i ∈ ((cfg3.win 2).blk t).view.set := by
  have hN : cfg3.N = 10 := N_3
  have h0 : (i 0).val < 100000 := (i 0).isLt
  have h1 : (i 1).val < 64 := (i 1).isLt
  let t : Fin cfg3.N := ⟨(i 0).val / 10000, by rw [hN]; omega⟩
  obtain ⟨-, -, -, -, e0, e1⟩ := block_at3 t
  have ht : t.val = (i 0).val / 10000 := rfl
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; rw [e0, ht]; omega
  | ⟨1, _⟩ => show win3_2.index t (1 : Fin 2) * 64 ≤ (i 1).val ∧ (i 1).val < win3_2.index t (1 : Fin 2) * 64 + 64; rw [e1]; omega

/-- The result array after the region is `biasClip3` of the two arrays as the region finds them. -/
theorem res3_eq (c : Dev nD) : res3 V c = biasClip3 (in3_x V c) (in3_b V c) :=
  (dat3 V c).arrAt_eq_of_cover 2 (biasClip3 (in3_x V c) (in3_b V c)) (fun t _ => flushed3_eq V c t) covered3

theorem final3 (c : Dev nD) (p : Fin 100000) (q : Fin 64) :
    res3 V c (ix2 p q) = max (in3_x V c (ix2 p q) + in3_b V c (ix2 (0 : Fin 1) q)) 0 := by
  rw [res3_eq, biasClip3_apply]

end Cert.KernelIdeal.Hand

end
-- ==== Proof.KI.Final4.lean ====
/-
  Region 4's result array, at the exact values: the one output block is written back once, after the last grid point,
  holding the scratch accumulator; the accumulator after the eight points is, at graph `g` and column `f`, the sum over
  all 102400 padded node rows `n` of the indicator "row `n`'s graph id is `g`" times the row's feature.

  Three steps. (1) One grid point's update at an entry: the payload adds to the accumulator's entry the product of a
  one-hot matrix (row `g`, column `j`: is the id at column `j` of the point's id block equal to `g`?) with the point's
  feature block, a sum over the block's 12800 rows; the reset value is the zero splat. (2) The blocks a point finds are
  stretches of the padded arrays: column `j` of point `t`'s id block is column `12800·t + j` of the id array, row `j` of
  its feature block is row `12800·t + j` of the feature array; so by induction the accumulator after point `n` is the sum
  of the contributions of the points `0 … n`, and the double sum over (point, row in the block) is one sum over the
  102400 rows. (3) The output window's one block is the whole 64×64 array and is written back after the last point
  only, so the array ends holding the accumulator after point 7.
-/
import proofs.«407297_j7748121002089_3_alg».proof.Proof.KI.Reg4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev in4_b (c : Dev nD) : IVec S1x102400 32 := V c main_v85
abbrev in4_h (c : Dev nD) : FVec Ideal S102400x64 .f32 := V c main_v84
abbrev res4 (c : Dev nD) : FVec Ideal S64x64 .f32 := (dat4 V c).arrAt 2 cfg4.N

/-! ## One grid point's update at an entry -/

/-- The operand indices of the block product (a 64×12800 matrix times a 12800×64 matrix, contracting the 12800 axis),
    axis by axis: the left operand is read at (output row, contraction index), -/
theorem pool4_lhs_0 (i : S64x64.Idx) (q : dot_S64x12800_S12800x64_S64x64_1_0_0_1_n_n.contr.Idx) :
    (dot_S64x12800_S12800x64_S64x64_1_0_0_1_n_n.lhsIdx i q 0).val = (i 0).val := by
  unfold DotDims.lhsIdx
  rw [dif_neg (show ¬(0 : Fin S64x12800.rank) ∈ dot_S64x12800_S12800x64_S64x64_1_0_0_1_n_n.lhsBatch by decide), dif_pos (show (0 : Fin S64x12800.rank) ∈ dot_S64x12800_S12800x64_S64x64_1_0_0_1_n_n.lhsNonContracting by decide)]
  rfl
theorem pool4_lhs_1 (i : S64x64.Idx) (q : dot_S64x12800_S12800x64_S64x64_1_0_0_1_n_n.contr.Idx) :
    (dot_S64x12800_S12800x64_S64x64_1_0_0_1_n_n.lhsIdx i q 1).val = (q ⟨0, by decide⟩).val :=
  dot_S64x12800_S12800x64_S64x64_1_0_0_1_n_n.lhsIdx_val_of_single rfl i q
/-- and the right operand at (contraction index, output column). -/
theorem pool4_rhs_0 (i : S64x64.Idx) (q : dot_S64x12800_S12800x64_S64x64_1_0_0_1_n_n.contr.Idx) :
    (dot_S64x12800_S12800x64_S64x64_1_0_0_1_n_n.rhsIdx i q 0).val = (q ⟨0, by decide⟩).val :=
  dot_S64x12800_S12800x64_S64x64_1_0_0_1_n_n.rhsIdx_val_of_single rfl i q
theorem pool4_rhs_1 (i : S64x64.Idx) (q : dot_S64x12800_S12800x64_S64x64_1_0_0_1_n_n.contr.Idx) :
    (dot_S64x12800_S12800x64_S64x64_1_0_0_1_n_n.rhsIdx i q 1).val = (i 1).val := by
  unfold DotDims.rhsIdx
  rw [dif_neg (show ¬(1 : Fin S12800x64.rank) ∈ dot_S64x12800_S12800x64_S64x64_1_0_0_1_n_n.rhsBatch by decide), dif_pos (show (1 : Fin S12800x64.rank) ∈ dot_S64x12800_S12800x64_S64x64_1_0_0_1_n_n.rhsNonContracting by decide)]
  rfl

/-- The block product into the zero splat, at row `g` and column `f`: the sum over the block's 12800 rows `j` of the left
    operand at (g, j) times the right operand at (j, f). -/
theorem pool4_matmul_apply (L : FVec Ideal S64x12800 .bf16) (R : FVec Ideal S12800x64 .bf16) (g : Fin 64) (f : Fin 64) :
    matmul dot_S64x12800_S12800x64_S64x64_1_0_0_1_n_n none L R (constant (F := Ideal) S64x64 .f32 0x00000000#32) (ix2 g f)
      = ∑ j : Fin 12800, L (ix2 g j) * R (ix2 j f) := by
  simp only [matmul]
  rw [Ideal.matmul_constant_zero_apply, ← Equiv.sum_comp (ValueIdx.contrEquiv1 dot_S64x12800_S12800x64_S64x64_1_0_0_1_n_n 12800 rfl rfl).symm]
  refine Finset.sum_congr rfl fun k _ => ?_
  have hk := ValueIdx.contrEquiv1_symm_val dot_S64x12800_S12800x64_S64x64_1_0_0_1_n_n 12800 rfl rfl k
  have el : dot_S64x12800_S12800x64_S64x64_1_0_0_1_n_n.lhsIdx (ix2 g f) ((ValueIdx.contrEquiv1 dot_S64x12800_S12800x64_S64x64_1_0_0_1_n_n 12800 rfl rfl).symm k) = ix2 g k := funext fun a => Fin.ext (by
    match a with
    | ⟨0, _⟩ => exact pool4_lhs_0 _ _
    | ⟨1, _⟩ => exact (pool4_lhs_1 _ _).trans hk)
  have er : dot_S64x12800_S12800x64_S64x64_1_0_0_1_n_n.rhsIdx (ix2 g f) ((ValueIdx.contrEquiv1 dot_S64x12800_S12800x64_S64x64_1_0_0_1_n_n 12800 rfl rfl).symm k) = ix2 k f := funext fun a => Fin.ext (by
    match a with
    | ⟨0, _⟩ => exact (pool4_rhs_0 _ _).trans hk
    | ⟨1, _⟩ => exact pool4_rhs_1 _ _)
  rw [el, er]

/-- A one-bit word widened to 32 bits and converted as a signed integer is, as an extended real, 1 for the bit 1 and 0
    for the bit 0. -/
theorem pool4_sitofp_bit (b : BitVec 1) :
    (FloatOps.sitofp (F := Ideal) .f32 (b.setWidth 32) : EReal) = if b = 1#1 then 1 else 0 := by
  rcases BitVec.eq_zero_or_eq_one b with h | h <;> subst h
  · show ((((0#1 : BitVec 1).setWidth 32).toInt : ℝ) : EReal) = _
    rw [if_neg (by decide)]
    have : ((0#1 : BitVec 1).setWidth 32).toInt = 0 := by decide
    rw [this]; simp
  · show ((((1#1 : BitVec 1).setWidth 32).toInt : ℝ) : EReal) = _
    rw [if_pos rfl]
    have : ((1#1 : BitVec 1).setWidth 32).toInt = 1 := by decide
    rw [this]; simp

/-- The one-hot matrix of a block of graph ids: the row counter along axis 0 compared with the ids broadcast down the
    rows. At graph row `g` and block column `j` it is 1 when the id at column `j` is the word of `g`, else 0 (rounding
    to the narrower float format is the identity at the exact values). -/
theorem pool4_onehot_apply (b : Vec Ideal S1x12800 .i32) (g : Fin 64) (j : Fin 12800) :
    (truncf .bf16 (sitofp (F := Ideal) .f32 (extui 32 (cmpi .eq (iota .tc S64x12800 32 [0] iota_S64x12800_d0_w32)
        (broadcastTo S64x12800 b broadcasts_S1x12800_S64x12800)) natLt_1_32)) bitsLt_bf16_f32
      : FVec Ideal S64x12800 .bf16) (ix2 g j)
      = if b (ix2 (0 : Fin 1) j) = BitVec.ofNat 32 g.val then (1 : EReal) else 0 := by
  show (FloatOps.sitofp (F := Ideal) .f32 ((IntOp.cmpi .eq (iota .tc S64x12800 32 [0] iota_S64x12800_d0_w32 (ix2 g j))
      (broadcastTo S64x12800 b broadcasts_S1x12800_S64x12800 (ix2 g j))).setWidth 32) : EReal) = _
  rw [pool4_sitofp_bit, iota_single_apply, broadcastTo_1b_ab_apply]
  refine if_congr ?_ rfl rfl
  rw [IntOp.cmpi_eq]
  exact eq_comm

/-- ONE GRID POINT'S UPDATE at an entry: the accumulator's entry plus, over the block's 12800 rows `j`, the indicator
    that row `j`'s graph id is `g` times row `j`'s feature at column `f`. -/
theorem pool4_step_apply (b : Vec Ideal S1x12800 .i32) (a : Vec Ideal S64x64 .f32) (h : Vec Ideal S12800x64 .f32)
    (g : Fin 64) (f : Fin 64) :
    (k4_pay2 b a h : FVec Ideal S64x64 .f32) (ix2 g f)
      = a (ix2 g f) + ∑ j : Fin 12800, (if b (ix2 (0 : Fin 1) j) = BitVec.ofNat 32 g.val then (1 : EReal) else 0) * h (ix2 j f) := by
  unfold k4_pay2
  simp only [shapeCast_self]
  show a (ix2 g f) + _ = _
  refine congrArg (a (ix2 g f) + ·) ?_
  refine (pool4_matmul_apply _ _ g f).trans ?_
  refine Finset.sum_congr rfl fun j _ => ?_
  rw [pool4_onehot_apply]
  rfl

/-- The reset value, the zero splat, is 0 at every entry. -/
theorem pool4_zero_apply (g : Fin 64) (f : Fin 64) : (k4_pay1 (F := Ideal)) (ix2 g f) = (0 : EReal) := by
  show Ideal.ofBits .f32 0x00000000#32 = 0
  exact Ideal.ofBits_zero_f32

/-! ## The blocks a point finds, as stretches of the padded arrays -/

theorem pool4_lt {n : ℕ} (hn : n < 8) : n < cfg4.N := by rw [show cfg4.N = 8 from N_4]; exact hn

/-- The graph-id block and the feature block that grid point `t` finds, as vectors of their literal shapes. -/
abbrev pool4_ids (c : Dev nD) (t : Fin cfg4.N) : Vec Ideal S1x12800 .i32 := iblk4 V c 0 t
abbrev pool4_feat (c : Dev nD) (t : Fin cfg4.N) : Vec Ideal S12800x64 .f32 := iblk4 V c 1 t

/-- The block indices over the grid: the id window moves along its columns with the point, the feature window along its
    rows. -/
theorem pool4_idx_facts : ∀ t : Fin cfg4.N, win4_0.index t (0 : Fin 2) = 0 ∧ win4_0.index t (1 : Fin 2) = t.val
    ∧ win4_1.index t (0 : Fin 2) = t.val ∧ win4_1.index t (1 : Fin 2) = 0 :=
  (by decide +kernel : ∀ t : Fin grid4.N, _)

/-- Column `j` of point `t`'s id block is column `12800·t + j` of the id array (on each axis an element of a block sits at
    block index × block size + its coordinate in the block). -/
theorem pool4_ids_apply (c : Dev nD) (t : Fin cfg4.N) (j : Fin 12800) (n : Fin 102400) (hn : n.val = 12800 * t.val + j.val) :
    pool4_ids V c t (ix2 (0 : Fin 1) j) = in4_b V c (ix2 (0 : Fin 1) n) := by
  obtain ⟨e0, e1, -, -⟩ := pool4_idx_facts t
  show iblk4 V c 0 t (ix2 (0 : Fin 1) j) = _
  unfold iblk4
  rw [View.read_apply]
  show V c main_v85 _ = V c main_v85 _
  refine congrArg _ (funext fun a => Fin.ext ?_)
  match a with
  | ⟨0, _⟩ => show win4_0.index t (0 : Fin 2) * 1 + 1 * 0 = 0; rw [e0]
  | ⟨1, _⟩ => show win4_0.index t (1 : Fin 2) * 12800 + 1 * j.val = n.val; rw [e1, hn]; omega

/-- Row `j` of point `t`'s feature block is row `12800·t + j` of the feature array. -/
theorem pool4_feat_apply (c : Dev nD) (t : Fin cfg4.N) (j : Fin 12800) (f : Fin 64) (n : Fin 102400)
    (hn : n.val = 12800 * t.val + j.val) :
    pool4_feat V c t (ix2 j f) = in4_h V c (ix2 n f) := by
  obtain ⟨-, -, e0, e1⟩ := pool4_idx_facts t
  show iblk4 V c 1 t (ix2 j f) = _
  unfold iblk4
  rw [View.read_apply]
  show V c main_v84 _ = V c main_v84 _
  refine congrArg _ (funext fun a => Fin.ext ?_)
  match a with
  | ⟨0, _⟩ => show win4_1.index t (0 : Fin 2) * 12800 + 1 * j.val = n.val; rw [e0, hn]; omega
  | ⟨1, _⟩ => show win4_1.index t (1 : Fin 2) * 64 + 1 * f.val = f.val; rw [e1]; omega

/-! ## The accumulator after each point -/

/-- Row `j` of grid point `t`'s blocks, as a row of the padded arrays: `12800·t + j`. -/
def pool4_row (t : Fin 8) (j : Fin 12800) : Fin 102400 :=
  ⟨12800 * t.val + j.val, by have := t.isLt; have := j.isLt; omega⟩

/-- Grid point `t`'s contribution to the entry at graph `g` and column `f`: over the point's 12800 rows, the indicator
    that the row belongs to graph `g` times the row's feature. -/
def pool4_term (c : Dev nD) (g f : Fin 64) (t : Fin 8) : EReal :=
  ∑ j : Fin 12800, (if in4_b V c (ix2 (0 : Fin 1) (pool4_row t j)) = BitVec.ofNat 32 g.val then (1 : EReal) else 0)
    * in4_h V c (ix2 (pool4_row t j) f)

/-- The same sum written over the blocks the point finds. -/
theorem pool4_point_sum (c : Dev nD) (g f : Fin 64) (t : Fin 8) :
    ∑ j : Fin 12800, (if pool4_ids V c ⟨t.val, pool4_lt t.isLt⟩ (ix2 (0 : Fin 1) j) = BitVec.ofNat 32 g.val then (1 : EReal) else 0)
        * pool4_feat V c ⟨t.val, pool4_lt t.isLt⟩ (ix2 j f)
      = pool4_term V c g f t := by
  unfold pool4_term
  refine Finset.sum_congr rfl fun j _ => ?_
  rw [pool4_ids_apply V c ⟨t.val, pool4_lt t.isLt⟩ j (pool4_row t j) rfl, pool4_feat_apply V c ⟨t.val, pool4_lt t.isLt⟩ j f (pool4_row t j) rfl]

/-- THE ACCUMULATOR AFTER POINT `n`, at an entry: the contributions of the points `0 … n` added up. By induction on `n`:
    the first point adds its contribution to the zero splat, every later one to what the point before left. -/
theorem pool4_acc_apply (c : Dev nD) (g f : Fin 64) : ∀ (n : ℕ) (hn : n < 8),
    acc4 V c n (pool4_lt hn) (ix2 g f) = ∑ t : Fin (n + 1), pool4_term V c g f ⟨t.val, by have := t.isLt; omega⟩
  | 0, hn => by
    rw [acc4_zero]
    refine (pool4_step_apply (pool4_ids V c ⟨0, pool4_lt hn⟩) (k4_pay1 (F := Ideal)) (pool4_feat V c ⟨0, pool4_lt hn⟩) g f).trans ?_
    rw [pool4_zero_apply, zero_add, Fin.sum_univ_one]
    exact pool4_point_sum V c g f ⟨0, hn⟩
  | n + 1, hn => by
    rw [acc4_succ, Fin.sum_univ_castSucc (n := n + 1)]
    refine (pool4_step_apply (pool4_ids V c ⟨n + 1, pool4_lt hn⟩) (acc4 V c n (pool4_lt (Nat.lt_of_succ_lt hn))) (pool4_feat V c ⟨n + 1, pool4_lt hn⟩) g f).trans ?_
    rw [pool4_acc_apply c g f n (Nat.lt_of_succ_lt hn)]
    exact congrArg₂ (· + ·) rfl (pool4_point_sum V c g f ⟨n + 1, hn⟩)

/-- A sum over the eight points and the 12800 rows of each is one sum over the 102400 rows: (t, j) ↦ 12800·t + j is a
    bijection from pairs onto the rows (102400 = 8 · 12800). -/
theorem pool4_regroup (G : Fin 102400 → EReal) :
    ∑ t : Fin 8, ∑ j : Fin 12800, G (pool4_row t j) = ∑ n : Fin 102400, G n := by
  rw [← Fintype.sum_prod_type' (f := fun (t : Fin 8) (j : Fin 12800) => G (pool4_row t j))]
  refine Fintype.sum_equiv (finProdFinEquiv (m := 8) (n := 12800)) _ _ fun x => congrArg G (Fin.ext ?_)
  show 12800 * x.1.val + x.2.val = x.2.val + 12800 * x.1.val
  omega

/-! ## From the one write-back to the array -/

/-- The output window over the grid: its block index is (0, 0) at every point, and the part of the block a transfer moves
    is the whole 64×64 array. -/
theorem pool4_out_facts : ∀ (t : Fin cfg4.N) (a : Fin 2), win4_2.index t a = 0 ∧ win4_2.xsize (grid4.coords t) a = S64x64.size a :=
  (by decide +kernel : ∀ (t : Fin grid4.N) (a : Fin 2), _)

/-- The last of the eight grid points. -/
theorem pool4_last_lt : 7 < cfg4.N := pool4_lt (by decide)

/-- The one write-back of the output window, after the last point, writes the accumulator as the last point leaves it:
    a point writes back exactly when it is point 7, and the window's block, read through zero offsets, is the array. -/
theorem pool4_flushed_eq (c : Dev nD) (t : Fin cfg4.N) (hf : (cfg4.win 2).flush t = true) :
    (dat4 V c).flushed 2 t = ((cfg4.win 2).blk t).view.read (Elt Ideal) (acc4 V c 7 pool4_last_lt) := by
  have hN : cfg4.N = 8 := N_4
  have h7 : t.val = 7 := by have := (flush4_2 t).mp hf; have := t.isLt; omega
  obtain rfl : t = t4_7 := Fin.ext h7
  show (cfg4.win 2).cut (grid4.coords t4_7) ((dat4 V c).after 2 t4_7) = _
  rw [after4_2]
  have hz : (fun a => win4_2.index t4_7 a * main_v86.ty.shape.size a) = fun _ => 0 :=
    funext fun a => by rw [(pool4_out_facts t4_7 a).1, Nat.zero_mul]
  exact (Memref.read_access_unit_zero (Elt Ideal) main_v86 hz (fun a => by rw [congrFun hz a, Nat.zero_add])
    (acc4 V c 7 pool4_last_lt)).symm

/-- So the output array ends holding the accumulator after the last point: every index of the 64×64 array lies in the
    block the last point writes back. -/
theorem pool4_final (c : Dev nD) : (dat4 V c).arrAt 2 cfg4.N = acc4 V c 7 pool4_last_lt :=
  (dat4 V c).arrAt_eq_of_cover 2 (acc4 V c 7 pool4_last_lt) (pool4_flushed_eq V c) fun i =>
    ⟨t4_7, (flush4_2 t4_7).mpr rfl, by
      show i ∈ ((View.whole main_v86).slice (win4_2.rect t4_7)).set
      rw [View.set_slice_whole, Rect.mem_set_unit]
      intro a
      obtain ⟨e0, e1⟩ := pool4_out_facts t4_7 a
      show win4_2.index t4_7 a * win4_2.size a ≤ (i a).val
        ∧ (i a).val < win4_2.index t4_7 a * win4_2.size a + win4_2.xsize (grid4.coords t4_7) a
      rw [e0, e1, Nat.zero_mul, Nat.zero_add]
      exact ⟨Nat.zero_le _, (i a).isLt⟩⟩

theorem final4 (c : Dev nD) (g : Fin 64) (f : Fin 64) :
    res4 V c (ix2 g f)
      = ∑ n : Fin 102400, (if in4_b V c (ix2 (0 : Fin 1) n) = BitVec.ofNat 32 g.val then (1 : EReal) else 0) * in4_h V c (ix2 n f) := by
  show (dat4 V c).arrAt 2 cfg4.N (ix2 g f) = _
  rw [pool4_final V c, pool4_acc_apply V c g f 7 (by decide)]
  exact pool4_regroup (fun n => (if in4_b V c (ix2 (0 : Fin 1) n) = BitVec.ofNat 32 g.val then (1 : EReal) else 0) * in4_h V c (ix2 n f))

end Cert.KernelIdeal.Hand

end
-- ==== Proof.PoolBridge.lean ====
/-
  The pooling region's sum over the 102400 padded rows is the sum over each graph's nodes: a padded row carries the
  graph id 64, which is no graph's, and a zero feature row; a real row `n` counts for graph `g` exactly when its id,
  read signed, is `g`. No finiteness is needed: `0 · x = 0` and `1 · x = x` for every extended real.
-/
import proofs.«407297_j7748121002089_3_alg».proof.Proof.Spec

noncomputable section

open scoped BigOperators

namespace Cert.PoolBridge

open Cert.Spec Cert.GcnMath Cert.ReferenceIdeal Cert.ReferenceIdeal.Read
open Idealize.ShloMosaic Idealize.ShloMosaic.ValueIdx Idealize.ShloMosaic.RowIndex

/-- A sum over `Fin b` whose terms vanish from position `a` on is the sum over the first `a` positions. -/
theorem sum_fin_of_tail_zero {a b : Nat} (hab : a ≤ b) (F : Fin b → EReal)
    (hz : ∀ n : Fin b, a ≤ n.val → F n = 0) :
    ∑ n : Fin b, F n = ∑ m : Fin a, F (Fin.castLE hab m) := by
  obtain ⟨c, rfl⟩ := Nat.exists_eq_add_of_le hab
  rw [Fin.sum_univ_add]
  have htail : ∑ i : Fin c, F (Fin.natAdd a i) = 0 :=
    Finset.sum_eq_zero (fun i _ => hz _ (by rw [Fin.coe_natAdd]; exact Nat.le_add_right a i.val))
  rw [htail, add_zero]
  rfl

/-- The word of a graph number, read signed, is that number: it is far below 2³¹. -/
theorem toInt_ofNat_graph (g : Fin 64) : (BitVec.ofNat 32 g.val).toInt = (g.val : Int) := by
  have hg := g.isLt
  rw [BitVec.toInt_eq_toNat_cond, BitVec.toNat_ofNat]
  have hmod : g.val % 2 ^ 32 = g.val := Nat.mod_eq_of_lt (by omega)
  rw [hmod, if_pos (by omega)]

/-- A word read signed lands on graph `g` exactly when it is `g`'s word. -/
theorem land_word_iff (v : BitVec 32) (g : Fin 64) :
    (if h : 0 ≤ v.toInt ∧ v.toInt < (64 : Nat) then some (⟨v.toInt.toNat, by omega⟩ : Fin 64) else none) = some g
      ↔ v = BitVec.ofNat 32 g.val := by
  constructor
  · intro hv
    by_cases h : 0 ≤ v.toInt ∧ v.toInt < (64 : Nat)
    · rw [dif_pos h] at hv
      have hval : v.toInt.toNat = g.val := congrArg Fin.val (Option.some.inj hv)
      apply BitVec.eq_of_toInt_eq
      rw [toInt_ofNat_graph]
      omega
    · rw [dif_neg h] at hv
      exact absurd hv (by simp)
  · intro hv
    have ht : v.toInt = (g.val : Int) := by rw [hv, toInt_ofNat_graph]
    have hg := g.isLt
    have h : 0 ≤ v.toInt ∧ v.toInt < (64 : Nat) := by omega
    rw [dif_pos h]
    congr 1
    apply Fin.ext
    show v.toInt.toNat = g.val
    omega

/-- The id column read at row `n` is the id vector at `n`. -/
theorem idcol_apply (x3 : TB) (n : Fin 100000) :
    val_main_v93 (F := Ideal) x3 (ix2 n (0 : Fin 1)) = x3 (ix1 n) := by
  rw [val_main_v93_apply]
  congr 1
  funext a
  match a with
  | ⟨0, _⟩ => rfl

/-- Node `n` belongs to graph `g` exactly when its id is `g`'s word. -/
theorem graphOf_eq_some_iff (x3 : TB) (n : Fin 100000) (g : Fin 64) :
    graphOf x3 n = some g ↔ x3 (ix1 n) = BitVec.ofNat 32 g.val := by
  unfold graphOf rowLand
  rw [← idcol_apply x3 n]
  exact land_word_iff (val_main_v93 (F := Ideal) x3 (ix2 n (0 : Fin 1))) g

theorem pool_bridge (x3 : TB) (pb : IVec (⟨2, ![1, 102400]⟩ : Shape) 32) (ph : FVec Ideal (⟨2, ![102400, 64]⟩ : Shape) .f32)
    (h3 : FVec Ideal (⟨2, ![100000, 64]⟩ : Shape) .f32)
    (hb : ∀ n : Fin 102400, pb (ix2 (0 : Fin 1) n) = if h : n.val < 100000 then x3 (ix1 (⟨n.val, h⟩ : Fin 100000)) else 64#32)
    (hh : ∀ (n : Fin 102400) (f : Fin 64), ph (ix2 n f) = if h : n.val < 100000 then h3 (ix2 (⟨n.val, h⟩ : Fin 100000) f) else 0)
    (g f : Fin 64) :
    (∑ n : Fin 102400, (if pb (ix2 (0 : Fin 1) n) = BitVec.ofNat 32 g.val then (1 : EReal) else 0) * ph (ix2 n f))
      = Pooled x3 (cur2 h3) g f := by
  have hle : 100000 ≤ 102400 := by decide
  -- the padding rows carry a zero feature row: their terms vanish
  rw [sum_fin_of_tail_zero hle _ (fun n hn => by
    rw [hh n f, dif_neg (Nat.not_lt.mpr hn), mul_zero])]
  -- a real row reads the id vector and the feature matrix
  have hreal : ∀ m : Fin 100000,
      (if pb (ix2 (0 : Fin 1) (Fin.castLE hle m)) = BitVec.ofNat 32 g.val then (1 : EReal) else 0)
          * ph (ix2 (Fin.castLE hle m) f)
        = (if graphOf x3 m = some g then (1 : EReal) else 0) * cur2 h3 m f := by
    intro m
    have hm : (Fin.castLE hle m).val < 100000 := m.isLt
    rw [hb (Fin.castLE hle m), hh (Fin.castLE hle m) f, dif_pos hm, dif_pos hm]
    have hidx : (⟨(Fin.castLE hle m).val, hm⟩ : Fin 100000) = m := Fin.ext rfl
    rw [hidx]
    by_cases hg : graphOf x3 m = some g
    · rw [if_pos hg, if_pos ((graphOf_eq_some_iff x3 m g).mp hg)]
      rfl
    · rw [if_neg hg, if_neg (fun hv => hg ((graphOf_eq_some_iff x3 m g).mpr hv))]
      rfl
  rw [Finset.sum_congr rfl (fun m _ => hreal m)]
  -- the indicator sum is the sum over the graph's nodes
  rw [sum_indicator_mul]
  rfl

end Cert.PoolBridge

end
-- ==== Proof.KI.KerValue.lean ====
/-
  The kernel program's buffers as the spec's functions, at the exact values: each region's result array is read at
  an index through its inputs (the host operations' results before it), layer after layer — the first two layers as
  "aggregate, then multiply", the third as "multiply, then aggregate" —, the pooling region's result as the features
  summed over each graph's nodes, and the program's result as the shared tail of those sums.
-/
import proofs.«407297_j7748121002089_3_alg».proof.Proof.KI.KerHostB
import proofs.«407297_j7748121002089_3_alg».proof.Proof.KI.Final0
import proofs.«407297_j7748121002089_3_alg».proof.Proof.KI.Final1
import proofs.«407297_j7748121002089_3_alg».proof.Proof.KI.Final2
import proofs.«407297_j7748121002089_3_alg».proof.Proof.KI.Final3
import proofs.«407297_j7748121002089_3_alg».proof.Proof.KI.Final4
import proofs.«407297_j7748121002089_3_alg».proof.Proof.PoolBridge

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.RowIndex
open Cert.GcnMath Cert.Spec

variable (m : (ℓ : Loc nD τ sig) → Buf (Elt Ideal) ℓ) (ρ : Dev nD → PrngReg) (c : Dev nD)

/-- Region 0's result: the first layer, aggregated first. -/
theorem kv_h1 (p : Fin 100000) (q : Fin 64) :
    w4_h1 m ρ c (ix2 p q) = K1 (a0 m c) (a1 m c) (a2 m c) (a4 m c) (a5 m c) p q := by
  have hW : w4_h1 m ρ c = res0 (V3 m ρ) c := W4_arr m ρ c 3
  rw [hW, final0 (V3 m ρ) c p q]
  have hs : (∑ k : Fin 16, in0_x (V3 m ρ) c (ix2 p k) * in0_w (V3 m ρ) c (ix2 k q))
      = ∑ k : Fin 16, Agg (row (a1 m c)) (land (a1 m c)) (nv (a1 m c) (a2 m c)) (cur2 (a0 m c)) p k * cur2 (a4 m c) k q :=
    Finset.sum_congr rfl fun k _ => by
      rw [show in0_x (V3 m ρ) c (ix2 p k) = w3_agg m ρ c (ix2 p k) from rfl, kh_agg1,
        show in0_w (V3 m ρ) c (ix2 k q) = w3_w1 m ρ c (ix2 k q) from rfl, kh_w1]
      rfl
  have hb : in0_b (V3 m ρ) c (ix2 (0 : Fin 1) q) = cur1 (a5 m c) q := kh_b1 m ρ c q
  rw [hs, hb]
  rfl

/-- Region 1's result: the second layer, aggregated first, over region 0's result. -/
theorem kv_h2 (p : Fin 100000) (q : Fin 128) :
    w6_h2 m ρ c (ix2 p q) = K2 (a1 m c) (a2 m c) (cur2 (w4_h1 m ρ c)) (a6 m c) (a7 m c) p q := by
  have hW : w6_h2 m ρ c = res1 (V5 m ρ) c := W6_arr m ρ c 3
  rw [hW, final1 (V5 m ρ) c p q]
  have hs : (∑ k : Fin 64, in1_x (V5 m ρ) c (ix2 p k) * in1_w (V5 m ρ) c (ix2 k q))
      = ∑ k : Fin 64, Agg (row (a1 m c)) (land (a1 m c)) (nv (a1 m c) (a2 m c)) (cur2 (w4_h1 m ρ c)) p k * cur2 (a6 m c) k q :=
    Finset.sum_congr rfl fun k _ => by
      rw [show in1_x (V5 m ρ) c (ix2 p k) = w5_agg m ρ c (ix2 p k) from rfl, kh_agg2,
        show in1_w (V5 m ρ) c (ix2 k q) = w5_w2 m ρ c (ix2 k q) from rfl, kh_w2']
      rfl
  have hb : in1_b (V5 m ρ) c (ix2 (0 : Fin 1) q) = cur1 (a7 m c) q := kh_b2 m ρ c q
  rw [hs, hb]
  rfl

/-- Region 2's result: the product of region 1's result with the third weight matrix. -/
theorem kv_xw (p : Fin 100000) (q : Fin 64) :
    w7_xw m ρ c (ix2 p q) = MM (cur2 (w6_h2 m ρ c)) (cur2 (a8 m c)) p q := by
  have hW : w7_xw m ρ c = res2 (V6 m ρ) c := W7_arr m ρ c 2
  rw [hW, final2 (V6 m ρ) c p q]
  unfold MM
  refine Finset.sum_congr rfl fun k _ => ?_
  rw [show in2_w (V6 m ρ) c (ix2 k q) = w6_w3 m ρ c (ix2 k q) from rfl, kh_w3']
  rfl

/-- Region 3's result: the third layer, over region 1's result. -/
theorem kv_h3 (p : Fin 100000) (q : Fin 64) :
    w9_h3 m ρ c (ix2 p q) = K3 (a1 m c) (a2 m c) (cur2 (w6_h2 m ρ c)) (a8 m c) (a9 m c) p q := by
  have hW : w9_h3 m ρ c = res3 (V8 m ρ) c := W9_arr m ρ c 2
  rw [hW, final3 (V8 m ρ) c p q]
  have hs : in3_x (V8 m ρ) c (ix2 p q)
      = Agg (row (a1 m c)) (land (a1 m c)) (nv (a1 m c) (a2 m c)) (MM (cur2 (w6_h2 m ρ c)) (cur2 (a8 m c))) p q := by
    rw [show in3_x (V8 m ρ) c (ix2 p q) = w8_agg m ρ c (ix2 p q) from rfl, kh_agg3]
    unfold Agg
    refine Finset.sum_congr rfl fun e _ => ?_
    rw [show cur2 (w7_xw m ρ c) (row (a1 m c) e) q = w7_xw m ρ c (ix2 (row (a1 m c) e) q) from rfl, kv_xw]
  have hb : in3_b (V8 m ρ) c (ix2 (0 : Fin 1) q) = cur1 (a9 m c) q := kh_b3 m ρ c q
  rw [hs, hb]
  rfl

/-- Region 4's result: region 3's result summed over each graph's nodes. -/
theorem kv_pool : w15_pool m ρ c = arr2 (Pooled (a3 m c) (cur2 (w9_h3 m ρ c))) := by
  funext j
  obtain ⟨g, f, rfl⟩ : ∃ (g : Fin 64) (f : Fin 64), j = ix2 g f := ⟨j 0, j 1, eq_ix2 j⟩
  rw [arr2_ix2]
  have hW : w15_pool m ρ c = res4 (V14 m ρ) c := W15_arr m ρ c 2
  rw [hW, final4 (V14 m ρ) c g f]
  exact Cert.PoolBridge.pool_bridge (a3 m c) (w14_pb m ρ c) (w14_ph m ρ c) (w9_h3 m ρ c)
    (kh_padb m ρ c) (kh_padh m ρ c) g f

/-- THE KERNEL'S RESULT: the shared tail of the pooled sums of the three layers as the kernel computes them. -/
theorem kv_result :
    w16_res m ρ c
      = tail (arr2 (Pooled (a3 m c)
          (K3 (a1 m c) (a2 m c)
            (K2 (a1 m c) (a2 m c) (K1 (a0 m c) (a1 m c) (a2 m c) (a4 m c) (a5 m c)) (a6 m c) (a7 m c))
            (a8 m c) (a9 m c))))
        (a3 m c) (a10 m c) (a11 m c) := by
  have e1 : cur2 (w4_h1 m ρ c) = K1 (a0 m c) (a1 m c) (a2 m c) (a4 m c) (a5 m c) :=
    funext fun p => funext fun q => kv_h1 m ρ c p q
  have e2 : cur2 (w6_h2 m ρ c)
      = K2 (a1 m c) (a2 m c) (K1 (a0 m c) (a1 m c) (a2 m c) (a4 m c) (a5 m c)) (a6 m c) (a7 m c) :=
    funext fun p => funext fun q => (kv_h2 m ρ c p q).trans (by rw [e1])
  have e3 : cur2 (w9_h3 m ρ c)
      = K3 (a1 m c) (a2 m c)
          (K2 (a1 m c) (a2 m c) (K1 (a0 m c) (a1 m c) (a2 m c) (a4 m c) (a5 m c)) (a6 m c) (a7 m c)) (a8 m c) (a9 m c) :=
    funext fun p => funext fun q => (kv_h3 m ρ c p q).trans (by rw [e2])
  rw [kh_tail, kv_pool, e3]

end Cert.KernelIdeal.Hand

end
-- ==== Proof.RefValue.lean ====
/-
  The reference's result as the specification, at the exact values (extended reals).

  The reference computes three graph-convolution layers, a sum of the node features over the nodes of each graph,
  and a last linear map. One layer on an input matrix is: the matrix product with the layer's weights; the rows of
  that product taken at each edge's (normalized) source node; each taken row scaled by the edge's coefficient; the
  scaled rows added into the row of the edge's destination node, starting from zeros; the bias row added; the
  maximum with zero. Read at a node and a feature this is
  ReluB (Agg row land nv (MM H W)) b: a plain finite sum over the edges landing on the node of plain finite sums
  over the contracted axis. The pooled sums are one more "add rows" with the graph ids as the index column, and
  the last operations are, literally, the tail the specification names.
-/
import proofs.«407297_j7748121002089_3_alg».proof.Proof.Spec

noncomputable section

open scoped BigOperators

namespace Cert.RefValue

open Cert.Spec Cert.GcnMath Cert.ReferenceIdeal Cert.ReferenceIdeal.Gen Cert.ReferenceIdeal.Read
open Idealize.ShloMosaic Idealize.ShloMosaic.ValueIdx Idealize.ShloMosaic.RowIndex

/-! ## The index columns: every layer recomputes the same two columns -/

/-- The normalized source column of the first layer is the specification's. -/
theorem src1_eq (x1 : TE) : val_main_v40 (F := Ideal) x1 = srcCol x1 := rfl
/-- … and so are the second layer's … -/
theorem src2_eq (x1 : TE) : val_main_v58 (F := Ideal) x1 = srcCol x1 := rfl
/-- … and the third layer's. -/
theorem src3_eq (x1 : TE) : val_main_v76 (F := Ideal) x1 = srcCol x1 := rfl
/-- The destination column of each layer is the specification's. -/
theorem dst1_eq (x1 : TE) : val_main_v46 (F := Ideal) x1 = dstCol x1 := rfl
theorem dst2_eq (x1 : TE) : val_main_v64 (F := Ideal) x1 = dstCol x1 := rfl
theorem dst3_eq (x1 : TE) : val_main_v82 (F := Ideal) x1 = dstCol x1 := rfl

/-! ## The matrix product read at an index -/

/-- An array whose element at (i, f) is the sum over q of X (i, q) * W (q, f) is the matrix product. -/
theorem mm_read {a k b : Nat} (X : (⟨2, ![a, k]⟩ : Shape).Idx → EReal) (W : (⟨2, ![k, b]⟩ : Shape).Idx → EReal)
    (P : (⟨2, ![a, b]⟩ : Shape).Idx → EReal)
    (l : (⟨2, ![a, b]⟩ : Shape).Idx → Fin k → (⟨2, ![a, k]⟩ : Shape).Idx)
    (r : (⟨2, ![a, b]⟩ : Shape).Idx → Fin k → (⟨2, ![k, b]⟩ : Shape).Idx)
    (hl : ∀ (i : Fin a) (f : Fin b) (q : Fin k), l (ix2 i f) q = ix2 i q)
    (hr : ∀ (i : Fin a) (f : Fin b) (q : Fin k), r (ix2 i f) q = ix2 q f)
    (hP : ∀ j, P j = ∑ q : Fin k, X (l j q) * W (r j q)) :
    P = arr2 (MM (cur2 X) (cur2 W)) := by
  funext j
  obtain ⟨i, f, rfl⟩ : ∃ (i : Fin a) (f : Fin b), j = ix2 i f := ⟨j 0, j 1, eq_ix2 j⟩
  rw [hP, arr2_ix2]
  refine Finset.sum_congr rfl (fun q _ => ?_)
  rw [hl, hr]
  rfl

/-- The first layer's product. -/
theorem mm1 (x0 : TX) (x4 : TW1) : val_main_v34 (F := Ideal) x0 x4 = arr2 (MM (cur2 x0) (cur2 x4)) :=
  mm_read (a := 100000) (k := 16) (b := 64) x0 x4 _ lidx_main_v34 ridx_main_v34
    (fun i f q => funext fun d => match d with | ⟨0, _⟩ => rfl | ⟨1, _⟩ => rfl)
    (fun i f q => funext fun d => match d with | ⟨0, _⟩ => rfl | ⟨1, _⟩ => rfl)
    (val_main_v34_apply x0 x4)

/-- The second layer's product, of the first layer's array. -/
theorem mm2 (x0 : TX) (x1 : TE) (x2 : TWt) (x4 : TW1) (x5 : Tb1) (x6 : TW2) :
    val_main_v52 (F := Ideal) x0 x1 x2 x4 x5 x6
      = arr2 (MM (cur2 (val_main_v51 (F := Ideal) x0 x1 x2 x4 x5)) (cur2 x6)) :=
  mm_read (a := 100000) (k := 64) (b := 128) (val_main_v51 (F := Ideal) x0 x1 x2 x4 x5) x6 _ lidx_main_v52 ridx_main_v52
    (fun i f q => funext fun d => match d with | ⟨0, _⟩ => rfl | ⟨1, _⟩ => rfl)
    (fun i f q => funext fun d => match d with | ⟨0, _⟩ => rfl | ⟨1, _⟩ => rfl)
    (val_main_v52_apply x0 x1 x2 x4 x5 x6)

/-- The third layer's product, of the second layer's array. -/
theorem mm3 (x0 : TX) (x1 : TE) (x2 : TWt) (x4 : TW1) (x5 : Tb1) (x6 : TW2) (x7 : Tb2) (x8 : TW3) :
    val_main_v70 (F := Ideal) x0 x1 x2 x4 x5 x6 x7 x8
      = arr2 (MM (cur2 (val_main_v69 (F := Ideal) x0 x1 x2 x4 x5 x6 x7)) (cur2 x8)) :=
  mm_read (a := 100000) (k := 128) (b := 64) (val_main_v69 (F := Ideal) x0 x1 x2 x4 x5 x6 x7) x8 _ lidx_main_v70 ridx_main_v70
    (fun i f q => funext fun d => match d with | ⟨0, _⟩ => rfl | ⟨1, _⟩ => rfl)
    (fun i f q => funext fun d => match d with | ⟨0, _⟩ => rfl | ⟨1, _⟩ => rfl)
    (val_main_v70_apply x0 x1 x2 x4 x5 x6 x7 x8)

/-! ## One layer after the product, for any width -/

/-- Rows of P taken at the source column, scaled by a coefficient constant along each row, added into zeros at
    the destination column, plus a bias constant along each column, clipped below at an array of zeros: at
    (i, f) the zero contributes nothing, the sum runs over the edges landing on i, and each term is
    the product's row at the edge's source times the edge's coefficient. -/
theorem layer_read {F : Nat}
    (wg : GatherDims.WF (SRows 100000 F) (SCol 1700000) (SRows 1700000 F) [1] [0] [] [0] [] 1 ![1, F])
    (ws : ScatterDims.WF (SRows 100000 F) (SCol 1700000) (SRows 1700000 F) [1] [0] [0] 1)
    (P : (SRows 100000 F).Idx → EReal) (src dst : IVec (SCol 1700000) 32)
    (C : (SRows 1700000 F).Idx → EReal) (Z B R : (SRows 100000 F).Idx → EReal)
    (c : Fin 1700000 → EReal) (b : Fin F → EReal)
    (hC : ∀ (e : Fin 1700000) (f : Fin F), C (ix2 e f) = c e)
    (hZ : ∀ (i : Fin 100000) (f : Fin F), Z (ix2 i f) = 0)
    (hB : ∀ (i : Fin 100000) (f : Fin F), B (ix2 i f) = b f)
    (hR : ∀ (i : Fin 100000) (f : Fin F), R (ix2 i f) = 0) :
    maximumf (F := Ideal) (φ := .f32)
        (addf (F := Ideal) (φ := .f32)
          (Ideal.hostScatterAdd (rowScatterDims 100000 1700000 F ws) Z dst
            (mulf (F := Ideal) (φ := .f32) (Host.gather (rowGatherDims 100000 1700000 F wg) P src) C)) B) R
      = arr2 (ReluB (Agg (rowClamp (N := 100000) (E := 1700000) (by decide) src) (rowLand (N := 100000) (E := 1700000) dst) c
          (cur2 P)) b) := by
  funext j
  obtain ⟨i, f, rfl⟩ : ∃ (i : Fin 100000) (f : Fin F), j = ix2 i f := ⟨j 0, j 1, eq_ix2 j⟩
  rw [arr2_ix2, maximumf_apply, addf_apply, rowScatterAdd_apply, hZ, hB, hR, zero_add]
  show max (_ + b f) 0
    = max ((∑ e ∈ Finset.univ.filter (fun e : Fin 1700000 => rowLand (N := 100000) (E := 1700000) dst e = some i),
        cur2 P (rowClamp (N := 100000) (E := 1700000) (by decide) src e) f * c e) + b f) 0
  refine congrArg (fun t => max (t + b f) 0) ?_
  refine Finset.sum_congr rfl (fun e _ => ?_)
  rw [mulf_apply, rowGather_apply (by decide), hC]
  rfl

/-! ## The leaves of each layer: the coefficient, the zeros, the bias -/

/-- The coefficient broadcast along the row, first layer: at (e, f) the edge's coefficient. -/
theorem coef1 (x1 : TE) (x2 : TWt) (e : Fin 1700000) (f : Fin 64) :
    val_main_v43 (F := Ideal) x1 x2 (ix2 e f) = nv x1 x2 e := by
  rw [val_main_v43_apply, val_main_v42_apply]
  exact congrArg (val_main_v33 (F := Ideal) x1 x2) (funext fun d => match d with | ⟨0, _⟩ => rfl)
/-- … second layer … -/
theorem coef2 (x1 : TE) (x2 : TWt) (e : Fin 1700000) (f : Fin 128) :
    val_main_v61 (F := Ideal) x1 x2 (ix2 e f) = nv x1 x2 e := by
  rw [val_main_v61_apply, val_main_v60_apply]
  exact congrArg (val_main_v33 (F := Ideal) x1 x2) (funext fun d => match d with | ⟨0, _⟩ => rfl)
/-- … third layer. -/
theorem coef3 (x1 : TE) (x2 : TWt) (e : Fin 1700000) (f : Fin 64) :
    val_main_v79 (F := Ideal) x1 x2 (ix2 e f) = nv x1 x2 e := by
  rw [val_main_v79_apply, val_main_v78_apply]
  exact congrArg (val_main_v33 (F := Ideal) x1 x2) (funext fun d => match d with | ⟨0, _⟩ => rfl)

/-- The arrays of zeros the rows are added into, and the ones the clip compares with: the zero word is 0. -/
theorem zero1 (j : S100000x64.Idx) : val_main_v45 (F := Ideal) j = 0 := by
  rw [val_main_v45_apply, val_main_cst_9_apply]; exact Ideal.ofBits_zero_f32
theorem zero2 (j : S100000x128.Idx) : val_main_v63 (F := Ideal) j = 0 := by
  rw [val_main_v63_apply, val_main_cst_12_apply]; exact Ideal.ofBits_zero_f32
theorem zero3 (j : S100000x64.Idx) : val_main_v81 (F := Ideal) j = 0 := by
  rw [val_main_v81_apply, val_main_cst_15_apply]; exact Ideal.ofBits_zero_f32
theorem clip1 (j : S100000x64.Idx) : val_main_call1_v0 (F := Ideal) j = 0 := by
  rw [val_main_call1_v0_apply, val_main_call1_cst_apply]; exact Ideal.ofBits_zero_f32
theorem clip2 (j : S100000x128.Idx) : val_main_call2_v0 (F := Ideal) j = 0 := by
  rw [val_main_call2_v0_apply, val_main_call2_cst_apply]; exact Ideal.ofBits_zero_f32
theorem clip3 (j : S100000x64.Idx) : val_main_call3_v0 (F := Ideal) j = 0 := by
  rw [val_main_call3_v0_apply, val_main_call3_cst_apply]; exact Ideal.ofBits_zero_f32
theorem zeroP (j : S64x64.Idx) : val_main_v92 (F := Ideal) j = 0 := by
  rw [val_main_v92_apply, val_main_cst_18_apply]; exact Ideal.ofBits_zero_f32

/-- The bias row broadcast down the nodes: at (i, f) the bias at f. -/
theorem bias1 (x5 : Tb1) (i : Fin 100000) (f : Fin 64) : val_main_v49 (F := Ideal) x5 (ix2 i f) = cur1 x5 f := by
  rw [val_main_v49_apply, val_main_v48_apply]
  exact congrArg x5 (funext fun d => match d with | ⟨0, _⟩ => rfl)
theorem bias2 (x7 : Tb2) (i : Fin 100000) (f : Fin 128) : val_main_v67 (F := Ideal) x7 (ix2 i f) = cur1 x7 f := by
  rw [val_main_v67_apply, val_main_v66_apply]
  exact congrArg x7 (funext fun d => match d with | ⟨0, _⟩ => rfl)
theorem bias3 (x9 : Tb3) (i : Fin 100000) (f : Fin 64) : val_main_v85 (F := Ideal) x9 (ix2 i f) = cur1 x9 f := by
  rw [val_main_v85_apply, val_main_v84_apply]
  exact congrArg x9 (funext fun d => match d with | ⟨0, _⟩ => rfl)

/-! ## The three layers, the pooled sums, the result -/

variable (x0 : TX) (x1 : TE) (x2 : TWt) (x3 : TB) (x4 : TW1) (x5 : Tb1) (x6 : TW2) (x7 : Tb2) (x8 : TW3) (x9 : Tb3)
  (x10 : TWf) (x11 : Tbf)

/-- The first layer. -/
theorem ref_h1 : val_main_v51 (F := Ideal) x0 x1 x2 x4 x5 = arr2 (H1 x0 x1 x2 x4 x5) := by
  have e : val_main_v51 (F := Ideal) x0 x1 x2 x4 x5
      = maximumf (F := Ideal) (φ := .f32)
          (addf (F := Ideal) (φ := .f32)
            (Ideal.hostScatterAdd
              (rowScatterDims 100000 1700000 64 Cert.ReferenceIdeal.Gen.scatter_S100000x64_S1700000x1_S1700000x64_1_0_0_1_wf)
              (val_main_v45 (F := Ideal)) (dstCol x1)
              (mulf (F := Ideal) (φ := .f32)
                (Host.gather
                  (rowGatherDims 100000 1700000 64 Cert.ReferenceIdeal.Gen.gather_S100000x64_S1700000x1_S1700000x64_1_0_n_n_0_1_164_wf)
                  (val_main_v34 (F := Ideal) x0 x4) (srcCol x1))
                (val_main_v43 (F := Ideal) x1 x2)))
            (val_main_v49 (F := Ideal) x5))
          (val_main_call1_v0 (F := Ideal)) := rfl
  rw [e, layer_read _ _ _ _ _ _ _ _ _ (nv x1 x2) (cur1 x5) (coef1 x1 x2) (fun i f => zero1 _) (bias1 x5)
    (fun i f => clip1 _), mm1]
  rfl

/-- The second layer, of the first layer's array. -/
theorem ref_h2 : val_main_v69 (F := Ideal) x0 x1 x2 x4 x5 x6 x7 = arr2 (H2 x0 x1 x2 x4 x5 x6 x7) := by
  have e : val_main_v69 (F := Ideal) x0 x1 x2 x4 x5 x6 x7
      = maximumf (F := Ideal) (φ := .f32)
          (addf (F := Ideal) (φ := .f32)
            (Ideal.hostScatterAdd
              (rowScatterDims 100000 1700000 128 Cert.ReferenceIdeal.Gen.scatter_S100000x128_S1700000x1_S1700000x128_1_0_0_1_wf)
              (val_main_v63 (F := Ideal)) (dstCol x1)
              (mulf (F := Ideal) (φ := .f32)
                (Host.gather
                  (rowGatherDims 100000 1700000 128 Cert.ReferenceIdeal.Gen.gather_S100000x128_S1700000x1_S1700000x128_1_0_n_n_0_1_1128_wf)
                  (val_main_v52 (F := Ideal) x0 x1 x2 x4 x5 x6) (srcCol x1))
                (val_main_v61 (F := Ideal) x1 x2)))
            (val_main_v67 (F := Ideal) x7))
          (val_main_call2_v0 (F := Ideal)) := rfl
  rw [e, layer_read _ _ _ _ _ _ _ _ _ (nv x1 x2) (cur1 x7) (coef2 x1 x2) (fun i f => zero2 _) (bias2 x7)
    (fun i f => clip2 _), mm2, ref_h1]
  rfl

/-- The third layer, of the second layer's array. -/
theorem ref_h3 : val_main_v87 (F := Ideal) x0 x1 x2 x4 x5 x6 x7 x8 x9 = arr2 (H3 x0 x1 x2 x4 x5 x6 x7 x8 x9) := by
  have e : val_main_v87 (F := Ideal) x0 x1 x2 x4 x5 x6 x7 x8 x9
      = maximumf (F := Ideal) (φ := .f32)
          (addf (F := Ideal) (φ := .f32)
            (Ideal.hostScatterAdd
              (rowScatterDims 100000 1700000 64 Cert.ReferenceIdeal.Gen.scatter_S100000x64_S1700000x1_S1700000x64_1_0_0_1_wf)
              (val_main_v81 (F := Ideal)) (dstCol x1)
              (mulf (F := Ideal) (φ := .f32)
                (Host.gather
                  (rowGatherDims 100000 1700000 64 Cert.ReferenceIdeal.Gen.gather_S100000x64_S1700000x1_S1700000x64_1_0_n_n_0_1_164_wf)
                  (val_main_v70 (F := Ideal) x0 x1 x2 x4 x5 x6 x7 x8) (srcCol x1))
                (val_main_v79 (F := Ideal) x1 x2)))
            (val_main_v85 (F := Ideal) x9))
          (val_main_call3_v0 (F := Ideal)) := rfl
  rw [e, layer_read _ _ _ _ _ _ _ _ _ (nv x1 x2) (cur1 x9) (coef3 x1 x2) (fun i f => zero3 _) (bias3 x9)
    (fun i f => clip3 _), mm3, ref_h2]
  rfl

/-- The pooled sums: the third layer's rows added into zeros at each node's graph. -/
theorem ref_pooled : val_main_v94 (F := Ideal) x0 x1 x2 x3 x4 x5 x6 x7 x8 x9
    = arr2 (Pooled x3 (H3 x0 x1 x2 x4 x5 x6 x7 x8 x9)) := by
  have e : val_main_v94 (F := Ideal) x0 x1 x2 x3 x4 x5 x6 x7 x8 x9
      = Ideal.hostScatterAdd
          (rowScatterDims 64 100000 64 Cert.ReferenceIdeal.Gen.scatter_S64x64_S100000x1_S100000x64_1_0_0_1_wf)
          (val_main_v92 (F := Ideal)) (val_main_v93 (F := Ideal) x3)
          (val_main_v87 (F := Ideal) x0 x1 x2 x4 x5 x6 x7 x8 x9) := rfl
  rw [e, ref_h3]
  funext j
  obtain ⟨g, f, rfl⟩ : ∃ (g : Fin 64) (f : Fin 64), j = ix2 g f := ⟨j 0, j 1, eq_ix2 j⟩
  rw [rowScatterAdd_apply, zeroP, zero_add]
  rfl

/-- The result: the reference's last operations are the tail, applied to its pooled sums. -/
theorem ref_result : val_main_v103 (F := Ideal) x0 x1 x2 x3 x4 x5 x6 x7 x8 x9 x10 x11
    = tail (arr2 (Pooled x3 (H3 x0 x1 x2 x4 x5 x6 x7 x8 x9))) x3 x10 x11 := by
  have e : val_main_v103 (F := Ideal) x0 x1 x2 x3 x4 x5 x6 x7 x8 x9 x10 x11
      = tail (val_main_v94 (F := Ideal) x0 x1 x2 x3 x4 x5 x6 x7 x8 x9) x3 x10 x11 := rfl
  rw [e, ref_pooled]

end Cert.RefValue

end
-- ==== Proof.Finite.lean ====
/-
  Finiteness. The precondition says every float argument is finite (its absolute value is below +∞, element by element,
  all the tests and-ed together), so each entry of those arrays is a real number. The edge coefficients
  `dinv[src] · w · dinv[dst]` are then real as well: `dinv` is 0 where the degree is not positive and otherwise the
  reciprocal square root of `max (deg, 1e-30)`, which is at least a positive real, so it is a real whatever the degree
  is (the reciprocal square root of +∞ is 0); the weights extended by ones are real because the edge weights are.
-/
import proofs.«407297_j7748121002089_3_alg».proof.Pre_finite_inputs
import proofs.«407297_j7748121002089_3_alg».proof.Proof.Gen.Pre_finite_inputs
import proofs.«407297_j7748121002089_3_alg».proof.Proof.Spec
import Idealize.ShloMosaic.Lib.ReduceAll
import Idealize.ShloMosaic.Lib.Pipeline.Value

noncomputable section

open scoped BigOperators

namespace Cert.Finite

open Cert.Spec Cert.GcnMath Cert.ReferenceIdeal Cert.ReferenceIdeal.Read
open Idealize.ShloMosaic Idealize.ShloMosaic.ValueIdx Idealize.ShloMosaic.RowIndex

/-- The rank-0 shape has one index. -/
instance : Subsingleton Cert.Pre_finite_inputs.S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value is below +∞ is a real: at ⊤ and at ⊥ the absolute value is ⊤. -/
theorem isFin_of_abs_lt_top (x : EReal) (h : Ideal.cmp .olt (max x (-x)) (⊤ : EReal) = 1#1) : IsFin x := by
  induction x using EReal.rec with
  | bot => simp [Ideal.cmp] at h
  | coe r => exact ⟨r, rfl⟩
  | top => simp [Ideal.cmp] at h

/-- An array whose test `|·| < +∞`, taken element by element and reduced by `and` to one bit, gives 1 has real entries. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) : IsFin (x i) := by
  have e := Host.reduce_andi_all _ _ hr hu ix0 h i
  refine isFin_of_abs_lt_top (x i) ?_
  rw [← ofBits_inf]
  exact e

/-- Under the precondition the float arguments the layers' algebra uses are real, entry by entry. -/
theorem args_finite (x0 : TX) (x1 : TE) (x2 : TWt) (x3 : TB) (x4 : TW1) (x5 : Tb1) (x6 : TW2) (x7 : Tb2) (x8 : TW3) (x9 : Tb3)
    (x10 : TWf) (x11 : Tbf)
    (h : Cert.Pre_finite_inputs.fn (F := Ideal) x0 x1 x2 x3 x4 x5 x6 x7 x8 x9 x10 x11 = fun _ => 1#1) :
    (∀ i, IsFin (x0 i)) ∧ (∀ i, IsFin (x2 i)) ∧ (∀ i, IsFin (x4 i)) ∧ (∀ i, IsFin (x5 i)) ∧ (∀ i, IsFin (x6 i)) ∧ (∀ i, IsFin (x7 i)) := by
  -- the one bit of the result is the conjunction of the ten arrays' bits
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨a0, a2⟩, a4⟩, a5⟩, a6⟩, a7⟩, _⟩, _⟩, _⟩, _⟩ := h0
  exact ⟨real_of_all x0 _ _ _ a0, real_of_all x2 _ _ _ a2, real_of_all x4 _ _ _ a4, real_of_all x5 _ _ _ a5,
    real_of_all x6 _ _ _ a6, real_of_all x7 _ _ _ a7⟩

/-- The clipping constant `1e-30` (the pattern 0x0DA24260) is a positive real. -/
theorem clip_pos : ∃ c : ℝ, 0 < c ∧ Ideal.ofBits .f32 0x0DA24260#32 = (c : EReal) :=
  ⟨10633824 * (2 ^ 123)⁻¹, by positivity, by simp [Ideal.ofBits, Ideal.ieee, -EReal.coe_mul]⟩

/-- The pattern 0x3F800000 is 1. -/
theorem ofBits_one : Ideal.ofBits .f32 0x3F800000#32 = (1 : EReal) := by
  simp [Ideal.ofBits, Ideal.ieee, -EReal.coe_mul]; norm_num

/-- The reciprocal square root of a positive real is a real. -/
theorem isFin_rsqrt_pos (r : ℝ) (hr : 0 < r) : IsFin (Ideal.rsqrt (r : EReal)) := by
  rw [Ideal.rsqrt_coe, if_neg (not_lt.2 hr.le), if_neg hr.ne']
  exact isFin_coe _

/-- The reciprocal square root of `max d c`, `c` a positive real, is a real whatever `d` is: the maximum is `c`
    when `d = ⊥`, a real at least `c` when `d` is real, and `⊤` when `d = ⊤`, where the reciprocal square root is 0. -/
theorem isFin_rsqrt_max (d : EReal) (c : ℝ) (hc : 0 < c) : IsFin (Ideal.rsqrt (max d (c : EReal))) := by
  induction d using EReal.rec with
  | bot => rw [max_eq_right bot_le]; exact isFin_rsqrt_pos c hc
  | coe a =>
    rcases le_total a c with hac | hca
    · rw [max_eq_right (EReal.coe_le_coe_iff.2 hac)]; exact isFin_rsqrt_pos c hc
    · rw [max_eq_left (EReal.coe_le_coe_iff.2 hca)]; exact isFin_rsqrt_pos a (lt_of_lt_of_le hc hca)
  | top => rw [max_eq_left le_top, Ideal.rsqrt_top]; exact isFin_zero

/-- Every entry of `dinv` is a real: 0 where the degree is not positive, else the reciprocal square root of the
    degree clipped below at a positive real. -/
theorem dinv_finite (x1 : TE) (x2 : TWt) (j : S100000.Idx) : IsFin (val_main_v17 (F := Ideal) x1 x2 j) := by
  rw [val_main_v17_apply]
  by_cases hb : val_main_v13 (F := Ideal) x1 x2 j = 1#1
  · rw [hb, select_one, val_main_v16_apply, Ideal.hostUnary_rsqrt_def, val_main_v15_apply, Ideal.maximumf_def,
      val_main_v14_apply, val_main_cst_2_apply]
    obtain ⟨c, hc, ec⟩ := clip_pos
    show IsFin (Ideal.rsqrt (max _ (Ideal.ofBits .f32 0x0DA24260#32)))
    rw [ec]
    exact isFin_rsqrt_max _ c hc
  · rw [eq_zero_of_ne_one hb, select_zero, val_main_call0_v1_apply, val_main_call0_v0_apply, val_main_cst_3_apply]
    show IsFin (Ideal.ofBits .f32 0x00000000#32)
    rw [Ideal.ofBits_zero_f32]
    exact isFin_zero

/-- The weights extended by ones are real when the weights are: an entry below 1600000 is a weight, a later one is 1. -/
theorem w2_finite (x2 : TWt) (h2 : ∀ i, IsFin (x2 i)) (j : S1700000.Idx) : IsFin (val_main_v8 (F := Ideal) x2 j) := by
  unfold val_main_v8
  by_cases hj : (j 0).val < 1600000
  · rw [concatenate_pair_apply_left (0 : Fin S1700000.rank) x2 (val_main_v7 (F := Ideal)) _ j rfl (ix1 ⟨(j 0).val, hj⟩)
      (fun b => match b with | ⟨0, _⟩ => rfl)]
    exact h2 _
  · have hj' : (j 0).val < 1700000 := (j 0).isLt
    have hlt : (j 0).val - 1600000 < 100000 := by omega
    rw [concatenate_pair_apply_right (0 : Fin S1700000.rank) x2 (val_main_v7 (F := Ideal)) _ j rfl rfl
      (ix1 ⟨(j 0).val - 1600000, hlt⟩) (fun b hb => absurd (Subsingleton.elim _ _) hb)
      (by show (j 0).val - 1600000 + 1600000 = (j 0).val; omega)]
    rw [val_main_v7_apply, val_main_cst_apply]
    show IsFin (Ideal.ofBits .f32 0x3F800000#32)
    rw [ofBits_one]
    exact isFin_one

/-- A gather's element is an element of its operand, so a gather of an array of reals has real entries. -/
theorem isFin_gather {s si t : Shape} {w : Nat} (d : GatherDims s si t) (x : s.Idx → EReal) (idx : IVec si w)
    (hx : ∀ j, IsFin (x j)) (i : t.Idx) : IsFin (Host.gather d x idx i) := hx _

/-- The edge coefficients are real when the edge weights are. -/
theorem nv_finite (x1 : TE) (x2 : TWt) (h2 : ∀ i, IsFin (x2 i)) (e : Fin 1700000) : IsFin (nv x1 x2 e) := by
  -- the coefficient is (dinv at some node · the extended weight) · dinv at some node
  show IsFin (val_main_v33 (F := Ideal) x1 x2 (ix1 e))
  rw [val_main_v33_apply, Ideal.mulf_def, val_main_v25_apply, Ideal.mulf_def]
  refine IsFin.mul (IsFin.mul ?_ (w2_finite x2 h2 _)) ?_
  · unfold val_main_v24
    exact isFin_gather _ _ _ (dinv_finite x1 x2) _
  · unfold val_main_v32
    exact isFin_gather _ _ _ (dinv_finite x1 x2) _

end Cert.Finite

end
-- ==== Proof.Bridge.lean ====
/-
  The two programs compute the same result, at the exact values, under the precondition. The reference's result is the
  shared tail of the pooled sums of three layers, each "multiply, aggregate, add the bias, clip"; the kernel's is the same
  tail of the same pooled sums with the first two layers as "aggregate, multiply, add the bias, clip". Aggregation commutes
  with the product on finite entries: the inputs are finite by the precondition, the edge coefficients are finite, and
  each layer's output is finite, which feeds the next layer; the third layer is the same on both sides.
-/
import proofs.«407297_j7748121002089_3_alg».proof.Proof.KI.KerValue
import proofs.«407297_j7748121002089_3_alg».proof.Proof.RefValue
import proofs.«407297_j7748121002089_3_alg».proof.Proof.Finite

noncomputable section

open scoped BigOperators

namespace Cert.Bridge

open Idealize.ShloMosaic Idealize.ShloMosaic.ValueIdx
open Cert.GcnMath Cert.Spec

/-- The three layers as the kernel computes them are the three layers as the reference does, on finite inputs. -/
theorem layers_eq (x0 : TX) (x1 : TE) (x2 : TWt) (x4 : TW1) (x5 : Tb1) (x6 : TW2) (x7 : Tb2) (x8 : TW3) (x9 : Tb3)
    (h0 : ∀ i, IsFin (x0 i)) (h2 : ∀ i, IsFin (x2 i)) (h4 : ∀ i, IsFin (x4 i)) (h5 : ∀ i, IsFin (x5 i))
    (h6 : ∀ i, IsFin (x6 i)) :
    K3 x1 x2 (K2 x1 x2 (K1 x0 x1 x2 x4 x5) x6 x7) x8 x9 = H3 x0 x1 x2 x4 x5 x6 x7 x8 x9 := by
  have hn : ∀ e, IsFin (nv x1 x2 e) := Cert.Finite.nv_finite x1 x2 h2
  have e1 : K1 x0 x1 x2 x4 x5 = H1 x0 x1 x2 x4 x5 :=
    layer_eq (row x1) (land x1) (nv x1 x2) (cur2 x0) (cur2 x4) (cur1 x5) (fun i k => h0 _) (fun k f => h4 _) hn
  have f1 : ∀ i f, IsFin (H1 x0 x1 x2 x4 x5 i f) := fun i f =>
    isFin_layer (row x1) (land x1) (nv x1 x2) (cur2 x0) (cur2 x4) (cur1 x5) (fun i k => h0 _) (fun k f => h4 _) hn
      (fun f => h5 _) i f
  have e2 : K2 x1 x2 (H1 x0 x1 x2 x4 x5) x6 x7 = H2 x0 x1 x2 x4 x5 x6 x7 :=
    layer_eq (row x1) (land x1) (nv x1 x2) (H1 x0 x1 x2 x4 x5) (cur2 x6) (cur1 x7) f1 (fun k f => h6 _) hn
  rw [e1, e2]
  rfl

open Cert.KernelIdeal Cert.KernelIdeal.Hand in
/-- THE BRIDGE: on a memory whose arguments satisfy the precondition, the kernel program's result buffer at the end of
    the fold holds the reference's result term of the same arguments. -/
theorem kernel_eq_reference (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (a0 m c) (a1 m c) (a2 m c) (a3 m c) (a4 m c) (a5 m c) (a6 m c) (a7 m c)
      (a8 m c) (a9 m c) (a10 m c) (a11 m c) = fun _ => 1#1) :
    w16_res m ρ c
      = Cert.ReferenceIdeal.Read.val_main_v103 (F := Ideal) (a0 m c) (a1 m c) (a2 m c) (a3 m c) (a4 m c) (a5 m c) (a6 m c)
          (a7 m c) (a8 m c) (a9 m c) (a10 m c) (a11 m c) := by
  obtain ⟨h0, h2, h4, h5, h6, _⟩ := Cert.Finite.args_finite _ _ _ _ _ _ _ _ _ _ _ _ hpre
  rw [kv_result, Cert.RefValue.ref_result,
    layers_eq (a0 m c) (a1 m c) (a2 m c) (a4 m c) (a5 m c) (a6 m c) (a7 m c) (a8 m c) (a9 m c) h0 h2 h4 h5 h6]

end Cert.Bridge

end
-- ==== Proof.lean ====
/-
  A three-layer graph convolution network with mean pooling, kernel against reference, over the extended reals.

  Both programs normalize the edge list extended by self-loops: edge `e` reads node row `row e`, adds into node row
  `land e` and carries the coefficient `dinv[src] · w · dinv[dst]`. A layer is `relu (A (H W) + b)` with `A` the
  aggregation "gather rows, scale, scatter-add". The reference computes every layer in that order. The kernel computes
  the first two layers as `relu ((A H) W + b)`, aggregating on the narrower width before a blocked matrix product
  with the bias and the clipping fused, and the third in the reference's order with the product and the bias-and-clip as
  two blocked kernels; it pools by a blocked product with the one-hot assignment matrix built from the graph ids, padded
  to a multiple of the block, where the reference scatter-adds the rows into their graphs.
  `A (H W) = (A H) W` because aggregation is linear — on FINITE entries: over the extended reals distributivity and the
  exchange of two sums fail at infinities. The precondition makes the inputs finite; the coefficients are finite whatever
  the degrees are (the reciprocal square root of `max (deg, 1e-30)` is a real); each layer's output is then finite, which
  feeds the next. The one-hot product is the scatter-add with no finiteness at all (`0 · x = 0`, `1 · x = x`), a change
  of float format is the identity, and the tail after pooling is the same operations in both programs.
  The three frames: each kernel program runs through its eleven stretches of host operations and five kernel regions
  with the buffers' contents named at every boundary, and no item writes an argument; the reference is a plain sequence
  of host operations. The idealized kernel is the word-level kernel's own text (no rewrite was applied).
-/
import proofs.«407297_j7748121002089_3_alg».proof.Defs
import proofs.«407297_j7748121002089_3_alg».proof.Proof.Gen.Kernel
import proofs.«407297_j7748121002089_3_alg».proof.Proof.Gen.KernelIdeal
import proofs.«407297_j7748121002089_3_alg».proof.Proof.Gen.ReferenceIdeal
import proofs.«407297_j7748121002089_3_alg».proof.Proof.Gen.Pre_finite_inputs
import proofs.«407297_j7748121002089_3_alg».proof.Proof.Gen.ReferenceIdeal.Run
import proofs.«407297_j7748121002089_3_alg».proof.Proof.Gen.ReferenceIdeal.Read
import proofs.«407297_j7748121002089_3_alg».proof.Proof.K.Run
import proofs.«407297_j7748121002089_3_alg».proof.Proof.KI.Run
import proofs.«407297_j7748121002089_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame_run (F := Bits) m ρ

/-- So does the idealized one. -/
theorem frame_ki : Cert.frame_KernelIdeal := fun m ρ _ => Cert.KernelIdeal.Hand.frame_run (F := Ideal) m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- From memories agreeing on the arguments, under the precondition, both programs end with the same result: the
    kernel's final buffer is the reference's result term of the same arguments. -/
theorem algebraic : Cert.algebraic_KernelIdeal_ReferenceIdeal := by
  intro m ρ m' ρ' hpre hagree
  refine ⟨fun c => Cert.KernelIdeal.Hand.W16 m ρ c (Proc.devRef .tc Cert.KernelIdeal.main_v99),
    Cert.KernelIdeal.Hand.value_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v103_eq, e0, e1, e2, e3, e4, e5, e6, e7, e8, e9, e10, e11]
  exact (Cert.Bridge.kernel_eq_reference m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
